-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S32768 : Shape := ⟨1, ![32768]⟩
abbrev S16x64 : Shape := ⟨2, ![16, 64]⟩
abbrev S16 : Shape := ⟨1, ![16]⟩
abbrev S64x16 : Shape := ⟨2, ![64, 16]⟩
abbrev S64 : Shape := ⟨1, ![64]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S32768x64 .f32) (main_arg1 : IVec S32768 32) (main_arg2 : FVec F S16x64 .f32) (main_arg3 : FVec F S16 .f32) (main_arg4 : FVec F S64x16 .f32) (main_arg5 : FVec F S64 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S16x64 .f32 := Host.absf main_arg2
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S32768x64 : Shape := ⟨2, ![32768, 64]⟩
abbrev S32768 : Shape := ⟨1, ![32768]⟩
abbrev S16x64 : Shape := ⟨2, ![16, 64]⟩
abbrev S16 : Shape := ⟨1, ![16]⟩
abbrev S64x16 : Shape := ⟨2, ![64, 16]⟩
abbrev S64 : Shape := ⟨1, ![64]⟩
abbrev S_ : Shape := ⟨0, ![]⟩
abbrev S64x64 : Shape := ⟨2, ![64, 64]⟩
abbrev S32768x1 : Shape := ⟨2, ![32768, 1]⟩
abbrev S64x1 : Shape := ⟨2, ![64, 1]⟩
abbrev S1x16 : Shape := ⟨2, ![1, 16]⟩
abbrev S1x64 : Shape := ⟨2, ![1, 64]⟩
abbrev S64x512x64 : Shape := ⟨3, ![64, 512, 64]⟩
abbrev S64x1064960 : Shape := ⟨2, ![64, 1064960]⟩
abbrev S64x32x64 : Shape := ⟨3, ![64, 32, 64]⟩
abbrev S64x66560 : Shape := ⟨2, ![64, 66560]⟩
abbrev S64x32x2080 : Shape := ⟨3, ![64, 32, 2080]⟩
abbrev S64x32x1 : Shape := ⟨3, ![64, 32, 1]⟩
abbrev S64x32x63 : Shape := ⟨3, ![64, 32, 63]⟩
abbrev S64x32x62 : Shape := ⟨3, ![64, 32, 62]⟩
abbrev S64x32x61 : Shape := ⟨3, ![64, 32, 61]⟩
abbrev S64x32x60 : Shape := ⟨3, ![64, 32, 60]⟩
abbrev S64x32x59 : Shape := ⟨3, ![64, 32, 59]⟩
abbrev S64x32x58 : Shape := ⟨3, ![64, 32, 58]⟩
abbrev S64x32x57 : Shape := ⟨3, ![64, 32, 57]⟩
abbrev S64x32x56 : Shape := ⟨3, ![64, 32, 56]⟩
abbrev S64x32x55 : Shape := ⟨3, ![64, 32, 55]⟩
abbrev S64x32x54 : Shape := ⟨3, ![64, 32, 54]⟩
abbrev S64x32x53 : Shape := ⟨3, ![64, 32, 53]⟩
abbrev S64x32x52 : Shape := ⟨3, ![64, 32, 52]⟩
abbrev S64x32x51 : Shape := ⟨3, ![64, 32, 51]⟩
abbrev S64x32x50 : Shape := ⟨3, ![64, 32, 50]⟩
abbrev S64x32x49 : Shape := ⟨3, ![64, 32, 49]⟩
abbrev S64x32x48 : Shape := ⟨3, ![64, 32, 48]⟩
abbrev S64x32x47 : Shape := ⟨3, ![64, 32, 47]⟩
abbrev S64x32x46 : Shape := ⟨3, ![64, 32, 46]⟩
abbrev S64x32x45 : Shape := ⟨3, ![64, 32, 45]⟩
abbrev S64x32x44 : Shape := ⟨3, ![64, 32, 44]⟩
abbrev S64x32x43 : Shape := ⟨3, ![64, 32, 43]⟩
abbrev S64x32x42 : Shape := ⟨3, ![64, 32, 42]⟩
abbrev S64x32x41 : Shape := ⟨3, ![64, 32, 41]⟩
abbrev S64x32x40 : Shape := ⟨3, ![64, 32, 40]⟩
abbrev S64x32x39 : Shape := ⟨3, ![64, 32, 39]⟩
abbrev S64x32x38 : Shape := ⟨3, ![64, 32, 38]⟩
abbrev S64x32x37 : Shape := ⟨3, ![64, 32, 37]⟩
abbrev S64x32x36 : Shape := ⟨3, ![64, 32, 36]⟩
abbrev S64x32x35 : Shape := ⟨3, ![64, 32, 35]⟩
abbrev S64x32x34 : Shape := ⟨3, ![64, 32, 34]⟩
abbrev S64x32x33 : Shape := ⟨3, ![64, 32, 33]⟩
abbrev S64x32x32 : Shape := ⟨3, ![64, 32, 32]⟩
abbrev S64x32x31 : Shape := ⟨3, ![64, 32, 31]⟩
abbrev S64x32x30 : Shape := ⟨3, ![64, 32, 30]⟩
abbrev S64x32x29 : Shape := ⟨3, ![64, 32, 29]⟩
abbrev S64x32x28 : Shape := ⟨3, ![64, 32, 28]⟩
abbrev S64x32x27 : Shape := ⟨3, ![64, 32, 27]⟩
abbrev S64x32x26 : Shape := ⟨3, ![64, 32, 26]⟩
abbrev S64x32x25 : Shape := ⟨3, ![64, 32, 25]⟩
abbrev S64x32x24 : Shape := ⟨3, ![64, 32, 24]⟩
abbrev S64x32x23 : Shape := ⟨3, ![64, 32, 23]⟩
abbrev S64x32x22 : Shape := ⟨3, ![64, 32, 22]⟩
abbrev S64x32x21 : Shape := ⟨3, ![64, 32, 21]⟩
abbrev S64x32x20 : Shape := ⟨3, ![64, 32, 20]⟩
abbrev S64x32x19 : Shape := ⟨3, ![64, 32, 19]⟩
abbrev S64x32x18 : Shape := ⟨3, ![64, 32, 18]⟩
abbrev S64x32x17 : Shape := ⟨3, ![64, 32, 17]⟩
abbrev S64x32x16 : Shape := ⟨3, ![64, 32, 16]⟩
abbrev S64x32x15 : Shape := ⟨3, ![64, 32, 15]⟩
abbrev S64x32x14 : Shape := ⟨3, ![64, 32, 14]⟩
abbrev S64x32x13 : Shape := ⟨3, ![64, 32, 13]⟩
abbrev S64x32x12 : Shape := ⟨3, ![64, 32, 12]⟩
abbrev S64x32x11 : Shape := ⟨3, ![64, 32, 11]⟩
abbrev S64x32x10 : Shape := ⟨3, ![64, 32, 10]⟩
abbrev S64x32x9 : Shape := ⟨3, ![64, 32, 9]⟩
abbrev S64x32x8 : Shape := ⟨3, ![64, 32, 8]⟩
abbrev S64x32x7 : Shape := ⟨3, ![64, 32, 7]⟩
abbrev S64x32x6 : Shape := ⟨3, ![64, 32, 6]⟩
abbrev S64x32x5 : Shape := ⟨3, ![64, 32, 5]⟩
abbrev S64x32x4 : Shape := ⟨3, ![64, 32, 4]⟩
abbrev S64x32x3 : Shape := ⟨3, ![64, 32, 3]⟩
abbrev S64x32x2 : Shape := ⟨3, ![64, 32, 2]⟩
abbrev S64x1x2080 : Shape := ⟨3, ![64, 1, 2080]⟩
abbrev S64x2080 : Shape := ⟨2, ![64, 2080]⟩

abbrev nBuf : Space → Nat
  | .hbm => 56
  | .vmem => 5
  | .smem => 0
  | _ => 0

abbrev bufTy : (tb : Table) → Fin (tcTables nBuf tb) → BufTy
  | .hbm, ⟨0, _⟩ => ⟨S32768x64, .f32⟩
  | .hbm, ⟨1, _⟩ => ⟨S32768, .i32⟩
  | .hbm, ⟨2, _⟩ => ⟨S16x64, .f32⟩
  | .hbm, ⟨3, _⟩ => ⟨S16, .f32⟩
  | .hbm, ⟨4, _⟩ => ⟨S64x16, .f32⟩
  | .hbm, ⟨5, _⟩ => ⟨S64, .f32⟩
  | .hbm, ⟨6, _⟩ => ⟨S_, .f32⟩
  | .hbm, ⟨7, _⟩ => ⟨S64x64, .f32⟩
  | .hbm, ⟨8, _⟩ => ⟨S32768x1, .i32⟩
  | .hbm, ⟨9, _⟩ => ⟨S64x64, .f32⟩
  | .hbm, ⟨10, _⟩ => ⟨S_, .f32⟩
  | .hbm, ⟨11, _⟩ => ⟨S32768x1, .f32⟩
  | .hbm, ⟨12, _⟩ => ⟨S_, .f32⟩
  | .hbm, ⟨13, _⟩ => ⟨S64x1, .f32⟩
  | .hbm, ⟨14, _⟩ => ⟨S32768x1, .i32⟩
  | .hbm, ⟨15, _⟩ => ⟨S64x1, .f32⟩
  | .hbm, ⟨16, _⟩ => ⟨S64x64, .f32⟩
  | .hbm, ⟨17, _⟩ => ⟨S64x64, .f32⟩
  | .hbm, ⟨18, _⟩ => ⟨S64x16, .f32⟩
  | .hbm, ⟨19, _⟩ => ⟨S64x16, .f32⟩
  | .hbm, ⟨20, _⟩ => ⟨S1x16, .f32⟩
  | .hbm, ⟨21, _⟩ => ⟨S64x16, .f32⟩
  | .hbm, ⟨22, _⟩ => ⟨S64x16, .f32⟩
  | .hbm, ⟨23, _⟩ => ⟨S_, .f32⟩
  | .hbm, ⟨24, _⟩ => ⟨S_, .f32⟩
  | .hbm, ⟨25, _⟩ => ⟨S64x16, .f32⟩
  | .hbm, ⟨26, _⟩ => ⟨S64x16, .i1⟩
  | .hbm, ⟨27, _⟩ => ⟨S_, .f32⟩
  | .hbm, ⟨28, _⟩ => ⟨S64x16, .f32⟩
  | .hbm, ⟨29, _⟩ => ⟨S64x16, .f32⟩
  | .hbm, ⟨30, _⟩ => ⟨S64x16, .f32⟩
  | .hbm, ⟨31, _⟩ => ⟨S16x64, .f32⟩
  | .hbm, ⟨32, _⟩ => ⟨S64x64, .f32⟩
  | .hbm, ⟨33, _⟩ => ⟨S1x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S_, .f32⟩
  | .hbm, ⟨42, _⟩ => ⟨S64x64, .f32⟩
  | .hbm, ⟨43, _⟩ => ⟨S64x64, .f32⟩
  | .hbm, ⟨44, _⟩ => ⟨S_, .i32⟩
  | .hbm, ⟨45, _⟩ => ⟨S32768, .i32⟩
  | .hbm, ⟨46, _⟩ => ⟨S32768, .i1⟩
  | .hbm, ⟨47, _⟩ => ⟨S_, .i32⟩
  | .hbm, ⟨48, _⟩ => ⟨S32768, .i32⟩
  | .hbm, ⟨49, _⟩ => ⟨S32768, .i32⟩
  | .hbm, ⟨50, _⟩ => ⟨S32768, .i32⟩
  | .hbm, ⟨51, _⟩ => ⟨S32768x1, .i32⟩
  | .hbm, ⟨52, _⟩ => ⟨S32768x64, .f32⟩
  | .hbm, ⟨53, _⟩ => ⟨S32768x64, .f32⟩
  | .hbm, ⟨54, _⟩ => ⟨S64x512x64, .f32⟩
  | .hbm, ⟨55, _⟩ => ⟨S64x1064960, .f32⟩
  | .local _ .vmem, ⟨0, _⟩ => ⟨S64x32x64, .f32⟩
  | .local _ .vmem, ⟨1, _⟩ => ⟨S64x32x64, .f32⟩
  | .local _ .vmem, ⟨2, _⟩ => ⟨S64x66560, .f32⟩
  | .local _ .vmem, ⟨3, _⟩ => ⟨S64x66560, .f32⟩
  | .local _ .vmem, ⟨4, _⟩ => ⟨S64x32x2080, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_c : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x66560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S64x64 : S_.BroadcastsInDim S64x64 (![] : Fin 0 → Fin S64x64.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  transposes_S16x64_S64x16_1_0 : S16x64.Transposes [1, 0] S64x16
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  transposes_S64x16_S16x64_1_0 : S64x16.Transposes [1, 0] S16x64
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S32768 : S_.BroadcastsInDim S32768 (![] : Fin 0 → Fin S32768.rank)
  shapeCasts_S32768x64_S64x512x64 : S32768x64.ShapeCasts S64x512x64
  inb_S64x32x64_S64x32x64_0_0_0 : ∀ a, (![0, 0, 0] : Fin 3 → Nat) a + S64x32x64.size a ≤ S64x32x64.size a
  h_S64x32x64 : 0 < S64x32x64.numel
  shapeCasts_S64x32x64_S64x32x64 : S64x32x64.ShapeCasts S64x32x64
  slices_S64x32x64_o0_0_0_S64x32x1 : S64x32x64.Slices ![0, 0, 0] S64x32x1
  broadcasts_S64x32x1_S64x32x64 : S64x32x1.Broadcasts S64x32x64
  inb_S64x32x2080_S64x32x64_0_0_0 : ∀ a, (![0, 0, 0] : Fin 3 → Nat) a + S64x32x64.size a ≤ S64x32x2080.size a
  slices_S64x32x64_o0_0_1_S64x32x1 : S64x32x64.Slices ![0, 0, 1] S64x32x1
  slices_S64x32x64_o0_0_1_S64x32x63 : S64x32x64.Slices ![0, 0, 1] S64x32x63
  broadcasts_S64x32x1_S64x32x63 : S64x32x1.Broadcasts S64x32x63
  inb_S64x32x2080_S64x32x63_0_0_64 : ∀ a, (![0, 0, 64] : Fin 3 → Nat) a + S64x32x63.size a ≤ S64x32x2080.size a
  h_S64x32x63 : 0 < S64x32x63.numel
  shapeCasts_S64x32x63_S64x32x63 : S64x32x63.ShapeCasts S64x32x63
  slices_S64x32x64_o0_0_2_S64x32x1 : S64x32x64.Slices ![0, 0, 2] S64x32x1
  slices_S64x32x64_o0_0_2_S64x32x62 : S64x32x64.Slices ![0, 0, 2] S64x32x62
  broadcasts_S64x32x1_S64x32x62 : S64x32x1.Broadcasts S64x32x62
  inb_S64x32x2080_S64x32x62_0_0_127 : ∀ a, (![0, 0, 127] : Fin 3 → Nat) a + S64x32x62.size a ≤ S64x32x2080.size a
  h_S64x32x62 : 0 < S64x32x62.numel
  shapeCasts_S64x32x62_S64x32x62 : S64x32x62.ShapeCasts S64x32x62
  slices_S64x32x64_o0_0_3_S64x32x1 : S64x32x64.Slices ![0, 0, 3] S64x32x1
  slices_S64x32x64_o0_0_3_S64x32x61 : S64x32x64.Slices ![0, 0, 3] S64x32x61
  broadcasts_S64x32x1_S64x32x61 : S64x32x1.Broadcasts S64x32x61
  inb_S64x32x2080_S64x32x61_0_0_189 : ∀ a, (![0, 0, 189] : Fin 3 → Nat) a + S64x32x61.size a ≤ S64x32x2080.size a
  h_S64x32x61 : 0 < S64x32x61.numel
  shapeCasts_S64x32x61_S64x32x61 : S64x32x61.ShapeCasts S64x32x61
  slices_S64x32x64_o0_0_4_S64x32x1 : S64x32x64.Slices ![0, 0, 4] S64x32x1
  slices_S64x32x64_o0_0_4_S64x32x60 : S64x32x64.Slices ![0, 0, 4] S64x32x60
  broadcasts_S64x32x1_S64x32x60 : S64x32x1.Broadcasts S64x32x60
  inb_S64x32x2080_S64x32x60_0_0_250 : ∀ a, (![0, 0, 250] : Fin 3 → Nat) a + S64x32x60.size a ≤ S64x32x2080.size a
  h_S64x32x60 : 0 < S64x32x60.numel
  shapeCasts_S64x32x60_S64x32x60 : S64x32x60.ShapeCasts S64x32x60
  slices_S64x32x64_o0_0_5_S64x32x1 : S64x32x64.Slices ![0, 0, 5] S64x32x1
  slices_S64x32x64_o0_0_5_S64x32x59 : S64x32x64.Slices ![0, 0, 5] S64x32x59
  broadcasts_S64x32x1_S64x32x59 : S64x32x1.Broadcasts S64x32x59
  inb_S64x32x2080_S64x32x59_0_0_310 : ∀ a, (![0, 0, 310] : Fin 3 → Nat) a + S64x32x59.size a ≤ S64x32x2080.size a
  h_S64x32x59 : 0 < S64x32x59.numel
  shapeCasts_S64x32x59_S64x32x59 : S64x32x59.ShapeCasts S64x32x59
  slices_S64x32x64_o0_0_6_S64x32x1 : S64x32x64.Slices ![0, 0, 6] S64x32x1
  slices_S64x32x64_o0_0_6_S64x32x58 : S64x32x64.Slices ![0, 0, 6] S64x32x58
  broadcasts_S64x32x1_S64x32x58 : S64x32x1.Broadcasts S64x32x58
  inb_S64x32x2080_S64x32x58_0_0_369 : ∀ a, (![0, 0, 369] : Fin 3 → Nat) a + S64x32x58.size a ≤ S64x32x2080.size a
  h_S64x32x58 : 0 < S64x32x58.numel
  shapeCasts_S64x32x58_S64x32x58 : S64x32x58.ShapeCasts S64x32x58
  slices_S64x32x64_o0_0_7_S64x32x1 : S64x32x64.Slices ![0, 0, 7] S64x32x1
  slices_S64x32x64_o0_0_7_S64x32x57 : S64x32x64.Slices ![0, 0, 7] S64x32x57
  broadcasts_S64x32x1_S64x32x57 : S64x32x1.Broadcasts S64x32x57
  inb_S64x32x2080_S64x32x57_0_0_427 : ∀ a, (![0, 0, 427] : Fin 3 → Nat) a + S64x32x57.size a ≤ S64x32x2080.size a
  h_S64x32x57 : 0 < S64x32x57.numel
  shapeCasts_S64x32x57_S64x32x57 : S64x32x57.ShapeCasts S64x32x57
  slices_S64x32x64_o0_0_8_S64x32x1 : S64x32x64.Slices ![0, 0, 8] S64x32x1
  slices_S64x32x64_o0_0_8_S64x32x56 : S64x32x64.Slices ![0, 0, 8] S64x32x56
  broadcasts_S64x32x1_S64x32x56 : S64x32x1.Broadcasts S64x32x56
  inb_S64x32x2080_S64x32x56_0_0_484 : ∀ a, (![0, 0, 484] : Fin 3 → Nat) a + S64x32x56.size a ≤ S64x32x2080.size a
  h_S64x32x56 : 0 < S64x32x56.numel
  shapeCasts_S64x32x56_S64x32x56 : S64x32x56.ShapeCasts S64x32x56
  slices_S64x32x64_o0_0_9_S64x32x1 : S64x32x64.Slices ![0, 0, 9] S64x32x1
  slices_S64x32x64_o0_0_9_S64x32x55 : S64x32x64.Slices ![0, 0, 9] S64x32x55
  broadcasts_S64x32x1_S64x32x55 : S64x32x1.Broadcasts S64x32x55
  inb_S64x32x2080_S64x32x55_0_0_540 : ∀ a, (![0, 0, 540] : Fin 3 → Nat) a + S64x32x55.size a ≤ S64x32x2080.size a
  h_S64x32x55 : 0 < S64x32x55.numel
  shapeCasts_S64x32x55_S64x32x55 : S64x32x55.ShapeCasts S64x32x55
  slices_S64x32x64_o0_0_10_S64x32x1 : S64x32x64.Slices ![0, 0, 10] S64x32x1
  slices_S64x32x64_o0_0_10_S64x32x54 : S64x32x64.Slices ![0, 0, 10] S64x32x54
  broadcasts_S64x32x1_S64x32x54 : S64x32x1.Broadcasts S64x32x54
  inb_S64x32x2080_S64x32x54_0_0_595 : ∀ a, (![0, 0, 595] : Fin 3 → Nat) a + S64x32x54.size a ≤ S64x32x2080.size a
  h_S64x32x54 : 0 < S64x32x54.numel
  shapeCasts_S64x32x54_S64x32x54 : S64x32x54.ShapeCasts S64x32x54
  slices_S64x32x64_o0_0_11_S64x32x1 : S64x32x64.Slices ![0, 0, 11] S64x32x1
  slices_S64x32x64_o0_0_11_S64x32x53 : S64x32x64.Slices ![0, 0, 11] S64x32x53
  broadcasts_S64x32x1_S64x32x53 : S64x32x1.Broadcasts S64x32x53
  inb_S64x32x2080_S64x32x53_0_0_649 : ∀ a, (![0, 0, 649] : Fin 3 → Nat) a + S64x32x53.size a ≤ S64x32x2080.size a
  h_S64x32x53 : 0 < S64x32x53.numel
  shapeCasts_S64x32x53_S64x32x53 : S64x32x53.ShapeCasts S64x32x53
  slices_S64x32x64_o0_0_12_S64x32x1 : S64x32x64.Slices ![0, 0, 12] S64x32x1
  slices_S64x32x64_o0_0_12_S64x32x52 : S64x32x64.Slices ![0, 0, 12] S64x32x52
  broadcasts_S64x32x1_S64x32x52 : S64x32x1.Broadcasts S64x32x52
  inb_S64x32x2080_S64x32x52_0_0_702 : ∀ a, (![0, 0, 702] : Fin 3 → Nat) a + S64x32x52.size a ≤ S64x32x2080.size a
  h_S64x32x52 : 0 < S64x32x52.numel
  shapeCasts_S64x32x52_S64x32x52 : S64x32x52.ShapeCasts S64x32x52
  slices_S64x32x64_o0_0_13_S64x32x1 : S64x32x64.Slices ![0, 0, 13] S64x32x1
  slices_S64x32x64_o0_0_13_S64x32x51 : S64x32x64.Slices ![0, 0, 13] S64x32x51
  broadcasts_S64x32x1_S64x32x51 : S64x32x1.Broadcasts S64x32x51
  inb_S64x32x2080_S64x32x51_0_0_754 : ∀ a, (![0, 0, 754] : Fin 3 → Nat) a + S64x32x51.size a ≤ S64x32x2080.size a
  h_S64x32x51 : 0 < S64x32x51.numel
  shapeCasts_S64x32x51_S64x32x51 : S64x32x51.ShapeCasts S64x32x51
  slices_S64x32x64_o0_0_14_S64x32x1 : S64x32x64.Slices ![0, 0, 14] S64x32x1
  slices_S64x32x64_o0_0_14_S64x32x50 : S64x32x64.Slices ![0, 0, 14] S64x32x50
  broadcasts_S64x32x1_S64x32x50 : S64x32x1.Broadcasts S64x32x50
  inb_S64x32x2080_S64x32x50_0_0_805 : ∀ a, (![0, 0, 805] : Fin 3 → Nat) a + S64x32x50.size a ≤ S64x32x2080.size a
  h_S64x32x50 : 0 < S64x32x50.numel
  shapeCasts_S64x32x50_S64x32x50 : S64x32x50.ShapeCasts S64x32x50
  slices_S64x32x64_o0_0_15_S64x32x1 : S64x32x64.Slices ![0, 0, 15] S64x32x1
  slices_S64x32x64_o0_0_15_S64x32x49 : S64x32x64.Slices ![0, 0, 15] S64x32x49
  broadcasts_S64x32x1_S64x32x49 : S64x32x1.Broadcasts S64x32x49
  inb_S64x32x2080_S64x32x49_0_0_855 : ∀ a, (![0, 0, 855] : Fin 3 → Nat) a + S64x32x49.size a ≤ S64x32x2080.size a
  h_S64x32x49 : 0 < S64x32x49.numel
  shapeCasts_S64x32x49_S64x32x49 : S64x32x49.ShapeCasts S64x32x49
  slices_S64x32x64_o0_0_16_S64x32x1 : S64x32x64.Slices ![0, 0, 16] S64x32x1
  slices_S64x32x64_o0_0_16_S64x32x48 : S64x32x64.Slices ![0, 0, 16] S64x32x48
  broadcasts_S64x32x1_S64x32x48 : S64x32x1.Broadcasts S64x32x48
  inb_S64x32x2080_S64x32x48_0_0_904 : ∀ a, (![0, 0, 904] : Fin 3 → Nat) a + S64x32x48.size a ≤ S64x32x2080.size a
  h_S64x32x48 : 0 < S64x32x48.numel
  shapeCasts_S64x32x48_S64x32x48 : S64x32x48.ShapeCasts S64x32x48
  slices_S64x32x64_o0_0_17_S64x32x1 : S64x32x64.Slices ![0, 0, 17] S64x32x1
  slices_S64x32x64_o0_0_17_S64x32x47 : S64x32x64.Slices ![0, 0, 17] S64x32x47
  broadcasts_S64x32x1_S64x32x47 : S64x32x1.Broadcasts S64x32x47
  inb_S64x32x2080_S64x32x47_0_0_952 : ∀ a, (![0, 0, 952] : Fin 3 → Nat) a + S64x32x47.size a ≤ S64x32x2080.size a
  h_S64x32x47 : 0 < S64x32x47.numel
  shapeCasts_S64x32x47_S64x32x47 : S64x32x47.ShapeCasts S64x32x47
  slices_S64x32x64_o0_0_18_S64x32x1 : S64x32x64.Slices ![0, 0, 18] S64x32x1
  slices_S64x32x64_o0_0_18_S64x32x46 : S64x32x64.Slices ![0, 0, 18] S64x32x46
  broadcasts_S64x32x1_S64x32x46 : S64x32x1.Broadcasts S64x32x46
  inb_S64x32x2080_S64x32x46_0_0_999 : ∀ a, (![0, 0, 999] : Fin 3 → Nat) a + S64x32x46.size a ≤ S64x32x2080.size a
  h_S64x32x46 : 0 < S64x32x46.numel
  shapeCasts_S64x32x46_S64x32x46 : S64x32x46.ShapeCasts S64x32x46
  slices_S64x32x64_o0_0_19_S64x32x1 : S64x32x64.Slices ![0, 0, 19] S64x32x1
  slices_S64x32x64_o0_0_19_S64x32x45 : S64x32x64.Slices ![0, 0, 19] S64x32x45
  broadcasts_S64x32x1_S64x32x45 : S64x32x1.Broadcasts S64x32x45
  inb_S64x32x2080_S64x32x45_0_0_1045 : ∀ a, (![0, 0, 1045] : Fin 3 → Nat) a + S64x32x45.size a ≤ S64x32x2080.size a
  h_S64x32x45 : 0 < S64x32x45.numel
  shapeCasts_S64x32x45_S64x32x45 : S64x32x45.ShapeCasts S64x32x45
  slices_S64x32x64_o0_0_20_S64x32x1 : S64x32x64.Slices ![0, 0, 20] S64x32x1
  slices_S64x32x64_o0_0_20_S64x32x44 : S64x32x64.Slices ![0, 0, 20] S64x32x44
  broadcasts_S64x32x1_S64x32x44 : S64x32x1.Broadcasts S64x32x44
  inb_S64x32x2080_S64x32x44_0_0_1090 : ∀ a, (![0, 0, 1090] : Fin 3 → Nat) a + S64x32x44.size a ≤ S64x32x2080.size a
  h_S64x32x44 : 0 < S64x32x44.numel
  shapeCasts_S64x32x44_S64x32x44 : S64x32x44.ShapeCasts S64x32x44
  slices_S64x32x64_o0_0_21_S64x32x1 : S64x32x64.Slices ![0, 0, 21] S64x32x1
  slices_S64x32x64_o0_0_21_S64x32x43 : S64x32x64.Slices ![0, 0, 21] S64x32x43
  broadcasts_S64x32x1_S64x32x43 : S64x32x1.Broadcasts S64x32x43
  inb_S64x32x2080_S64x32x43_0_0_1134 : ∀ a, (![0, 0, 1134] : Fin 3 → Nat) a + S64x32x43.size a ≤ S64x32x2080.size a
  h_S64x32x43 : 0 < S64x32x43.numel
  shapeCasts_S64x32x43_S64x32x43 : S64x32x43.ShapeCasts S64x32x43
  slices_S64x32x64_o0_0_22_S64x32x1 : S64x32x64.Slices ![0, 0, 22] S64x32x1
  slices_S64x32x64_o0_0_22_S64x32x42 : S64x32x64.Slices ![0, 0, 22] S64x32x42
  broadcasts_S64x32x1_S64x32x42 : S64x32x1.Broadcasts S64x32x42
  inb_S64x32x2080_S64x32x42_0_0_1177 : ∀ a, (![0, 0, 1177] : Fin 3 → Nat) a + S64x32x42.size a ≤ S64x32x2080.size a
  h_S64x32x42 : 0 < S64x32x42.numel
  shapeCasts_S64x32x42_S64x32x42 : S64x32x42.ShapeCasts S64x32x42
  slices_S64x32x64_o0_0_23_S64x32x1 : S64x32x64.Slices ![0, 0, 23] S64x32x1
  slices_S64x32x64_o0_0_23_S64x32x41 : S64x32x64.Slices ![0, 0, 23] S64x32x41
  broadcasts_S64x32x1_S64x32x41 : S64x32x1.Broadcasts S64x32x41
  inb_S64x32x2080_S64x32x41_0_0_1219 : ∀ a, (![0, 0, 1219] : Fin 3 → Nat) a + S64x32x41.size a ≤ S64x32x2080.size a
  h_S64x32x41 : 0 < S64x32x41.numel
  shapeCasts_S64x32x41_S64x32x41 : S64x32x41.ShapeCasts S64x32x41
  slices_S64x32x64_o0_0_24_S64x32x1 : S64x32x64.Slices ![0, 0, 24] S64x32x1
  slices_S64x32x64_o0_0_24_S64x32x40 : S64x32x64.Slices ![0, 0, 24] S64x32x40
  broadcasts_S64x32x1_S64x32x40 : S64x32x1.Broadcasts S64x32x40
  inb_S64x32x2080_S64x32x40_0_0_1260 : ∀ a, (![0, 0, 1260] : Fin 3 → Nat) a + S64x32x40.size a ≤ S64x32x2080.size a
  h_S64x32x40 : 0 < S64x32x40.numel
  shapeCasts_S64x32x40_S64x32x40 : S64x32x40.ShapeCasts S64x32x40
  slices_S64x32x64_o0_0_25_S64x32x1 : S64x32x64.Slices ![0, 0, 25] S64x32x1
  slices_S64x32x64_o0_0_25_S64x32x39 : S64x32x64.Slices ![0, 0, 25] S64x32x39
  broadcasts_S64x32x1_S64x32x39 : S64x32x1.Broadcasts S64x32x39
  inb_S64x32x2080_S64x32x39_0_0_1300 : ∀ a, (![0, 0, 1300] : Fin 3 → Nat) a + S64x32x39.size a ≤ S64x32x2080.size a
  h_S64x32x39 : 0 < S64x32x39.numel
  shapeCasts_S64x32x39_S64x32x39 : S64x32x39.ShapeCasts S64x32x39
  slices_S64x32x64_o0_0_26_S64x32x1 : S64x32x64.Slices ![0, 0, 26] S64x32x1
  slices_S64x32x64_o0_0_26_S64x32x38 : S64x32x64.Slices ![0, 0, 26] S64x32x38
  broadcasts_S64x32x1_S64x32x38 : S64x32x1.Broadcasts S64x32x38
  inb_S64x32x2080_S64x32x38_0_0_1339 : ∀ a, (![0, 0, 1339] : Fin 3 → Nat) a + S64x32x38.size a ≤ S64x32x2080.size a
  h_S64x32x38 : 0 < S64x32x38.numel
  shapeCasts_S64x32x38_S64x32x38 : S64x32x38.ShapeCasts S64x32x38
  slices_S64x32x64_o0_0_27_S64x32x1 : S64x32x64.Slices ![0, 0, 27] S64x32x1
  slices_S64x32x64_o0_0_27_S64x32x37 : S64x32x64.Slices ![0, 0, 27] S64x32x37
  broadcasts_S64x32x1_S64x32x37 : S64x32x1.Broadcasts S64x32x37
  inb_S64x32x2080_S64x32x37_0_0_1377 : ∀ a, (![0, 0, 1377] : Fin 3 → Nat) a + S64x32x37.size a ≤ S64x32x2080.size a
  h_S64x32x37 : 0 < S64x32x37.numel
  shapeCasts_S64x32x37_S64x32x37 : S64x32x37.ShapeCasts S64x32x37
  slices_S64x32x64_o0_0_28_S64x32x1 : S64x32x64.Slices ![0, 0, 28] S64x32x1
  slices_S64x32x64_o0_0_28_S64x32x36 : S64x32x64.Slices ![0, 0, 28] S64x32x36
  broadcasts_S64x32x1_S64x32x36 : S64x32x1.Broadcasts S64x32x36
  inb_S64x32x2080_S64x32x36_0_0_1414 : ∀ a, (![0, 0, 1414] : Fin 3 → Nat) a + S64x32x36.size a ≤ S64x32x2080.size a
  h_S64x32x36 : 0 < S64x32x36.numel
  shapeCasts_S64x32x36_S64x32x36 : S64x32x36.ShapeCasts S64x32x36
  slices_S64x32x64_o0_0_29_S64x32x1 : S64x32x64.Slices ![0, 0, 29] S64x32x1
  slices_S64x32x64_o0_0_29_S64x32x35 : S64x32x64.Slices ![0, 0, 29] S64x32x35
  broadcasts_S64x32x1_S64x32x35 : S64x32x1.Broadcasts S64x32x35
  inb_S64x32x2080_S64x32x35_0_0_1450 : ∀ a, (![0, 0, 1450] : Fin 3 → Nat) a + S64x32x35.size a ≤ S64x32x2080.size a
  h_S64x32x35 : 0 < S64x32x35.numel
  shapeCasts_S64x32x35_S64x32x35 : S64x32x35.ShapeCasts S64x32x35
  slices_S64x32x64_o0_0_30_S64x32x1 : S64x32x64.Slices ![0, 0, 30] S64x32x1
  slices_S64x32x64_o0_0_30_S64x32x34 : S64x32x64.Slices ![0, 0, 30] S64x32x34
  broadcasts_S64x32x1_S64x32x34 : S64x32x1.Broadcasts S64x32x34
  inb_S64x32x2080_S64x32x34_0_0_1485 : ∀ a, (![0, 0, 1485] : Fin 3 → Nat) a + S64x32x34.size a ≤ S64x32x2080.size a
  h_S64x32x34 : 0 < S64x32x34.numel
  shapeCasts_S64x32x34_S64x32x34 : S64x32x34.ShapeCasts S64x32x34
  slices_S64x32x64_o0_0_31_S64x32x1 : S64x32x64.Slices ![0, 0, 31] S64x32x1
  slices_S64x32x64_o0_0_31_S64x32x33 : S64x32x64.Slices ![0, 0, 31] S64x32x33
  broadcasts_S64x32x1_S64x32x33 : S64x32x1.Broadcasts S64x32x33
  inb_S64x32x2080_S64x32x33_0_0_1519 : ∀ a, (![0, 0, 1519] : Fin 3 → Nat) a + S64x32x33.size a ≤ S64x32x2080.size a
  h_S64x32x33 : 0 < S64x32x33.numel
  shapeCasts_S64x32x33_S64x32x33 : S64x32x33.ShapeCasts S64x32x33
  slices_S64x32x64_o0_0_32_S64x32x1 : S64x32x64.Slices ![0, 0, 32] S64x32x1
  slices_S64x32x64_o0_0_32_S64x32x32 : S64x32x64.Slices ![0, 0, 32] S64x32x32
  broadcasts_S64x32x1_S64x32x32 : S64x32x1.Broadcasts S64x32x32
  inb_S64x32x2080_S64x32x32_0_0_1552 : ∀ a, (![0, 0, 1552] : Fin 3 → Nat) a + S64x32x32.size a ≤ S64x32x2080.size a
  h_S64x32x32 : 0 < S64x32x32.numel
  shapeCasts_S64x32x32_S64x32x32 : S64x32x32.ShapeCasts S64x32x32
  slices_S64x32x64_o0_0_33_S64x32x1 : S64x32x64.Slices ![0, 0, 33] S64x32x1
  slices_S64x32x64_o0_0_33_S64x32x31 : S64x32x64.Slices ![0, 0, 33] S64x32x31
  broadcasts_S64x32x1_S64x32x31 : S64x32x1.Broadcasts S64x32x31
  inb_S64x32x2080_S64x32x31_0_0_1584 : ∀ a, (![0, 0, 1584] : Fin 3 → Nat) a + S64x32x31.size a ≤ S64x32x2080.size a
  h_S64x32x31 : 0 < S64x32x31.numel
  shapeCasts_S64x32x31_S64x32x31 : S64x32x31.ShapeCasts S64x32x31
  slices_S64x32x64_o0_0_34_S64x32x1 : S64x32x64.Slices ![0, 0, 34] S64x32x1
  slices_S64x32x64_o0_0_34_S64x32x30 : S64x32x64.Slices ![0, 0, 34] S64x32x30
  broadcasts_S64x32x1_S64x32x30 : S64x32x1.Broadcasts S64x32x30
  inb_S64x32x2080_S64x32x30_0_0_1615 : ∀ a, (![0, 0, 1615] : Fin 3 → Nat) a + S64x32x30.size a ≤ S64x32x2080.size a
  h_S64x32x30 : 0 < S64x32x30.numel
  shapeCasts_S64x32x30_S64x32x30 : S64x32x30.ShapeCasts S64x32x30
  slices_S64x32x64_o0_0_35_S64x32x1 : S64x32x64.Slices ![0, 0, 35] S64x32x1
  slices_S64x32x64_o0_0_35_S64x32x29 : S64x32x64.Slices ![0, 0, 35] S64x32x29
  broadcasts_S64x32x1_S64x32x29 : S64x32x1.Broadcasts S64x32x29
  inb_S64x32x2080_S64x32x29_0_0_1645 : ∀ a, (![0, 0, 1645] : Fin 3 → Nat) a + S64x32x29.size a ≤ S64x32x2080.size a
  h_S64x32x29 : 0 < S64x32x29.numel
  shapeCasts_S64x32x29_S64x32x29 : S64x32x29.ShapeCasts S64x32x29
  slices_S64x32x64_o0_0_36_S64x32x1 : S64x32x64.Slices ![0, 0, 36] S64x32x1
  slices_S64x32x64_o0_0_36_S64x32x28 : S64x32x64.Slices ![0, 0, 36] S64x32x28
  broadcasts_S64x32x1_S64x32x28 : S64x32x1.Broadcasts S64x32x28
  inb_S64x32x2080_S64x32x28_0_0_1674 : ∀ a, (![0, 0, 1674] : Fin 3 → Nat) a + S64x32x28.size a ≤ S64x32x2080.size a
  h_S64x32x28 : 0 < S64x32x28.numel
  shapeCasts_S64x32x28_S64x32x28 : S64x32x28.ShapeCasts S64x32x28
  slices_S64x32x64_o0_0_37_S64x32x1 : S64x32x64.Slices ![0, 0, 37] S64x32x1
  slices_S64x32x64_o0_0_37_S64x32x27 : S64x32x64.Slices ![0, 0, 37] S64x32x27
  broadcasts_S64x32x1_S64x32x27 : S64x32x1.Broadcasts S64x32x27
  inb_S64x32x2080_S64x32x27_0_0_1702 : ∀ a, (![0, 0, 1702] : Fin 3 → Nat) a + S64x32x27.size a ≤ S64x32x2080.size a
  h_S64x32x27 : 0 < S64x32x27.numel
  shapeCasts_S64x32x27_S64x32x27 : S64x32x27.ShapeCasts S64x32x27
  slices_S64x32x64_o0_0_38_S64x32x1 : S64x32x64.Slices ![0, 0, 38] S64x32x1
  slices_S64x32x64_o0_0_38_S64x32x26 : S64x32x64.Slices ![0, 0, 38] S64x32x26
  broadcasts_S64x32x1_S64x32x26 : S64x32x1.Broadcasts S64x32x26
  inb_S64x32x2080_S64x32x26_0_0_1729 : ∀ a, (![0, 0, 1729] : Fin 3 → Nat) a + S64x32x26.size a ≤ S64x32x2080.size a
  h_S64x32x26 : 0 < S64x32x26.numel
  shapeCasts_S64x32x26_S64x32x26 : S64x32x26.ShapeCasts S64x32x26
  slices_S64x32x64_o0_0_39_S64x32x1 : S64x32x64.Slices ![0, 0, 39] S64x32x1
  slices_S64x32x64_o0_0_39_S64x32x25 : S64x32x64.Slices ![0, 0, 39] S64x32x25
  broadcasts_S64x32x1_S64x32x25 : S64x32x1.Broadcasts S64x32x25
  inb_S64x32x2080_S64x32x25_0_0_1755 : ∀ a, (![0, 0, 1755] : Fin 3 → Nat) a + S64x32x25.size a ≤ S64x32x2080.size a
  h_S64x32x25 : 0 < S64x32x25.numel
  shapeCasts_S64x32x25_S64x32x25 : S64x32x25.ShapeCasts S64x32x25
  slices_S64x32x64_o0_0_40_S64x32x1 : S64x32x64.Slices ![0, 0, 40] S64x32x1
  slices_S64x32x64_o0_0_40_S64x32x24 : S64x32x64.Slices ![0, 0, 40] S64x32x24
  broadcasts_S64x32x1_S64x32x24 : S64x32x1.Broadcasts S64x32x24
  inb_S64x32x2080_S64x32x24_0_0_1780 : ∀ a, (![0, 0, 1780] : Fin 3 → Nat) a + S64x32x24.size a ≤ S64x32x2080.size a
  h_S64x32x24 : 0 < S64x32x24.numel
  shapeCasts_S64x32x24_S64x32x24 : S64x32x24.ShapeCasts S64x32x24
  slices_S64x32x64_o0_0_41_S64x32x1 : S64x32x64.Slices ![0, 0, 41] S64x32x1
  slices_S64x32x64_o0_0_41_S64x32x23 : S64x32x64.Slices ![0, 0, 41] S64x32x23
  broadcasts_S64x32x1_S64x32x23 : S64x32x1.Broadcasts S64x32x23
  inb_S64x32x2080_S64x32x23_0_0_1804 : ∀ a, (![0, 0, 1804] : Fin 3 → Nat) a + S64x32x23.size a ≤ S64x32x2080.size a
  h_S64x32x23 : 0 < S64x32x23.numel
  shapeCasts_S64x32x23_S64x32x23 : S64x32x23.ShapeCasts S64x32x23
  slices_S64x32x64_o0_0_42_S64x32x1 : S64x32x64.Slices ![0, 0, 42] S64x32x1
  slices_S64x32x64_o0_0_42_S64x32x22 : S64x32x64.Slices ![0, 0, 42] S64x32x22
  broadcasts_S64x32x1_S64x32x22 : S64x32x1.Broadcasts S64x32x22
  inb_S64x32x2080_S64x32x22_0_0_1827 : ∀ a, (![0, 0, 1827] : Fin 3 → Nat) a + S64x32x22.size a ≤ S64x32x2080.size a
  h_S64x32x22 : 0 < S64x32x22.numel
  shapeCasts_S64x32x22_S64x32x22 : S64x32x22.ShapeCasts S64x32x22
  slices_S64x32x64_o0_0_43_S64x32x1 : S64x32x64.Slices ![0, 0, 43] S64x32x1
  slices_S64x32x64_o0_0_43_S64x32x21 : S64x32x64.Slices ![0, 0, 43] S64x32x21
  broadcasts_S64x32x1_S64x32x21 : S64x32x1.Broadcasts S64x32x21
  inb_S64x32x2080_S64x32x21_0_0_1849 : ∀ a, (![0, 0, 1849] : Fin 3 → Nat) a + S64x32x21.size a ≤ S64x32x2080.size a
  h_S64x32x21 : 0 < S64x32x21.numel
  shapeCasts_S64x32x21_S64x32x21 : S64x32x21.ShapeCasts S64x32x21
  slices_S64x32x64_o0_0_44_S64x32x1 : S64x32x64.Slices ![0, 0, 44] S64x32x1
  slices_S64x32x64_o0_0_44_S64x32x20 : S64x32x64.Slices ![0, 0, 44] S64x32x20
  broadcasts_S64x32x1_S64x32x20 : S64x32x1.Broadcasts S64x32x20
  inb_S64x32x2080_S64x32x20_0_0_1870 : ∀ a, (![0, 0, 1870] : Fin 3 → Nat) a + S64x32x20.size a ≤ S64x32x2080.size a
  h_S64x32x20 : 0 < S64x32x20.numel
  shapeCasts_S64x32x20_S64x32x20 : S64x32x20.ShapeCasts S64x32x20
  slices_S64x32x64_o0_0_45_S64x32x1 : S64x32x64.Slices ![0, 0, 45] S64x32x1
  slices_S64x32x64_o0_0_45_S64x32x19 : S64x32x64.Slices ![0, 0, 45] S64x32x19
  broadcasts_S64x32x1_S64x32x19 : S64x32x1.Broadcasts S64x32x19
  inb_S64x32x2080_S64x32x19_0_0_1890 : ∀ a, (![0, 0, 1890] : Fin 3 → Nat) a + S64x32x19.size a ≤ S64x32x2080.size a
  h_S64x32x19 : 0 < S64x32x19.numel
  shapeCasts_S64x32x19_S64x32x19 : S64x32x19.ShapeCasts S64x32x19
  slices_S64x32x64_o0_0_46_S64x32x1 : S64x32x64.Slices ![0, 0, 46] S64x32x1
  slices_S64x32x64_o0_0_46_S64x32x18 : S64x32x64.Slices ![0, 0, 46] S64x32x18
  broadcasts_S64x32x1_S64x32x18 : S64x32x1.Broadcasts S64x32x18
  inb_S64x32x2080_S64x32x18_0_0_1909 : ∀ a, (![0, 0, 1909] : Fin 3 → Nat) a + S64x32x18.size a ≤ S64x32x2080.size a
  h_S64x32x18 : 0 < S64x32x18.numel
  shapeCasts_S64x32x18_S64x32x18 : S64x32x18.ShapeCasts S64x32x18
  slices_S64x32x64_o0_0_47_S64x32x1 : S64x32x64.Slices ![0, 0, 47] S64x32x1
  slices_S64x32x64_o0_0_47_S64x32x17 : S64x32x64.Slices ![0, 0, 47] S64x32x17
  broadcasts_S64x32x1_S64x32x17 : S64x32x1.Broadcasts S64x32x17
  inb_S64x32x2080_S64x32x17_0_0_1927 : ∀ a, (![0, 0, 1927] : Fin 3 → Nat) a + S64x32x17.size a ≤ S64x32x2080.size a
  h_S64x32x17 : 0 < S64x32x17.numel
  shapeCasts_S64x32x17_S64x32x17 : S64x32x17.ShapeCasts S64x32x17
  slices_S64x32x64_o0_0_48_S64x32x1 : S64x32x64.Slices ![0, 0, 48] S64x32x1
  slices_S64x32x64_o0_0_48_S64x32x16 : S64x32x64.Slices ![0, 0, 48] S64x32x16
  broadcasts_S64x32x1_S64x32x16 : S64x32x1.Broadcasts S64x32x16
  inb_S64x32x2080_S64x32x16_0_0_1944 : ∀ a, (![0, 0, 1944] : Fin 3 → Nat) a + S64x32x16.size a ≤ S64x32x2080.size a
  h_S64x32x16 : 0 < S64x32x16.numel
  shapeCasts_S64x32x16_S64x32x16 : S64x32x16.ShapeCasts S64x32x16
  slices_S64x32x64_o0_0_49_S64x32x1 : S64x32x64.Slices ![0, 0, 49] S64x32x1
  slices_S64x32x64_o0_0_49_S64x32x15 : S64x32x64.Slices ![0, 0, 49] S64x32x15
  broadcasts_S64x32x1_S64x32x15 : S64x32x1.Broadcasts S64x32x15
  inb_S64x32x2080_S64x32x15_0_0_1960 : ∀ a, (![0, 0, 1960] : Fin 3 → Nat) a + S64x32x15.size a ≤ S64x32x2080.size a
  h_S64x32x15 : 0 < S64x32x15.numel
  shapeCasts_S64x32x15_S64x32x15 : S64x32x15.ShapeCasts S64x32x15
  slices_S64x32x64_o0_0_50_S64x32x1 : S64x32x64.Slices ![0, 0, 50] S64x32x1
  slices_S64x32x64_o0_0_50_S64x32x14 : S64x32x64.Slices ![0, 0, 50] S64x32x14
  broadcasts_S64x32x1_S64x32x14 : S64x32x1.Broadcasts S64x32x14
  inb_S64x32x2080_S64x32x14_0_0_1975 : ∀ a, (![0, 0, 1975] : Fin 3 → Nat) a + S64x32x14.size a ≤ S64x32x2080.size a
  h_S64x32x14 : 0 < S64x32x14.numel
  shapeCasts_S64x32x14_S64x32x14 : S64x32x14.ShapeCasts S64x32x14
  slices_S64x32x64_o0_0_51_S64x32x1 : S64x32x64.Slices ![0, 0, 51] S64x32x1
  slices_S64x32x64_o0_0_51_S64x32x13 : S64x32x64.Slices ![0, 0, 51] S64x32x13
  broadcasts_S64x32x1_S64x32x13 : S64x32x1.Broadcasts S64x32x13
  inb_S64x32x2080_S64x32x13_0_0_1989 : ∀ a, (![0, 0, 1989] : Fin 3 → Nat) a + S64x32x13.size a ≤ S64x32x2080.size a
  h_S64x32x13 : 0 < S64x32x13.numel
  shapeCasts_S64x32x13_S64x32x13 : S64x32x13.ShapeCasts S64x32x13
  slices_S64x32x64_o0_0_52_S64x32x1 : S64x32x64.Slices ![0, 0, 52] S64x32x1
  slices_S64x32x64_o0_0_52_S64x32x12 : S64x32x64.Slices ![0, 0, 52] S64x32x12
  broadcasts_S64x32x1_S64x32x12 : S64x32x1.Broadcasts S64x32x12
  inb_S64x32x2080_S64x32x12_0_0_2002 : ∀ a, (![0, 0, 2002] : Fin 3 → Nat) a + S64x32x12.size a ≤ S64x32x2080.size a
  h_S64x32x12 : 0 < S64x32x12.numel
  shapeCasts_S64x32x12_S64x32x12 : S64x32x12.ShapeCasts S64x32x12
  slices_S64x32x64_o0_0_53_S64x32x1 : S64x32x64.Slices ![0, 0, 53] S64x32x1
  slices_S64x32x64_o0_0_53_S64x32x11 : S64x32x64.Slices ![0, 0, 53] S64x32x11
  broadcasts_S64x32x1_S64x32x11 : S64x32x1.Broadcasts S64x32x11
  inb_S64x32x2080_S64x32x11_0_0_2014 : ∀ a, (![0, 0, 2014] : Fin 3 → Nat) a + S64x32x11.size a ≤ S64x32x2080.size a
  h_S64x32x11 : 0 < S64x32x11.numel
  shapeCasts_S64x32x11_S64x32x11 : S64x32x11.ShapeCasts S64x32x11
  slices_S64x32x64_o0_0_54_S64x32x1 : S64x32x64.Slices ![0, 0, 54] S64x32x1
  slices_S64x32x64_o0_0_54_S64x32x10 : S64x32x64.Slices ![0, 0, 54] S64x32x10
  broadcasts_S64x32x1_S64x32x10 : S64x32x1.Broadcasts S64x32x10
  inb_S64x32x2080_S64x32x10_0_0_2025 : ∀ a, (![0, 0, 2025] : Fin 3 → Nat) a + S64x32x10.size a ≤ S64x32x2080.size a
  h_S64x32x10 : 0 < S64x32x10.numel
  shapeCasts_S64x32x10_S64x32x10 : S64x32x10.ShapeCasts S64x32x10
  slices_S64x32x64_o0_0_55_S64x32x1 : S64x32x64.Slices ![0, 0, 55] S64x32x1
  slices_S64x32x64_o0_0_55_S64x32x9 : S64x32x64.Slices ![0, 0, 55] S64x32x9
  broadcasts_S64x32x1_S64x32x9 : S64x32x1.Broadcasts S64x32x9
  inb_S64x32x2080_S64x32x9_0_0_2035 : ∀ a, (![0, 0, 2035] : Fin 3 → Nat) a + S64x32x9.size a ≤ S64x32x2080.size a
  h_S64x32x9 : 0 < S64x32x9.numel
  shapeCasts_S64x32x9_S64x32x9 : S64x32x9.ShapeCasts S64x32x9
  slices_S64x32x64_o0_0_56_S64x32x1 : S64x32x64.Slices ![0, 0, 56] S64x32x1
  slices_S64x32x64_o0_0_56_S64x32x8 : S64x32x64.Slices ![0, 0, 56] S64x32x8
  broadcasts_S64x32x1_S64x32x8 : S64x32x1.Broadcasts S64x32x8
  inb_S64x32x2080_S64x32x8_0_0_2044 : ∀ a, (![0, 0, 2044] : Fin 3 → Nat) a + S64x32x8.size a ≤ S64x32x2080.size a
  h_S64x32x8 : 0 < S64x32x8.numel
  shapeCasts_S64x32x8_S64x32x8 : S64x32x8.ShapeCasts S64x32x8
  slices_S64x32x64_o0_0_57_S64x32x1 : S64x32x64.Slices ![0, 0, 57] S64x32x1
  slices_S64x32x64_o0_0_57_S64x32x7 : S64x32x64.Slices ![0, 0, 57] S64x32x7
  broadcasts_S64x32x1_S64x32x7 : S64x32x1.Broadcasts S64x32x7
  inb_S64x32x2080_S64x32x7_0_0_2052 : ∀ a, (![0, 0, 2052] : Fin 3 → Nat) a + S64x32x7.size a ≤ S64x32x2080.size a
  h_S64x32x7 : 0 < S64x32x7.numel
  shapeCasts_S64x32x7_S64x32x7 : S64x32x7.ShapeCasts S64x32x7
  slices_S64x32x64_o0_0_58_S64x32x1 : S64x32x64.Slices ![0, 0, 58] S64x32x1
  slices_S64x32x64_o0_0_58_S64x32x6 : S64x32x64.Slices ![0, 0, 58] S64x32x6
  broadcasts_S64x32x1_S64x32x6 : S64x32x1.Broadcasts S64x32x6
  inb_S64x32x2080_S64x32x6_0_0_2059 : ∀ a, (![0, 0, 2059] : Fin 3 → Nat) a + S64x32x6.size a ≤ S64x32x2080.size a
  h_S64x32x6 : 0 < S64x32x6.numel
  shapeCasts_S64x32x6_S64x32x6 : S64x32x6.ShapeCasts S64x32x6
  slices_S64x32x64_o0_0_59_S64x32x1 : S64x32x64.Slices ![0, 0, 59] S64x32x1
  slices_S64x32x64_o0_0_59_S64x32x5 : S64x32x64.Slices ![0, 0, 59] S64x32x5
  broadcasts_S64x32x1_S64x32x5 : S64x32x1.Broadcasts S64x32x5
  inb_S64x32x2080_S64x32x5_0_0_2065 : ∀ a, (![0, 0, 2065] : Fin 3 → Nat) a + S64x32x5.size a ≤ S64x32x2080.size a
  h_S64x32x5 : 0 < S64x32x5.numel
  shapeCasts_S64x32x5_S64x32x5 : S64x32x5.ShapeCasts S64x32x5
  slices_S64x32x64_o0_0_60_S64x32x1 : S64x32x64.Slices ![0, 0, 60] S64x32x1
  slices_S64x32x64_o0_0_60_S64x32x4 : S64x32x64.Slices ![0, 0, 60] S64x32x4
  broadcasts_S64x32x1_S64x32x4 : S64x32x1.Broadcasts S64x32x4
  inb_S64x32x2080_S64x32x4_0_0_2070 : ∀ a, (![0, 0, 2070] : Fin 3 → Nat) a + S64x32x4.size a ≤ S64x32x2080.size a
  h_S64x32x4 : 0 < S64x32x4.numel
  shapeCasts_S64x32x4_S64x32x4 : S64x32x4.ShapeCasts S64x32x4
  slices_S64x32x64_o0_0_61_S64x32x1 : S64x32x64.Slices ![0, 0, 61] S64x32x1
  slices_S64x32x64_o0_0_61_S64x32x3 : S64x32x64.Slices ![0, 0, 61] S64x32x3
  broadcasts_S64x32x1_S64x32x3 : S64x32x1.Broadcasts S64x32x3
  inb_S64x32x2080_S64x32x3_0_0_2074 : ∀ a, (![0, 0, 2074] : Fin 3 → Nat) a + S64x32x3.size a ≤ S64x32x2080.size a
  h_S64x32x3 : 0 < S64x32x3.numel
  shapeCasts_S64x32x3_S64x32x3 : S64x32x3.ShapeCasts S64x32x3
  slices_S64x32x64_o0_0_62_S64x32x1 : S64x32x64.Slices ![0, 0, 62] S64x32x1
  slices_S64x32x64_o0_0_62_S64x32x2 : S64x32x64.Slices ![0, 0, 62] S64x32x2
  broadcasts_S64x32x1_S64x32x2 : S64x32x1.Broadcasts S64x32x2
  inb_S64x32x2080_S64x32x2_0_0_2077 : ∀ a, (![0, 0, 2077] : Fin 3 → Nat) a + S64x32x2.size a ≤ S64x32x2080.size a
  h_S64x32x2 : 0 < S64x32x2.numel
  shapeCasts_S64x32x2_S64x32x2 : S64x32x2.ShapeCasts S64x32x2
  slices_S64x32x64_o0_0_63_S64x32x1 : S64x32x64.Slices ![0, 0, 63] S64x32x1
  inb_S64x32x2080_S64x32x1_0_0_2079 : ∀ a, (![0, 0, 2079] : Fin 3 → Nat) a + S64x32x1.size a ≤ S64x32x2080.size a
  h_S64x32x1 : 0 < S64x32x1.numel
  shapeCasts_S64x32x1_S64x32x1 : S64x32x1.ShapeCasts S64x32x1
  inb_S64x32x2080_S64x1x2080_0_0_0 : ∀ a, (![0, 0, 0] : Fin 3 → Nat) a + S64x1x2080.size a ≤ S64x32x2080.size a
  h_S64x1x2080 : 0 < S64x1x2080.numel
  shapeCasts_S64x1x2080_S64x2080 : S64x1x2080.ShapeCasts S64x2080
  inb_S64x66560_S64x2080_0_0 : ∀ a, (![0, 0] : Fin 2 → Nat) a + S64x2080.size a ≤ S64x66560.size a
  h_S64x2080 : 0 < S64x2080.numel
  inb_S64x32x2080_S64x1x2080_0_1_0 : ∀ a, (![0, 1, 0] : Fin 3 → Nat) a + S64x1x2080.size a ≤ S64x32x2080.size a
  inb_S64x66560_S64x2080_0_2080 : ∀ a, (![0, 2080] : Fin 2 → Nat) a + S64x2080.size a ≤ S64x66560.size a
  inb_S64x32x2080_S64x1x2080_0_2_0 : ∀ a, (![0, 2, 0] : Fin 3 → Nat) a + S64x1x2080.size a ≤ S64x32x2080.size a
  inb_S64x66560_S64x2080_0_4160 : ∀ a, (![0, 4160] : Fin 2 → Nat) a + S64x2080.size a ≤ S64x66560.size a
  inb_S64x32x2080_S64x1x2080_0_3_0 : ∀ a, (![0, 3, 0] : Fin 3 → Nat) a + S64x1x2080.size a ≤ S64x32x2080.size a
  inb_S64x66560_S64x2080_0_6240 : ∀ a, (![0, 6240] : Fin 2 → Nat) a + S64x2080.size a ≤ S64x66560.size a
  inb_S64x32x2080_S64x1x2080_0_4_0 : ∀ a, (![0, 4, 0] : Fin 3 → Nat) a + S64x1x2080.size a ≤ S64x32x2080.size a
  inb_S64x66560_S64x2080_0_8320 : ∀ a, (![0, 8320] : Fin 2 → Nat) a + S64x2080.size a ≤ S64x66560.size a
  inb_S64x32x2080_S64x1x2080_0_5_0 : ∀ a, (![0, 5, 0] : Fin 3 → Nat) a + S64x1x2080.size a ≤ S64x32x2080.size a
  inb_S64x66560_S64x2080_0_10400 : ∀ a, (![0, 10400] : Fin 2 → Nat) a + S64x2080.size a ≤ S64x66560.size a
  inb_S64x32x2080_S64x1x2080_0_6_0 : ∀ a, (![0, 6, 0] : Fin 3 → Nat) a + S64x1x2080.size a ≤ S64x32x2080.size a
  inb_S64x66560_S64x2080_0_12480 : ∀ a, (![0, 12480] : Fin 2 → Nat) a + S64x2080.size a ≤ S64x66560.size a
  inb_S64x32x2080_S64x1x2080_0_7_0 : ∀ a, (![0, 7, 0] : Fin 3 → Nat) a + S64x1x2080.size a ≤ S64x32x2080.size a
  inb_S64x66560_S64x2080_0_14560 : ∀ a, (![0, 14560] : Fin 2 → Nat) a + S64x2080.size a ≤ S64x66560.size a
  inb_S64x32x2080_S64x1x2080_0_8_0 : ∀ a, (![0, 8, 0] : Fin 3 → Nat) a + S64x1x2080.size a ≤ S64x32x2080.size a
  inb_S64x66560_S64x2080_0_16640 : ∀ a, (![0, 16640] : Fin 2 → Nat) a + S64x2080.size a ≤ S64x66560.size a
  inb_S64x32x2080_S64x1x2080_0_9_0 : ∀ a, (![0, 9, 0] : Fin 3 → Nat) a + S64x1x2080.size a ≤ S64x32x2080.size a
  inb_S64x66560_S64x2080_0_18720 : ∀ a, (![0, 18720] : Fin 2 → Nat) a + S64x2080.size a ≤ S64x66560.size a
  inb_S64x32x2080_S64x1x2080_0_10_0 : ∀ a, (![0, 10, 0] : Fin 3 → Nat) a + S64x1x2080.size a ≤ S64x32x2080.size a
  inb_S64x66560_S64x2080_0_20800 : ∀ a, (![0, 20800] : Fin 2 → Nat) a + S64x2080.size a ≤ S64x66560.size a
  inb_S64x32x2080_S64x1x2080_0_11_0 : ∀ a, (![0, 11, 0] : Fin 3 → Nat) a + S64x1x2080.size a ≤ S64x32x2080.size a
  inb_S64x66560_S64x2080_0_22880 : ∀ a, (![0, 22880] : Fin 2 → Nat) a + S64x2080.size a ≤ S64x66560.size a
  inb_S64x32x2080_S64x1x2080_0_12_0 : ∀ a, (![0, 12, 0] : Fin 3 → Nat) a + S64x1x2080.size a ≤ S64x32x2080.size a
  inb_S64x66560_S64x2080_0_24960 : ∀ a, (![0, 24960] : Fin 2 → Nat) a + S64x2080.size a ≤ S64x66560.size a
  inb_S64x32x2080_S64x1x2080_0_13_0 : ∀ a, (![0, 13, 0] : Fin 3 → Nat) a + S64x1x2080.size a ≤ S64x32x2080.size a
  inb_S64x66560_S64x2080_0_27040 : ∀ a, (![0, 27040] : Fin 2 → Nat) a + S64x2080.size a ≤ S64x66560.size a
  inb_S64x32x2080_S64x1x2080_0_14_0 : ∀ a, (![0, 14, 0] : Fin 3 → Nat) a + S64x1x2080.size a ≤ S64x32x2080.size a
  inb_S64x66560_S64x2080_0_29120 : ∀ a, (![0, 29120] : Fin 2 → Nat) a + S64x2080.size a ≤ S64x66560.size a
  inb_S64x32x2080_S64x1x2080_0_15_0 : ∀ a, (![0, 15, 0] : Fin 3 → Nat) a + S64x1x2080.size a ≤ S64x32x2080.size a
  inb_S64x66560_S64x2080_0_31200 : ∀ a, (![0, 31200] : Fin 2 → Nat) a + S64x2080.size a ≤ S64x66560.size a
  inb_S64x32x2080_S64x1x2080_0_16_0 : ∀ a, (![0, 16, 0] : Fin 3 → Nat) a + S64x1x2080.size a ≤ S64x32x2080.size a
  inb_S64x66560_S64x2080_0_33280 : ∀ a, (![0, 33280] : Fin 2 → Nat) a + S64x2080.size a ≤ S64x66560.size a
  inb_S64x32x2080_S64x1x2080_0_17_0 : ∀ a, (![0, 17, 0] : Fin 3 → Nat) a + S64x1x2080.size a ≤ S64x32x2080.size a
  inb_S64x66560_S64x2080_0_35360 : ∀ a, (![0, 35360] : Fin 2 → Nat) a + S64x2080.size a ≤ S64x66560.size a
  inb_S64x32x2080_S64x1x2080_0_18_0 : ∀ a, (![0, 18, 0] : Fin 3 → Nat) a + S64x1x2080.size a ≤ S64x32x2080.size a
  inb_S64x66560_S64x2080_0_37440 : ∀ a, (![0, 37440] : Fin 2 → Nat) a + S64x2080.size a ≤ S64x66560.size a
  inb_S64x32x2080_S64x1x2080_0_19_0 : ∀ a, (![0, 19, 0] : Fin 3 → Nat) a + S64x1x2080.size a ≤ S64x32x2080.size a
  inb_S64x66560_S64x2080_0_39520 : ∀ a, (![0, 39520] : Fin 2 → Nat) a + S64x2080.size a ≤ S64x66560.size a
  inb_S64x32x2080_S64x1x2080_0_20_0 : ∀ a, (![0, 20, 0] : Fin 3 → Nat) a + S64x1x2080.size a ≤ S64x32x2080.size a
  inb_S64x66560_S64x2080_0_41600 : ∀ a, (![0, 41600] : Fin 2 → Nat) a + S64x2080.size a ≤ S64x66560.size a
  inb_S64x32x2080_S64x1x2080_0_21_0 : ∀ a, (![0, 21, 0] : Fin 3 → Nat) a + S64x1x2080.size a ≤ S64x32x2080.size a
  inb_S64x66560_S64x2080_0_43680 : ∀ a, (![0, 43680] : Fin 2 → Nat) a + S64x2080.size a ≤ S64x66560.size a
  inb_S64x32x2080_S64x1x2080_0_22_0 : ∀ a, (![0, 22, 0] : Fin 3 → Nat) a + S64x1x2080.size a ≤ S64x32x2080.size a
  inb_S64x66560_S64x2080_0_45760 : ∀ a, (![0, 45760] : Fin 2 → Nat) a + S64x2080.size a ≤ S64x66560.size a
  inb_S64x32x2080_S64x1x2080_0_23_0 : ∀ a, (![0, 23, 0] : Fin 3 → Nat) a + S64x1x2080.size a ≤ S64x32x2080.size a
  inb_S64x66560_S64x2080_0_47840 : ∀ a, (![0, 47840] : Fin 2 → Nat) a + S64x2080.size a ≤ S64x66560.size a
  inb_S64x32x2080_S64x1x2080_0_24_0 : ∀ a, (![0, 24, 0] : Fin 3 → Nat) a + S64x1x2080.size a ≤ S64x32x2080.size a
  inb_S64x66560_S64x2080_0_49920 : ∀ a, (![0, 49920] : Fin 2 → Nat) a + S64x2080.size a ≤ S64x66560.size a
  inb_S64x32x2080_S64x1x2080_0_25_0 : ∀ a, (![0, 25, 0] : Fin 3 → Nat) a + S64x1x2080.size a ≤ S64x32x2080.size a
  inb_S64x66560_S64x2080_0_52000 : ∀ a, (![0, 52000] : Fin 2 → Nat) a + S64x2080.size a ≤ S64x66560.size a
  inb_S64x32x2080_S64x1x2080_0_26_0 : ∀ a, (![0, 26, 0] : Fin 3 → Nat) a + S64x1x2080.size a ≤ S64x32x2080.size a
  inb_S64x66560_S64x2080_0_54080 : ∀ a, (![0, 54080] : Fin 2 → Nat) a + S64x2080.size a ≤ S64x66560.size a
  inb_S64x32x2080_S64x1x2080_0_27_0 : ∀ a, (![0, 27, 0] : Fin 3 → Nat) a + S64x1x2080.size a ≤ S64x32x2080.size a
  inb_S64x66560_S64x2080_0_56160 : ∀ a, (![0, 56160] : Fin 2 → Nat) a + S64x2080.size a ≤ S64x66560.size a
  inb_S64x32x2080_S64x1x2080_0_28_0 : ∀ a, (![0, 28, 0] : Fin 3 → Nat) a + S64x1x2080.size a ≤ S64x32x2080.size a
  inb_S64x66560_S64x2080_0_58240 : ∀ a, (![0, 58240] : Fin 2 → Nat) a + S64x2080.size a ≤ S64x66560.size a
  inb_S64x32x2080_S64x1x2080_0_29_0 : ∀ a, (![0, 29, 0] : Fin 3 → Nat) a + S64x1x2080.size a ≤ S64x32x2080.size a
  inb_S64x66560_S64x2080_0_60320 : ∀ a, (![0, 60320] : Fin 2 → Nat) a + S64x2080.size a ≤ S64x66560.size a
  inb_S64x32x2080_S64x1x2080_0_30_0 : ∀ a, (![0, 30, 0] : Fin 3 → Nat) a + S64x1x2080.size a ≤ S64x32x2080.size a
  inb_S64x66560_S64x2080_0_62400 : ∀ a, (![0, 62400] : Fin 2 → Nat) a + S64x2080.size a ≤ S64x66560.size a
  inb_S64x32x2080_S64x1x2080_0_31_0 : ∀ a, (![0, 31, 0] : Fin 3 → Nat) a + S64x1x2080.size a ≤ S64x32x2080.size a
  inb_S64x66560_S64x2080_0_64480 : ∀ a, (![0, 64480] : Fin 2 → Nat) a + S64x2080.size a ≤ S64x66560.size a
  scatter_S64x64_S32768x1_S32768x64_1_0_0_1_wf : ScatterDims.WF S64x64 S32768x1 S32768x64 [1] [0] [0] 1
  scatter_S64x1_S32768x1_S32768x1_1_0_0_1_wf : ScatterDims.WF S64x1 S32768x1 S32768x1 [1] [0] [0] 1
  dot_S64x64_S64x16_S64x16_1_0_0_1_n_n_wf : DotDims.WF S64x64 S64x16 S64x16 [1] [0] [0] [1] [] []
  dot_S64x16_S16x64_S64x64_1_0_0_1_n_n_wf : DotDims.WF S64x16 S16x64 S64x64 [1] [0] [0] [1] [] []
  gather_S64x64_S32768x1_S32768x64_1_0_n_n_0_1_164_wf : GatherDims.WF S64x64 S32768x1 S32768x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32x64.size a ≤ S64x512x64.size a
  hwx0_0 : ∀ i : grid0.Coords, EltTy.bits .f32 = 32 ∨ (Rect.block (s := S64x512x64) S64x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x66560.size a ≤ S64x1064960.size a
  hwx0_1 : ∀ i : grid0.Coords, EltTy.bits .f32 = 32 ∨ (Rect.block (s := S64x1064960) S64x66560.size (cc0_transform_1 i) (hinb0_1 i)).WholeWords (EltTy.packing .f32)

variable [Facts₀]

def scatter_S64x64_S32768x1_S32768x64_1_0_0_1 : ScatterDims S64x64 S32768x1 S32768x64 where
  updateWindowDims := [1]
  insertedWindowDims := [0]
  scatterDimsToOperandDims := [0]
  indexVectorDim := 1
  wf := scatter_S64x64_S32768x1_S32768x64_1_0_0_1_wf
def scatter_S64x1_S32768x1_S32768x1_1_0_0_1 : ScatterDims S64x1 S32768x1 S32768x1 where
  updateWindowDims := [1]
  insertedWindowDims := [0]
  scatterDimsToOperandDims := [0]
  indexVectorDim := 1
  wf := scatter_S64x1_S32768x1_S32768x1_1_0_0_1_wf
def dot_S64x64_S64x16_S64x16_1_0_0_1_n_n : DotDims S64x64 S64x16 S64x16 where
  lhsContracting := [1]
  rhsContracting := [0]
  lhsNonContracting := [0]
  rhsNonContracting := [1]
  lhsBatch := []
  rhsBatch := []
  wf := dot_S64x64_S64x16_S64x16_1_0_0_1_n_n_wf
def dot_S64x16_S16x64_S64x64_1_0_0_1_n_n : DotDims S64x16 S16x64 S64x64 where
  lhsContracting := [1]
  rhsContracting := [0]
  lhsNonContracting := [0]
  rhsNonContracting := [1]
  lhsBatch := []
  rhsBatch := []
  wf := dot_S64x16_S16x64_S64x64_1_0_0_1_n_n_wf
def gather_S64x64_S32768x1_S32768x64_1_0_n_n_0_1_164 : GatherDims S64x64 S32768x1 S32768x64 where
  offsetDims := [1]
  collapsedSliceDims := [0]
  operandBatchingDims := []
  startIndicesBatchingDims := []
  startIndexMap := [0]
  indexVectorDim := 1
  sliceSizes := ![1, 64]
  wf := gather_S64x64_S32768x1_S32768x64_1_0_n_n_0_1_164_wf

abbrev win0_0 : Pipeline.Window sig grid0 :=
  Pipeline.Window.ofSpec (Memref.whole main_v34) S64x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S64x66560.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x64 : Shape := ⟨2, ![32768, 64]⟩
abbrev S32768 : Shape := ⟨1, ![32768]⟩
abbrev S16x64 : Shape := ⟨2, ![16, 64]⟩
abbrev S16 : Shape := ⟨1, ![16]⟩
abbrev S64x16 : Shape := ⟨2, ![64, 16]⟩
abbrev S64 : Shape := ⟨1, ![64]⟩
abbrev S_ : Shape := ⟨0, ![]⟩
abbrev S64x64 : Shape := ⟨2, ![64, 64]⟩
abbrev S32768x1 : Shape := ⟨2, ![32768, 1]⟩
abbrev S64x1 : Shape := ⟨2, ![64, 1]⟩
abbrev S1x16 : Shape := ⟨2, ![1, 16]⟩
abbrev S1x64 : Shape := ⟨2, ![1, 64]⟩
abbrev S4096 : Shape := ⟨1, ![4096]⟩
abbrev S2080 : Shape := ⟨1, ![2080]⟩
abbrev S4096x1 : Shape := ⟨2, ![4096, 1]⟩
abbrev S2080x1 : Shape := ⟨2, ![2080, 1]⟩
abbrev S32768x2080 : Shape := ⟨2, ![32768, 2080]⟩
abbrev S64x1064960 : Shape := ⟨2, ![64, 1064960]⟩

abbrev nBuf : Space → Nat
  | .hbm => 191
  | .vmem => 0
  | .smem => 0
  | _ => 0

abbrev hbmTy0_0 (i : Nat) : BufTy := match i % 128 with
  | 0 => ⟨S32768x64, .f32⟩
  | 1 => ⟨S32768, .i32⟩
  | 2 => ⟨S16x64, .f32⟩
  | 3 => ⟨S16, .f32⟩
  | 4 => ⟨S64x16, .f32⟩
  | 5 => ⟨S64, .f32⟩
  | 6 => ⟨S_, .f32⟩
  | 7 => ⟨S64x64, .f32⟩
  | 8 => ⟨S32768x1, .i32⟩
  | 9 => ⟨S64x64, .f32⟩
  | 10 => ⟨S_, .f32⟩
  | 11 => ⟨S32768x1, .f32⟩
  | 12 => ⟨S_, .f32⟩
  | 13 => ⟨S64x1, .f32⟩
  | 14 => ⟨S32768x1, .i32⟩
  | 15 => ⟨S64x1, .f32⟩
  | 16 => ⟨S64x64, .f32⟩
  | 17 => ⟨S64x64, .f32⟩
  | 18 => ⟨S64x16, .f32⟩
  | 19 => ⟨S64x16, .f32⟩
  | 20 => ⟨S1x16, .f32⟩
  | 21 => ⟨S64x16, .f32⟩
  | 22 => ⟨S64x16, .f32⟩
  | 23 => ⟨S_, .f32⟩
  | 24 => ⟨S_, .f32⟩
  | 25 => ⟨S64x16, .f32⟩
  | 26 => ⟨S64x16, .i1⟩
  | 27 => ⟨S_, .f32⟩
  | 28 => ⟨S64x16, .f32⟩
  | 29 => ⟨S64x16, .f32⟩
  | 30 => ⟨S64x16, .f32⟩
  | 31 => ⟨S16x64, .f32⟩
  | 32 => ⟨S64x64, .f32⟩
  | 33 => ⟨S1x64, .f32⟩
  | 34 => ⟨S64x64, .f32⟩
  | 35 => ⟨S64x64, .f32⟩
  | 36 => ⟨S64x64, .f32⟩
  | 37 => ⟨S64x64, .f32⟩
  | 38 => ⟨S_, .f32⟩
  | 39 => ⟨S64x64, .f32⟩
  | 40 => ⟨S64x64, .f32⟩
  | 41 => ⟨S_, .f32⟩
  | 42 => ⟨S64x64, .f32⟩
  | 43 => ⟨S64x64, .f32⟩
  | 44 => ⟨S_, .i32⟩
  | 45 => ⟨S32768, .i32⟩
  | 46 => ⟨S32768, .i1⟩
  | 47 => ⟨S_, .i32⟩
  | 48 => ⟨S32768, .i32⟩
  | 49 => ⟨S32768, .i32⟩
  | 50 => ⟨S32768, .i32⟩
  | 51 => ⟨S32768x1, .i32⟩
  | 52 => ⟨S32768x64, .f32⟩
  | 53 => ⟨S32768x64, .f32⟩
  | 54 => ⟨S_, .f32⟩
  | 55 => ⟨S64x64, .f32⟩
  | 56 => ⟨S64x64, .i32⟩
  | 57 => ⟨S_, .i32⟩
  | 58 => ⟨S64x64, .i32⟩
  | 59 => ⟨S64x64, .i32⟩
  | 60 => ⟨S64x64, .i32⟩
  | 61 => ⟨S64x64, .i1⟩
  | 62 => ⟨S_, .f32⟩
  | 63 => ⟨S64x64, .f32⟩
  | 64 => ⟨S64x64, .f32⟩
  | 65 => ⟨S_, .f32⟩
  | 66 => ⟨S64x64, .f32⟩
  | 67 => ⟨S64x64, .i1⟩
  | 68 => ⟨S4096, .i1⟩
  | 69 => ⟨S4096, .i32⟩
  | 70 => ⟨S_, .i32⟩
  | 71 => ⟨S_, .i32⟩
  | 72 => ⟨S4096, .i32⟩
  | 73 => ⟨S_, .i32⟩
  | 74 => ⟨S2080, .i32⟩
  | 75 => ⟨S_, .i32⟩
  | 76 => ⟨S_, .i32⟩
  | 77 => ⟨S4096, .i32⟩
  | 78 => ⟨S4096, .i32⟩
  | 79 => ⟨S_, .i32⟩
  | 80 => ⟨S4096, .i32⟩
  | 81 => ⟨S4096, .i1⟩
  | 82 => ⟨S_, .i32⟩
  | 83 => ⟨S4096, .i32⟩
  | 84 => ⟨S4096, .i32⟩
  | 85 => ⟨S4096, .i32⟩
  | 86 => ⟨S4096x1, .i32⟩
  | 87 => ⟨S_, .i32⟩
  | 88 => ⟨S4096, .i32⟩
  | 89 => ⟨S2080, .i32⟩
  | 90 => ⟨S_, .i32⟩
  | 91 => ⟨S_, .i32⟩
  | 92 => ⟨S2080, .i32⟩
  | 93 => ⟨S_, .i32⟩
  | 94 => ⟨S2080, .i32⟩
  | 95 => ⟨S2080, .i32⟩
  | 96 => ⟨S2080, .i32⟩
  | 97 => ⟨S_, .i32⟩
  | 98 => ⟨S2080, .i32⟩
  | 99 => ⟨S2080, .i1⟩
  | 100 => ⟨S2080, .i32⟩
  | 101 => ⟨S2080, .i32⟩
  | 102 => ⟨S_, .i32⟩
  | 103 => ⟨S2080, .i32⟩
  | 104 => ⟨S2080, .i1⟩
  | 105 => ⟨S2080, .i1⟩
  | 106 => ⟨S_, .i32⟩
  | 107 => ⟨S2080, .i32⟩
  | 108 => ⟨S2080, .i32⟩
  | 109 => ⟨S2080, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S2080, .i32⟩
  | 117 => ⟨S2080, .i32⟩
  | 118 => ⟨S_, .i32⟩
  | 119 => ⟨S2080, .i32⟩
  | 120 => ⟨S2080, .i1⟩
  | 121 => ⟨S_, .i32⟩
  | 122 => ⟨S2080, .i32⟩
  | 123 => ⟨S2080, .i1⟩
  | 124 => ⟨S_, .i32⟩
  | 125 => ⟨S_, .i1⟩
  | 126 => ⟨S2080, .i1⟩
  | 127 => ⟨S2080, .i1⟩
  | _ => ⟨S32768x64, .f32⟩

abbrev hbmTy0_1 (i : Nat) : BufTy := match i % 128 with
  | 0 => ⟨S2080, .i1⟩
  | 1 => ⟨S2080, .i32⟩
  | 2 => ⟨S2080, .i32⟩
  | 3 => ⟨S2080, .i32⟩
  | 4 => ⟨S_, .i32⟩
  | 5 => ⟨S2080, .i32⟩
  | 6 => ⟨S2080, .i32⟩
  | 7 => ⟨S2080, .i32⟩
  | 8 => ⟨S_, .i32⟩
  | 9 => ⟨S2080, .i32⟩
  | 10 => ⟨S2080, .i1⟩
  | 11 => ⟨S2080, .i32⟩
  | 12 => ⟨S2080, .i32⟩
  | 13 => ⟨S_, .i32⟩
  | 14 => ⟨S2080, .i32⟩
  | 15 => ⟨S2080, .i1⟩
  | 16 => ⟨S2080, .i1⟩
  | 17 => ⟨S_, .i32⟩
  | 18 => ⟨S2080, .i32⟩
  | 19 => ⟨S2080, .i32⟩
  | 20 => ⟨S2080, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S2080, .i32⟩
  | 28 => ⟨S2080, .i32⟩
  | 29 => ⟨S_, .i32⟩
  | 30 => ⟨S2080, .i32⟩
  | 31 => ⟨S2080, .i1⟩
  | 32 => ⟨S_, .i32⟩
  | 33 => ⟨S2080, .i32⟩
  | 34 => ⟨S2080, .i1⟩
  | 35 => ⟨S_, .i32⟩
  | 36 => ⟨S_, .i1⟩
  | 37 => ⟨S2080, .i1⟩
  | 38 => ⟨S2080, .i1⟩
  | 39 => ⟨S2080, .i1⟩
  | 40 => ⟨S2080, .i32⟩
  | 41 => ⟨S2080, .i32⟩
  | 42 => ⟨S2080, .i32⟩
  | 43 => ⟨S_, .i32⟩
  | 44 => ⟨S2080, .i32⟩
  | 45 => ⟨S2080, .i1⟩
  | 46 => ⟨S_, .i32⟩
  | 47 => ⟨S2080, .i32⟩
  | 48 => ⟨S2080, .i32⟩
  | 49 => ⟨S2080, .i32⟩
  | 50 => ⟨S2080x1, .i32⟩
  | 51 => ⟨S32768x2080, .f32⟩
  | 52 => ⟨S_, .i32⟩
  | 53 => ⟨S2080, .i32⟩
  | 54 => ⟨S2080, .i1⟩
  | 55 => ⟨S_, .i32⟩
  | 56 => ⟨S2080, .i32⟩
  | 57 => ⟨S2080, .i32⟩
  | 58 => ⟨S2080, .i32⟩
  | 59 => ⟨S2080x1, .i32⟩
  | 60 => ⟨S32768x2080, .f32⟩
  | 61 => ⟨S32768x2080, .f32⟩
  | 62 => ⟨S64x1064960, .f32⟩
  | _ => ⟨S32768x64, .f32⟩

abbrev hbmTy (i : Nat) : BufTy := match i / 128 with
  | 0 => hbmTy0_0 i
  | 1 => hbmTy0_1 i
  | _ => ⟨S32768x64, .f32⟩

abbrev bufTy : (tb : Table) → Fin (tcTables nBuf tb) → BufTy
  | .hbm, ⟨i, _⟩ => hbmTy i
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_c : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_call1_v0 : Ref sig .tc := ⟨.hbm, 56, rfl⟩
abbrev main_call1_c : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_cst : Ref sig .tc := ⟨.hbm, 62, rfl⟩
abbrev main_call1_v5 : Ref sig .tc := ⟨.hbm, 63, rfl⟩
abbrev main_v35 : Ref sig .tc := ⟨.hbm, 64, rfl⟩
abbrev main_cst_7 : Ref sig .tc := ⟨.hbm, 65, rfl⟩
abbrev main_v36 : Ref sig .tc := ⟨.hbm, 66, rfl⟩
abbrev main_v37 : Ref sig .tc := ⟨.hbm, 67, rfl⟩
abbrev main_call2_v0 : Ref sig .tc := ⟨.hbm, 68, rfl⟩
abbrev main_call2_v1 : Ref sig .tc := ⟨.hbm, 69, rfl⟩
abbrev main_call2_call0_c : Ref sig .tc := ⟨.hbm, 70, rfl⟩
abbrev main_call2_call0_v0 : Ref sig .tc := ⟨.hbm, 71, rfl⟩
abbrev main_v38 : Ref sig .tc := ⟨.hbm, 72, rfl⟩
abbrev main_c_8 : Ref sig .tc := ⟨.hbm, 73, rfl⟩
abbrev main_v39 : Ref sig .tc := ⟨.hbm, 74, rfl⟩
abbrev main_c_9 : Ref sig .tc := ⟨.hbm, 75, rfl⟩
abbrev main_call3_v0 : Ref sig .tc := ⟨.hbm, 76, rfl⟩
abbrev main_call3_v1 : Ref sig .tc := ⟨.hbm, 77, rfl⟩
abbrev main_v40 : Ref sig .tc := ⟨.hbm, 78, rfl⟩
abbrev main_c_10 : Ref sig .tc := ⟨.hbm, 79, rfl⟩
abbrev main_v41 : Ref sig .tc := ⟨.hbm, 80, rfl⟩
abbrev main_v42 : Ref sig .tc := ⟨.hbm, 81, rfl⟩
abbrev main_c_11 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_c_12 : Ref sig .tc := ⟨.hbm, 87, rfl⟩
abbrev main_v47 : Ref sig .tc := ⟨.hbm, 88, rfl⟩
abbrev main_v48 : Ref sig .tc := ⟨.hbm, 89, rfl⟩
abbrev main_call4_call0_c : Ref sig .tc := ⟨.hbm, 90, rfl⟩
abbrev main_call4_call0_v0 : Ref sig .tc := ⟨.hbm, 91, rfl⟩
abbrev main_v49 : Ref sig .tc := ⟨.hbm, 92, rfl⟩
abbrev main_c_13 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_call5_v5 : Ref sig .tc := ⟨.hbm, 99, rfl⟩
abbrev main_call5_v6 : Ref sig .tc := ⟨.hbm, 100, rfl⟩
abbrev main_call5_v7 : Ref sig .tc := ⟨.hbm, 101, rfl⟩
abbrev main_call5_c : Ref sig .tc := ⟨.hbm, 102, rfl⟩
abbrev main_call5_v8 : Ref sig .tc := ⟨.hbm, 103, rfl⟩
abbrev main_call5_v9 : Ref sig .tc := ⟨.hbm, 104, rfl⟩
abbrev main_call5_v10 : Ref sig .tc := ⟨.hbm, 105, rfl⟩
abbrev main_call5_c_0 : Ref sig .tc := ⟨.hbm, 106, rfl⟩
abbrev main_call5_v11 : Ref sig .tc := ⟨.hbm, 107, rfl⟩
abbrev main_call5_v12 : Ref sig .tc := ⟨.hbm, 108, rfl⟩
abbrev main_v50 : Ref sig .tc := ⟨.hbm, 109, rfl⟩
abbrev main_c_14 : Ref sig .tc := ⟨.hbm, 110, rfl⟩
abbrev main_call6_v0 : Ref sig .tc := ⟨.hbm, 111, rfl⟩
abbrev main_call6_c : Ref sig .tc := ⟨.hbm, 112, rfl⟩
abbrev main_call6_v1 : Ref sig .tc := ⟨.hbm, 113, rfl⟩
abbrev main_call6_c_0 : Ref sig .tc := ⟨.hbm, 114, rfl⟩
abbrev main_call6_v2 : Ref sig .tc := ⟨.hbm, 115, rfl⟩
abbrev main_call6_v3 : Ref sig .tc := ⟨.hbm, 116, rfl⟩
abbrev main_call6_v4 : Ref sig .tc := ⟨.hbm, 117, rfl⟩
abbrev main_call6_c_1 : Ref sig .tc := ⟨.hbm, 118, rfl⟩
abbrev main_call6_v5 : Ref sig .tc := ⟨.hbm, 119, rfl⟩
abbrev main_call6_v6 : Ref sig .tc := ⟨.hbm, 120, rfl⟩
abbrev main_call6_c_2 : Ref sig .tc := ⟨.hbm, 121, rfl⟩
abbrev main_call6_v7 : Ref sig .tc := ⟨.hbm, 122, rfl⟩
abbrev main_call6_v8 : Ref sig .tc := ⟨.hbm, 123, rfl⟩
abbrev main_call6_c_3 : Ref sig .tc := ⟨.hbm, 124, rfl⟩
abbrev main_call6_v9 : Ref sig .tc := ⟨.hbm, 125, rfl⟩
abbrev main_call6_v10 : Ref sig .tc := ⟨.hbm, 126, rfl⟩
abbrev main_call6_v11 : Ref sig .tc := ⟨.hbm, 127, rfl⟩
abbrev main_call6_v12 : Ref sig .tc := ⟨.hbm, 128, rfl⟩
abbrev main_call6_v13 : Ref sig .tc := ⟨.hbm, 129, rfl⟩
abbrev main_call6_v14 : Ref sig .tc := ⟨.hbm, 130, rfl⟩
abbrev main_v51 : Ref sig .tc := ⟨.hbm, 131, rfl⟩
abbrev main_c_15 : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_call7_v3 : Ref sig .tc := ⟨.hbm, 136, rfl⟩
abbrev main_call7_v4 : Ref sig .tc := ⟨.hbm, 137, rfl⟩
abbrev main_call7_v5 : Ref sig .tc := ⟨.hbm, 138, rfl⟩
abbrev main_call7_v6 : Ref sig .tc := ⟨.hbm, 139, rfl⟩
abbrev main_call7_v7 : Ref sig .tc := ⟨.hbm, 140, rfl⟩
abbrev main_call7_c : Ref sig .tc := ⟨.hbm, 141, rfl⟩
abbrev main_call7_v8 : Ref sig .tc := ⟨.hbm, 142, rfl⟩
abbrev main_call7_v9 : Ref sig .tc := ⟨.hbm, 143, rfl⟩
abbrev main_call7_v10 : Ref sig .tc := ⟨.hbm, 144, rfl⟩
abbrev main_call7_c_0 : Ref sig .tc := ⟨.hbm, 145, rfl⟩
abbrev main_call7_v11 : Ref sig .tc := ⟨.hbm, 146, rfl⟩
abbrev main_call7_v12 : Ref sig .tc := ⟨.hbm, 147, rfl⟩
abbrev main_v52 : Ref sig .tc := ⟨.hbm, 148, rfl⟩
abbrev main_c_16 : Ref sig .tc := ⟨.hbm, 149, rfl⟩
abbrev main_call8_v0 : Ref sig .tc := ⟨.hbm, 150, rfl⟩
abbrev main_call8_c : Ref sig .tc := ⟨.hbm, 151, rfl⟩
abbrev main_call8_v1 : Ref sig .tc := ⟨.hbm, 152, rfl⟩
abbrev main_call8_c_0 : Ref sig .tc := ⟨.hbm, 153, rfl⟩
abbrev main_call8_v2 : Ref sig .tc := ⟨.hbm, 154, rfl⟩
abbrev main_call8_v3 : Ref sig .tc := ⟨.hbm, 155, rfl⟩
abbrev main_call8_v4 : Ref sig .tc := ⟨.hbm, 156, rfl⟩
abbrev main_call8_c_1 : Ref sig .tc := ⟨.hbm, 157, rfl⟩
abbrev main_call8_v5 : Ref sig .tc := ⟨.hbm, 158, rfl⟩
abbrev main_call8_v6 : Ref sig .tc := ⟨.hbm, 159, rfl⟩
abbrev main_call8_c_2 : Ref sig .tc := ⟨.hbm, 160, rfl⟩
abbrev main_call8_v7 : Ref sig .tc := ⟨.hbm, 161, rfl⟩
abbrev main_call8_v8 : Ref sig .tc := ⟨.hbm, 162, rfl⟩
abbrev main_call8_c_3 : Ref sig .tc := ⟨.hbm, 163, rfl⟩
abbrev main_call8_v9 : Ref sig .tc := ⟨.hbm, 164, rfl⟩
abbrev main_call8_v10 : Ref sig .tc := ⟨.hbm, 165, rfl⟩
abbrev main_call8_v11 : Ref sig .tc := ⟨.hbm, 166, rfl⟩
abbrev main_call8_v12 : Ref sig .tc := ⟨.hbm, 167, rfl⟩
abbrev main_call8_v13 : Ref sig .tc := ⟨.hbm, 168, rfl⟩
abbrev main_call8_v14 : Ref sig .tc := ⟨.hbm, 169, rfl⟩
abbrev main_v53 : Ref sig .tc := ⟨.hbm, 170, rfl⟩
abbrev main_c_17 : Ref sig .tc := ⟨.hbm, 171, rfl⟩
abbrev main_v54 : Ref sig .tc := ⟨.hbm, 172, rfl⟩
abbrev main_v55 : Ref sig .tc := ⟨.hbm, 173, rfl⟩
abbrev main_c_18 : Ref sig .tc := ⟨.hbm, 174, rfl⟩
abbrev main_v56 : Ref sig .tc := ⟨.hbm, 175, rfl⟩
abbrev main_v57 : Ref sig .tc := ⟨.hbm, 176, rfl⟩
abbrev main_v58 : Ref sig .tc := ⟨.hbm, 177, rfl⟩
abbrev main_v59 : Ref sig .tc := ⟨.hbm, 178, rfl⟩
abbrev main_v60 : Ref sig .tc := ⟨.hbm, 179, rfl⟩
abbrev main_c_19 : Ref sig .tc := ⟨.hbm, 180, rfl⟩
abbrev main_v61 : Ref sig .tc := ⟨.hbm, 181, rfl⟩
abbrev main_v62 : Ref sig .tc := ⟨.hbm, 182, rfl⟩
abbrev main_c_20 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_v69 : Ref sig .tc := ⟨.hbm, 190, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  transposes_S16x64_S64x16_1_0 : S16x64.Transposes [1, 0] S64x16
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  transposes_S64x16_S16x64_1_0 : S64x16.Transposes [1, 0] S16x64
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S32768 : S_.BroadcastsInDim S32768 (![] : Fin 0 → Fin S32768.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S2080 : S_.BroadcastsInDim S2080 (![] : Fin 0 → Fin S2080.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S2080_S2080_w2080s1p2079_0 : S2080.ReduceWindows (![2080] : Fin 1 → Nat) ![1] ![2079] ![0] S2080
  bcast_S2080_S2080x1_0 : S2080.BroadcastsInDim S2080x1 (![0] : Fin 1 → Fin S2080x1.rank)
  shapeCasts_S32768x2080_S64x1064960 : S32768x2080.ShapeCasts S64x1064960
  scatter_S64x64_S32768x1_S32768x64_1_0_0_1_wf : ScatterDims.WF S64x64 S32768x1 S32768x64 [1] [0] [0] 1
  scatter_S64x1_S32768x1_S32768x1_1_0_0_1_wf : ScatterDims.WF S64x1 S32768x1 S32768x1 [1] [0] [0] 1
  dot_S64x64_S64x16_S64x16_1_0_0_1_n_n_wf : DotDims.WF S64x64 S64x16 S64x16 [1] [0] [0] [1] [] []
  dot_S64x16_S16x64_S64x64_1_0_0_1_n_n_wf : DotDims.WF S64x16 S16x64 S64x64 [1] [0] [0] [1] [] []
  gather_S64x64_S32768x1_S32768x64_1_0_n_n_0_1_164_wf : GatherDims.WF S64x64 S32768x1 S32768x64 [1] [0] [] [0] [] 1 ![1, 64]
  scatter_S2080_S4096x1_S4096_n_0_0_1_wf : ScatterDims.WF S2080 S4096x1 S4096 [] [0] [0] 1
  gather_S32768x64_S2080x1_S32768x2080_0_1_n_n_1_1_327681_wf : GatherDims.WF S32768x64 S2080x1 S32768x2080 [0] [1] [] [1] [] 1 ![32768, 1]

variable [Facts₀]

def scatter_S64x64_S32768x1_S32768x64_1_0_0_1 : ScatterDims S64x64 S32768x1 S32768x64 where
  updateWindowDims := [1]
  insertedWindowDims := [0]
  scatterDimsToOperandDims := [0]
  indexVectorDim := 1
  wf := scatter_S64x64_S32768x1_S32768x64_1_0_0_1_wf
def scatter_S64x1_S32768x1_S32768x1_1_0_0_1 : ScatterDims S64x1 S32768x1 S32768x1 where
  updateWindowDims := [1]
  insertedWindowDims := [0]
  scatterDimsToOperandDims := [0]
  indexVectorDim := 1
  wf := scatter_S64x1_S32768x1_S32768x1_1_0_0_1_wf
def dot_S64x64_S64x16_S64x16_1_0_0_1_n_n : DotDims S64x64 S64x16 S64x16 where
  lhsContracting := [1]
  rhsContracting := [0]
  lhsNonContracting := [0]
  rhsNonContracting := [1]
  lhsBatch := []
  rhsBatch := []
  wf := dot_S64x64_S64x16_S64x16_1_0_0_1_n_n_wf
def dot_S64x16_S16x64_S64x64_1_0_0_1_n_n : DotDims S64x16 S16x64 S64x64 where
  lhsContracting := [1]
  rhsContracting := [0]
  lhsNonContracting := [0]
  rhsNonContracting := [1]
  lhsBatch := []
  rhsBatch := []
  wf := dot_S64x16_S16x64_S64x64_1_0_0_1_n_n_wf
def gather_S64x64_S32768x1_S32768x64_1_0_n_n_0_1_164 : GatherDims S64x64 S32768x1 S32768x64 where
  offsetDims := [1]
  collapsedSliceDims := [0]
  operandBatchingDims := []
  startIndicesBatchingDims := []
  startIndexMap := [0]
  indexVectorDim := 1
  sliceSizes := ![1, 64]
  wf := gather_S64x64_S32768x1_S32768x64_1_0_n_n_0_1_164_wf
def scatter_S2080_S4096x1_S4096_n_0_0_1 : ScatterDims S2080 S4096x1 S4096 where
  updateWindowDims := []
  insertedWindowDims := [0]
  scatterDimsToOperandDims := [0]
  indexVectorDim := 1
  wf := scatter_S2080_S4096x1_S4096_n_0_0_1_wf
def gather_S32768x64_S2080x1_S32768x2080_0_1_n_n_1_1_327681 : GatherDims S32768x64 S2080x1 S32768x2080 where
  offsetDims := [0]
  collapsedSliceDims := [1]
  operandBatchingDims := []
  startIndicesBatchingDims := []
  startIndexMap := [1]
  indexVectorDim := 1
  sliceSizes := ![32768, 1]
  wf := gather_S32768x64_S2080x1_S32768x2080_0_1_n_n_1_1_327681_wf

class Facts : Prop extends Facts₀ where

variable [Facts]
-- ==== Proof.KerStages.lean ====
/-
  The gated node features as the kernel program's host operations compute them, one pure term of the six arguments:
  per graph the mean of its nodes' features (two accumulating scatters, the feature sums and the node counts, and
  their quotient), a two-layer perceptron on it (leaky ReLU inside, logistic `1 / (1 + exp (-z))` outside) giving a
  gate per graph and channel, and each node's features times its graph's gate (a row gather of the gate table at the
  node's graph number, a negative number wrapped once). The same operations, word for word, open the reference.
-/
import proofs.«412582_j22814866277106_3_alg».proof.Proof.Gen.KernelIdeal

noncomputable section

namespace Cert.KerStages

open Cert.KernelIdeal Cert.KernelIdeal.Gen Idealize.ShloMosaic Idealize.ShloMosaic.TcCoe

variable {F : FTy → Type} [FloatOps F]

/-- Leaky ReLU as the program writes it: `x` where `x ≥ 0`, else `slope · x`. -/
def leaky (x : FVec F S64x16 .f32) (slope : FVec F S_ .f32) : FVec F S64x16 .f32 :=
  select (cmpf .oge x (broadcastInDim S64x16 ![] bcast_S_S64x16 (constant S_ .f32 0x00000000#32)))
    x (mulf (broadcastInDim S64x16 ![] bcast_S_S64x16 (id slope)) x)

/-- The gate per graph and channel. -/
def gate (a0 : FVec F S32768x64 .f32) (a1 : IVec S32768 32) (a2 : FVec F S16x64 .f32) (a3 : FVec F S16 .f32)
    (a4 : FVec F S64x16 .f32) (a5 : FVec F S64 .f32) : FVec F S64x64 .f32 :=
  Host.divf (broadcastInDim S64x64 ![] bcast_S_S64x64 (constant S_ .f32 0x3F800000#32))
    (addf (broadcastInDim S64x64 ![] bcast_S_S64x64 (constant S_ .f32 0x3F800000#32))
      (Host.exp (Host.negf
        (addf
          (Host.dotGeneral dot_S64x16_S16x64_S64x64_1_0_0_1_n_n none
            (leaky
              (addf
                (Host.dotGeneral dot_S64x64_S64x16_S64x16_1_0_0_1_n_n none
                  (Host.divf
                    (Host.scatterAdd scatter_S64x64_S32768x1_S32768x64_1_0_0_1
                      (broadcastInDim S64x64 ![] bcast_S_S64x64 (constant S_ .f32 0x00000000#32))
                      (broadcastInDim S32768x1 ![0] bcast_S32768_S32768x1_0 a1) a0)
                    (broadcastInDim S64x64 ![0, 1] bcast_S64x1_S64x64_0_1
                      (Host.scatterAdd scatter_S64x1_S32768x1_S32768x1_1_0_0_1
                        (broadcastInDim S64x1 ![] bcast_S_S64x1 (constant S_ .f32 0x00000000#32))
                        (broadcastInDim S32768x1 ![0] bcast_S32768_S32768x1_0 a1)
                        (broadcastInDim S32768x1 ![] bcast_S_S32768x1 (constant S_ .f32 0x3F800000#32)))))
                  (transpose S64x16 [1, 0] a2 transposes_S16x64_S64x16_1_0))
                (broadcastInDim S64x16 ![0, 1] bcast_S1x16_S64x16_0_1 (broadcastInDim S1x16 ![1] bcast_S16_S1x16_1 a3)))
              (constant S_ .f32 0x3C23D70A#32))
            (transpose S16x64 [1, 0] a4 transposes_S64x16_S16x64_1_0))
          (broadcastInDim S64x64 ![0, 1] bcast_S1x64_S64x64_0_1 (broadcastInDim S1x64 ![1] bcast_S64_S1x64_1 a5))))))

/-- The gated node features. -/
def XG (a0 : FVec F S32768x64 .f32) (a1 : IVec S32768 32) (a2 : FVec F S16x64 .f32) (a3 : FVec F S16 .f32)
    (a4 : FVec F S64x16 .f32) (a5 : FVec F S64 .f32) : FVec F S32768x64 .f32 :=
  mulf a0
    (Host.gather gather_S64x64_S32768x1_S32768x64_1_0_n_n_0_1_164 (gate a0 a1 a2 a3 a4 a5)
      (broadcastInDim S32768x1 ![0] bcast_S32768_S32768x1_0
        (select (cmpi .slt a1 (broadcastInDim S32768 ![] bcast_S_S32768 (constantI S_ 32 0#32)))
          (addi a1 (broadcastInDim S32768 ![] bcast_S_S32768 (constantI S_ 32 64#32))) a1)))

end Cert.KerStages

end
-- ==== Proof.TriuSpec.lean ====
/-
  The upper triangle of a 64 × 64 matrix, diagonal included, enumerated row by row: entry number `k`
  (0 ≤ k < 2080) sits in row `row k` and column `col k`, `row k ≤ col k`. Row `i` contributes the `64 - i`
  entries `(i, i), (i, i + 1), …, (i, 63)`, so the rows before it hold `off i = 64 + 63 + … + (65 - i)` entries
  and entry `off i + d` (`d < 64 - i`) is `(i, i + d)`.

  The function both programs compute: from the gated node features `xg : [32768, 64]` (node `v = 512·g + n` is
  node `n` of graph `g`), the array `[64, 512 · 2080]` whose entry `(g, 2080·n + k)` is
  `xg[512·g + n, row k] · xg[512·g + n, col k]`: each node's outer product with itself, upper triangle, flattened.
-/
import Idealize.ShloMosaic.Lib.ValueIdx
import Idealize.ShloMosaic.PureOps.Ideal

namespace Cert.Triu

open Idealize.ShloMosaic Idealize.ShloMosaic.ValueIdx

/-- How many upper-triangular entries the rows before row `i` hold: `64 + 63 + … + (65 - i)`. -/
def off (i : Nat) : Nat := i * 64 - i * (i - 1) / 2

/-- Walk the rows from row `i`: entry `k` counted from row `i`'s first is in row `i` when `k < 64 - i`, else it is
    entry `k - (64 - i)` counted from row `i + 1`'s first. -/
def rcGo : Nat → Nat → Nat → Nat × Nat
  | 0, i, _ => (i, i)
  | f + 1, i, k => if k < 64 - i then (i, i + k) else rcGo f (i + 1) (k - (64 - i))

/-- The row of entry `k`. -/
def row (k : Nat) : Nat := (rcGo 64 0 k).1
/-- The column of entry `k`. -/
def col (k : Nat) : Nat := (rcGo 64 0 k).2
/-- The flat row-major position `64 · row + col` of entry `k` in the 64 × 64 matrix. -/
def pos (k : Nat) : Nat := 64 * row k + col k

set_option maxRecDepth 100000 in
private theorem all_k : (List.range 2080).all (fun k => decide (row k < 64 ∧ col k < 64 ∧ row k ≤ col k ∧ pos k < 4096
    ∧ pos k / 64 ≤ pos k % 64 ∧ pos k / 64 = row k ∧ pos k % 64 = col k)) = true := by decide +kernel

set_option maxRecDepth 100000 in
private theorem all_id : (List.range 64).all (fun i => (List.range 64).all fun d =>
    decide (d < 64 - i → row (off i + d) = i ∧ col (off i + d) = i + d ∧ off i + d < 2080)) = true := by decide +kernel

private theorem k_facts (k : Nat) (hk : k < 2080) : row k < 64 ∧ col k < 64 ∧ row k ≤ col k ∧ pos k < 4096
    ∧ pos k / 64 ≤ pos k % 64 ∧ pos k / 64 = row k ∧ pos k % 64 = col k :=
  of_decide_eq_true (List.all_eq_true.mp all_k k (List.mem_range.mpr hk))

private theorem id_facts (i d : Nat) (hi : i < 64) (hd : d < 64 - i) :
    row (off i + d) = i ∧ col (off i + d) = i + d ∧ off i + d < 2080 :=
  of_decide_eq_true (List.all_eq_true.mp (List.all_eq_true.mp all_id i (List.mem_range.mpr hi)) d
    (List.mem_range.mpr (by omega))) hd

theorem row_lt (k : Nat) (hk : k < 2080) : row k < 64 := (k_facts k hk).1
theorem col_lt (k : Nat) (hk : k < 2080) : col k < 64 := (k_facts k hk).2.1
theorem row_le_col (k : Nat) (hk : k < 2080) : row k ≤ col k := (k_facts k hk).2.2.1
theorem pos_lt (k : Nat) (hk : k < 2080) : pos k < 4096 := (k_facts k hk).2.2.2.1
/-- The positions are upper-triangular ones. -/
theorem pos_triu (k : Nat) (hk : k < 2080) : pos k / 64 ≤ pos k % 64 := (k_facts k hk).2.2.2.2.1
theorem pos_div (k : Nat) (hk : k < 2080) : pos k / 64 = row k := (k_facts k hk).2.2.2.2.2.1
theorem pos_mod (k : Nat) (hk : k < 2080) : pos k % 64 = col k := (k_facts k hk).2.2.2.2.2.2

/-- Entry `d` of row `i` is `(i, i + d)`. -/
theorem row_off_add (i d : Nat) (hi : i < 64) (hd : d < 64 - i) : row (off i + d) = i := (id_facts i d hi hd).1
theorem col_off_add (i d : Nat) (hi : i < 64) (hd : d < 64 - i) : col (off i + d) = i + d := (id_facts i d hi hd).2.1
theorem off_add_lt (i d : Nat) (hi : i < 64) (hd : d < 64 - i) : off i + d < 2080 := (id_facts i d hi hd).2.2

def rowF (k : Fin 2080) : Fin 64 := ⟨row k.val, row_lt k.val k.isLt⟩
def colF (k : Fin 2080) : Fin 64 := ⟨col k.val, col_lt k.val k.isLt⟩

/-- Node `n` (0 ≤ n < 512) of graph `g` as a row of the `[32768, 64]` feature array, from a flat column `q = 2080·n + k`. -/
def node (g : Fin 64) (q : Fin 1064960) : Fin 32768 := ⟨g.val * 512 + q.val / 2080, by have := g.isLt; have := q.isLt; omega⟩
/-- The triangle entry a flat column `q = 2080·n + k` holds. -/
def ent (q : Fin 1064960) : Fin 2080 := ⟨q.val % 2080, Nat.mod_lt _ (by decide)⟩

/-- Every node's upper-triangular self outer product, flattened per graph. -/
noncomputable def G (xg : (⟨2, ![32768, 64]⟩ : Shape).Idx → EReal) : (⟨2, ![64, 1064960]⟩ : Shape).Idx → EReal :=
  fun j => xg (ix2 (node (j 0) (j 1)) (rowF (ent (j 1)))) * xg (ix2 (node (j 0) (j 1)) (colF (ent (j 1))))

/-- One grid step's scratch tile `[64, 32, 2080]` from its input block `v : [64, 32, 64]` (64 graphs, 32 nodes
    each): entry `(g, r, k)` is `v[g, r, row k] · v[g, r, col k]`. -/
noncomputable def Scr (v : (⟨3, ![64, 32, 64]⟩ : Shape).Idx → EReal) : (⟨3, ![64, 32, 2080]⟩ : Shape).Idx → EReal :=
  fun y => v (ix3 (y 0) (y 1) (rowF (y 2))) * v (ix3 (y 0) (y 1) (colF (y 2)))

/-- The same tile with its 32 rows laid side by side: the output block `[64, 32 · 2080]`. -/
noncomputable def OutBlk (v : (⟨3, ![64, 32, 64]⟩ : Shape).Idx → EReal) : (⟨2, ![64, 66560]⟩ : Shape).Idx → EReal :=
  fun y => Scr v (ix3 (y 0) (⟨(y 1).val / 2080, by have := (y 1).isLt; change (y 1).val < 66560 at this; omega⟩ : Fin 32)
    (⟨(y 1).val % 2080, Nat.mod_lt _ (by decide)⟩ : Fin 2080))

end Cert.Triu
-- ==== Proof.KernelPayloads.lean ====
/-
  The arithmetic of the kernel body, payload by payload, read at an index at the ideal instance (floats are extended
  reals, `mulf` is their product).

  The body loads the block `v : [64, 32, 64]`, casts it to its own shape (the identity), and for every `i` from 0 to 63
  stores into columns `off i, …, off i + (63 - i)` of the scratch tile `[64, 32, 2080]` the product of column `i` of the
  block, broadcast along the last axis, with columns `i, …, 63` of the block. At `(g, r, d)` that product is
  `v[g, r, i] · v[g, r, i + d]`, and since entry `off i + d` of the upper triangle sits in row `i` and column `i + d`
  (`Cert.Triu.row_off_add`, `col_off_add`), it is `Cert.Triu.Scr v` at `(g, r, off i + d)`: one theorem `scr_at_<off i>` per
  store, the stored value written as the composition of payload definitions the body's statements spell it with.
  Then each of the 32 rows `[64, 1, 2080]` of the scratch tile is cast to `[64, 2080]` and copied out: the cast reads
  `(g, k)` at `(g, 0, k)` (`copy_eq_<N>`).
-/
import proofs.«412582_j22814866277106_3_alg».proof.Proof.Gen.KernelIdeal.Skeleton
import proofs.«412582_j22814866277106_3_alg».proof.Proof.TriuSpec
import Idealize.ShloMosaic.Lib.Pipeline.Value
import Idealize.ShloMosaic.Lib.ValueIdx
import Idealize.ShloMosaic.PureOps.Ideal

namespace Cert.KernelPayloads

open Idealize.ShloMosaic Idealize.ShloMosaic.ValueIdx Cert.KernelIdeal Cert.KernelIdeal.Gen

/-! ## The layout operations of the body, read at an index -/

/-- The block's shape `[64, 32, 64]`. -/
abbrev Blk : Shape := ⟨3, ![64, 32, 64]⟩
/-- One column of the block along the last axis, `[64, 32, 1]`. -/
abbrev Col : Shape := ⟨3, ![64, 32, 1]⟩
/-- `W` consecutive columns of the block, `[64, 32, W]`. -/
abbrev Row (W : Nat) : Shape := ⟨3, ![64, 32, W]⟩

/-- Column `i` of the block, cut out as a `[64, 32, 1]` slice, holds at `(g, r, 0)` the block's entry `(g, r, i)`. -/
theorem col_apply (i : Nat) (hi : i < 64) (v : FVec Ideal Blk .f32) (h : Blk.Slices ![0, 0, i] Col)
    (g : Fin 64) (r : Fin 32) (z : Fin 1) :
    extractStridedSlice Col ![0, 0, i] v h (ix3 g r z) = v (ix3 g r ⟨i, hi⟩) :=
  extractStridedSlice_apply _ v h _ _ (fun a => by
    have := z.isLt
    match a with
    | ⟨0, _⟩ => show g.val = 0 + g.val; omega
    | ⟨1, _⟩ => show r.val = 0 + r.val; omega
    | ⟨2, _⟩ => show i = i + z.val; omega)

/-- Columns `i, …, i + W - 1` of the block, cut out as a `[64, 32, W]` slice, hold at `(g, r, d)` the block's entry
    `(g, r, i + d)`. -/
theorem row_apply (W i : Nat) (hiW : i + W ≤ 64) (v : FVec Ideal Blk .f32) (h : Blk.Slices ![0, 0, i] (Row W))
    (g : Fin 64) (r : Fin 32) (d : Fin W) :
    extractStridedSlice (Row W) ![0, 0, i] v h (ix3 g r d) = v (ix3 g r ⟨i + d.val, by have := d.isLt; omega⟩) :=
  extractStridedSlice_apply _ v h _ _ (fun a => by
    match a with
    | ⟨0, _⟩ => show g.val = 0 + g.val; omega
    | ⟨1, _⟩ => show r.val = 0 + r.val; omega
    | ⟨2, _⟩ => rfl)

/-- A `[64, 32, 1]` column broadcast along the last axis to `[64, 32, W]` holds at `(g, r, d)` the column's entry
    `(g, r, 0)`. -/
theorem bcast_apply (W : Nat) (c : FVec Ideal Col .f32) (h : Col.Broadcasts (Row W)) (g : Fin 64) (r : Fin 32)
    (d : Fin W) : broadcastTo (Row W) c h (ix3 g r d) = c (ix3 g r ⟨0, Nat.one_pos⟩) :=
  broadcastTo_apply c h _ _ (fun a => by
    match a with
    | ⟨0, _⟩ => rfl
    | ⟨1, _⟩ => rfl
    | ⟨2, _⟩ => rfl)

/-- Column `i` broadcast, times columns `i, …, i + W - 1`, cast to its own shape: at `(g, r, d)` it is
    `v[g, r, i] · v[g, r, i + d]`. -/
theorem prod_apply (W i : Nat) (hiW : i + W ≤ 64) (v : FVec Ideal Blk .f32)
    (h1 : Blk.Slices ![0, 0, i] Col) (hW : Blk.Slices ![0, 0, i] (Row W)) (hb : Col.Broadcasts (Row W))
    (hc : (Row W).ShapeCasts (Row W)) (g : Fin 64) (r : Fin 32) (d : Fin W) :
    shapeCast (Row W) (mulf (F := Ideal) (φ := .f32) (broadcastTo (Row W) (extractStridedSlice Col ![0, 0, i] v h1) hb)
        (extractStridedSlice (Row W) ![0, 0, i] v hW)) hc (ix3 g r d)
      = v (ix3 g r ⟨i, by have := d.isLt; omega⟩) * v (ix3 g r ⟨i + d.val, by have := d.isLt; omega⟩) := by
  rw [shapeCast_self, mulf_apply, bcast_apply, col_apply i (by have := d.isLt; omega), row_apply W i hiW]

/-- The first store takes all 64 columns, so the block itself stands where the slice of columns would: column 0
    broadcast, times the block, is `v[g, r, 0] · v[g, r, 0 + d]` at `(g, r, d)`. -/
theorem prod_apply_first (v : FVec Ideal Blk .f32) (h1 : Blk.Slices ![0, 0, 0] Col) (hb : Col.Broadcasts (Row 64))
    (hc : (Row 64).ShapeCasts (Row 64)) (g : Fin 64) (r : Fin 32) (d : Fin 64) :
    shapeCast (Row 64) (mulf (F := Ideal) (φ := .f32) (broadcastTo (Row 64) (extractStridedSlice Col ![0, 0, 0] v h1) hb) v)
        hc (ix3 g r d)
      = v (ix3 g r ⟨0, by omega⟩) * v (ix3 g r ⟨0 + d.val, by omega⟩) := by
  have e : (⟨0 + d.val, by omega⟩ : Fin 64) = d := Fin.ext (Nat.zero_add _)
  rw [shapeCast_self, mulf_apply, bcast_apply, col_apply 0 (by omega), e]

/-- The last store takes the single column 63, and no broadcast is needed: the column times itself is
    `v[g, r, 63] · v[g, r, 63 + d]` at `(g, r, d)`, `d = 0`. -/
theorem prod_apply_last (v : FVec Ideal Blk .f32) (h1 : Blk.Slices ![0, 0, 63] Col) (hc : Col.ShapeCasts Col)
    (g : Fin 64) (r : Fin 32) (d : Fin 1) :
    shapeCast Col (mulf (F := Ideal) (φ := .f32) (extractStridedSlice Col ![0, 0, 63] v h1)
        (extractStridedSlice Col ![0, 0, 63] v h1)) hc (ix3 g r d)
      = v (ix3 g r ⟨63, by omega⟩) * v (ix3 g r ⟨63 + d.val, by omega⟩) := by
  have e : (⟨63 + d.val, by omega⟩ : Fin 64) = ⟨63, by omega⟩ := Fin.ext (by show 63 + d.val = 63; omega)
  rw [shapeCast_self, mulf_apply, col_apply 63 (by omega), e]

/-- The scratch tile at column `off i + d`, entry `d` of row `i` of the triangle, is `v[g, r, i] · v[g, r, i + d]`. -/
theorem Scr_at (v : FVec Ideal Blk .f32) (g : Fin 64) (r : Fin 32) (i d : Nat) (hi : i < 64) (hd : d < 64 - i)
    (k : Fin 2080) (hk : k.val = Cert.Triu.off i + d) :
    Cert.Triu.Scr v (ix3 g r k) = v (ix3 g r ⟨i, hi⟩) * v (ix3 g r ⟨i + d, by omega⟩) := by
  have hr : Cert.Triu.rowF k = ⟨i, hi⟩ := Fin.ext (by
    show Cert.Triu.row k.val = i
    rw [hk]; exact Cert.Triu.row_off_add i d hi hd)
  have hcl : Cert.Triu.colF k = ⟨i + d, by omega⟩ := Fin.ext (by
    show Cert.Triu.col k.val = i + d
    rw [hk]; exact Cert.Triu.col_off_add i d hi hd)
  show v (ix3 g r (Cert.Triu.rowF k)) * v (ix3 g r (Cert.Triu.colF k)) = _
  rw [hr, hcl]

/-- A `[64, 1, 2080]` row of the scratch tile cast to `[64, 2080]` reads `(g, k)` at `(g, 0, k)`: both have row-major
    position `2080 · g + k`. -/
theorem cast_row_apply (v : Vec Ideal S64x1x2080 .f32) (h : S64x1x2080.ShapeCasts S64x2080) (g : Fin 64) (k : Fin 2080) :
    shapeCast S64x2080 v h (ix2 g k) = v (ix3 g 0 k) :=
  shapeCast_apply v h _ _ (by
    rw [Shape.rowMajor_val_three, Shape.rowMajor_val_two]
    show (g.val * 1 + 0) * 2080 + k.val = g.val * 2080 + k.val
    omega)

/-! ## The block's cast to its own shape -/

/-- The body's first statement casts the loaded block to its own shape: the identity. -/
theorem pay5_eq (v0 : Vec Ideal S64x32x64 .f32) : k0_pay5 (F := Ideal) v0 = v0 := shapeCast_self v0 (by decide)

/-! ## The 64 stores into the scratch tile, by column offset

Store `i` writes columns `off i, …, off i + (63 - i)`; the first five read the block through its cast `k0_pay5`. -/

/-- Row 0 of the triangle, columns 0 to 63: `v[g, r, 0] · v[g, r, 0 + d]`. -/
theorem scr_at_0 (v0 : Vec Ideal S64x32x64 .f32) (g : Fin 64) (r : Fin 32) (d : Fin 64) :
    k0_pay6 (F := Ideal) v0 (ix3 g r d) = Cert.Triu.Scr v0 (ix3 g r ⟨0 + d.val, by omega⟩) :=
  (prod_apply_first (k0_pay5 (F := Ideal) v0) (by decide) (by decide) (by decide) g r d).trans (by rw [pay5_eq]; exact (Scr_at v0 g r 0 d.val (by omega) (by omega) _ rfl).symm)

/-- Row 1 of the triangle, columns 64 to 126: `v[g, r, 1] · v[g, r, 1 + d]`. -/
theorem scr_at_64 (v0 : Vec Ideal S64x32x64 .f32) (g : Fin 64) (r : Fin 32) (d : Fin 63) :
    k0_pay7 (F := Ideal) v0 (ix3 g r d) = Cert.Triu.Scr v0 (ix3 g r ⟨64 + d.val, by omega⟩) :=
  (prod_apply 63 1 (by omega) (k0_pay5 (F := Ideal) v0) (by decide) (by decide) (by decide) (by decide) g r d).trans (by rw [pay5_eq]; exact (Scr_at v0 g r 1 d.val (by omega) (by omega) _ rfl).symm)

/-- Row 2 of the triangle, columns 127 to 188: `v[g, r, 2] · v[g, r, 2 + d]`. -/
theorem scr_at_127 (v0 : Vec Ideal S64x32x64 .f32) (g : Fin 64) (r : Fin 32) (d : Fin 62) :
    k0_pay8 (F := Ideal) v0 (ix3 g r d) = Cert.Triu.Scr v0 (ix3 g r ⟨127 + d.val, by omega⟩) :=
  (prod_apply 62 2 (by omega) (k0_pay5 (F := Ideal) v0) (by decide) (by decide) (by decide) (by decide) g r d).trans (by rw [pay5_eq]; exact (Scr_at v0 g r 2 d.val (by omega) (by omega) _ rfl).symm)

/-- Row 3 of the triangle, columns 189 to 249: `v[g, r, 3] · v[g, r, 3 + d]`. -/
theorem scr_at_189 (v0 : Vec Ideal S64x32x64 .f32) (g : Fin 64) (r : Fin 32) (d : Fin 61) :
    k0_pay9 (F := Ideal) v0 (ix3 g r d) = Cert.Triu.Scr v0 (ix3 g r ⟨189 + d.val, by omega⟩) :=
  (prod_apply 61 3 (by omega) (k0_pay5 (F := Ideal) v0) (by decide) (by decide) (by decide) (by decide) g r d).trans (by rw [pay5_eq]; exact (Scr_at v0 g r 3 d.val (by omega) (by omega) _ rfl).symm)

/-- Row 4 of the triangle, columns 250 to 309: `v[g, r, 4] · v[g, r, 4 + d]`. -/
theorem scr_at_250 (v0 : Vec Ideal S64x32x64 .f32) (g : Fin 64) (r : Fin 32) (d : Fin 60) :
    k0_pay10 (F := Ideal) v0 (ix3 g r d) = Cert.Triu.Scr v0 (ix3 g r ⟨250 + d.val, by omega⟩) :=
  (prod_apply 60 4 (by omega) (k0_pay5 (F := Ideal) v0) (by decide) (by decide) (by decide) (by decide) g r d).trans (by rw [pay5_eq]; exact (Scr_at v0 g r 4 d.val (by omega) (by omega) _ rfl).symm)

/-- Row 5 of the triangle, columns 310 to 368: `v[g, r, 5] · v[g, r, 5 + d]`. -/
theorem scr_at_310 (v1 : FVec Ideal S64x32x64 .f32) (g : Fin 64) (r : Fin 32) (d : Fin 59) :
    k0_pay11 (F := Ideal) v1 (ix3 g r d) = Cert.Triu.Scr v1 (ix3 g r ⟨310 + d.val, by omega⟩) :=
  (prod_apply 59 5 (by omega) v1 (by decide) (by decide) (by decide) (by decide) g r d).trans (Scr_at v1 g r 5 d.val (by omega) (by omega) _ rfl).symm

/-- Row 6 of the triangle, columns 369 to 426: `v[g, r, 6] · v[g, r, 6 + d]`. -/
theorem scr_at_369 (v1 : FVec Ideal S64x32x64 .f32) (g : Fin 64) (r : Fin 32) (d : Fin 58) :
    k0_pay12 (F := Ideal) v1 (ix3 g r d) = Cert.Triu.Scr v1 (ix3 g r ⟨369 + d.val, by omega⟩) :=
  (prod_apply 58 6 (by omega) v1 (by decide) (by decide) (by decide) (by decide) g r d).trans (Scr_at v1 g r 6 d.val (by omega) (by omega) _ rfl).symm

/-- Row 7 of the triangle, columns 427 to 483: `v[g, r, 7] · v[g, r, 7 + d]`. -/
theorem scr_at_427 (v1 : FVec Ideal S64x32x64 .f32) (g : Fin 64) (r : Fin 32) (d : Fin 57) :
    k0_pay13 (F := Ideal) v1 (ix3 g r d) = Cert.Triu.Scr v1 (ix3 g r ⟨427 + d.val, by omega⟩) :=
  (prod_apply 57 7 (by omega) v1 (by decide) (by decide) (by decide) (by decide) g r d).trans (Scr_at v1 g r 7 d.val (by omega) (by omega) _ rfl).symm

/-- Row 8 of the triangle, columns 484 to 539: `v[g, r, 8] · v[g, r, 8 + d]`. -/
theorem scr_at_484 (v1 : FVec Ideal S64x32x64 .f32) (g : Fin 64) (r : Fin 32) (d : Fin 56) :
    k0_pay14 (F := Ideal) v1 (ix3 g r d) = Cert.Triu.Scr v1 (ix3 g r ⟨484 + d.val, by omega⟩) :=
  (prod_apply 56 8 (by omega) v1 (by decide) (by decide) (by decide) (by decide) g r d).trans (Scr_at v1 g r 8 d.val (by omega) (by omega) _ rfl).symm

/-- Row 9 of the triangle, columns 540 to 594: `v[g, r, 9] · v[g, r, 9 + d]`. -/
theorem scr_at_540 (v1 : FVec Ideal S64x32x64 .f32) (g : Fin 64) (r : Fin 32) (d : Fin 55) :
    k0_pay15 (F := Ideal) v1 (ix3 g r d) = Cert.Triu.Scr v1 (ix3 g r ⟨540 + d.val, by omega⟩) :=
  (prod_apply 55 9 (by omega) v1 (by decide) (by decide) (by decide) (by decide) g r d).trans (Scr_at v1 g r 9 d.val (by omega) (by omega) _ rfl).symm

/-- Row 10 of the triangle, columns 595 to 648: `v[g, r, 10] · v[g, r, 10 + d]`. -/
theorem scr_at_595 (v1 : FVec Ideal S64x32x64 .f32) (g : Fin 64) (r : Fin 32) (d : Fin 54) :
    k0_pay17 (F := Ideal) (k0_pay16 v1) (ix3 g r d) = Cert.Triu.Scr v1 (ix3 g r ⟨595 + d.val, by omega⟩) :=
  (prod_apply 54 10 (by omega) v1 (by decide) (by decide) (by decide) (by decide) g r d).trans (Scr_at v1 g r 10 d.val (by omega) (by omega) _ rfl).symm

/-- Row 11 of the triangle, columns 649 to 701: `v[g, r, 11] · v[g, r, 11 + d]`. -/
theorem scr_at_649 (v1 : FVec Ideal S64x32x64 .f32) (g : Fin 64) (r : Fin 32) (d : Fin 53) :
    k0_pay18 (F := Ideal) v1 (ix3 g r d) = Cert.Triu.Scr v1 (ix3 g r ⟨649 + d.val, by omega⟩) :=
  (prod_apply 53 11 (by omega) v1 (by decide) (by decide) (by decide) (by decide) g r d).trans (Scr_at v1 g r 11 d.val (by omega) (by omega) _ rfl).symm

/-- Row 12 of the triangle, columns 702 to 753: `v[g, r, 12] · v[g, r, 12 + d]`. -/
theorem scr_at_702 (v1 : FVec Ideal S64x32x64 .f32) (g : Fin 64) (r : Fin 32) (d : Fin 52) :
    k0_pay19 (F := Ideal) v1 (ix3 g r d) = Cert.Triu.Scr v1 (ix3 g r ⟨702 + d.val, by omega⟩) :=
  (prod_apply 52 12 (by omega) v1 (by decide) (by decide) (by decide) (by decide) g r d).trans (Scr_at v1 g r 12 d.val (by omega) (by omega) _ rfl).symm

/-- Row 13 of the triangle, columns 754 to 804: `v[g, r, 13] · v[g, r, 13 + d]`. -/
theorem scr_at_754 (v1 : FVec Ideal S64x32x64 .f32) (g : Fin 64) (r : Fin 32) (d : Fin 51) :
    k0_pay20 (F := Ideal) v1 (ix3 g r d) = Cert.Triu.Scr v1 (ix3 g r ⟨754 + d.val, by omega⟩) :=
  (prod_apply 51 13 (by omega) v1 (by decide) (by decide) (by decide) (by decide) g r d).trans (Scr_at v1 g r 13 d.val (by omega) (by omega) _ rfl).symm

/-- Row 14 of the triangle, columns 805 to 854: `v[g, r, 14] · v[g, r, 14 + d]`. -/
theorem scr_at_805 (v1 : FVec Ideal S64x32x64 .f32) (g : Fin 64) (r : Fin 32) (d : Fin 50) :
    k0_pay21 (F := Ideal) v1 (ix3 g r d) = Cert.Triu.Scr v1 (ix3 g r ⟨805 + d.val, by omega⟩) :=
  (prod_apply 50 14 (by omega) v1 (by decide) (by decide) (by decide) (by decide) g r d).trans (Scr_at v1 g r 14 d.val (by omega) (by omega) _ rfl).symm

/-- Row 15 of the triangle, columns 855 to 903: `v[g, r, 15] · v[g, r, 15 + d]`. -/
theorem scr_at_855 (v1 : FVec Ideal S64x32x64 .f32) (g : Fin 64) (r : Fin 32) (d : Fin 49) :
    k0_pay22 (F := Ideal) v1 (ix3 g r d) = Cert.Triu.Scr v1 (ix3 g r ⟨855 + d.val, by omega⟩) :=
  (prod_apply 49 15 (by omega) v1 (by decide) (by decide) (by decide) (by decide) g r d).trans (Scr_at v1 g r 15 d.val (by omega) (by omega) _ rfl).symm

/-- Row 16 of the triangle, columns 904 to 951: `v[g, r, 16] · v[g, r, 16 + d]`. -/
theorem scr_at_904 (v1 : FVec Ideal S64x32x64 .f32) (g : Fin 64) (r : Fin 32) (d : Fin 48) :
    k0_pay23 (F := Ideal) v1 (ix3 g r d) = Cert.Triu.Scr v1 (ix3 g r ⟨904 + d.val, by omega⟩) :=
  (prod_apply 48 16 (by omega) v1 (by decide) (by decide) (by decide) (by decide) g r d).trans (Scr_at v1 g r 16 d.val (by omega) (by omega) _ rfl).symm

/-- Row 17 of the triangle, columns 952 to 998: `v[g, r, 17] · v[g, r, 17 + d]`. -/
theorem scr_at_952 (v1 : FVec Ideal S64x32x64 .f32) (g : Fin 64) (r : Fin 32) (d : Fin 47) :
    k0_pay24 (F := Ideal) v1 (ix3 g r d) = Cert.Triu.Scr v1 (ix3 g r ⟨952 + d.val, by omega⟩) :=
  (prod_apply 47 17 (by omega) v1 (by decide) (by decide) (by decide) (by decide) g r d).trans (Scr_at v1 g r 17 d.val (by omega) (by omega) _ rfl).symm

/-- Row 18 of the triangle, columns 999 to 1044: `v[g, r, 18] · v[g, r, 18 + d]`. -/
theorem scr_at_999 (v1 : FVec Ideal S64x32x64 .f32) (g : Fin 64) (r : Fin 32) (d : Fin 46) :
    k0_pay25 (F := Ideal) v1 (ix3 g r d) = Cert.Triu.Scr v1 (ix3 g r ⟨999 + d.val, by omega⟩) :=
  (prod_apply 46 18 (by omega) v1 (by decide) (by decide) (by decide) (by decide) g r d).trans (Scr_at v1 g r 18 d.val (by omega) (by omega) _ rfl).symm

/-- Row 19 of the triangle, columns 1045 to 1089: `v[g, r, 19] · v[g, r, 19 + d]`. -/
theorem scr_at_1045 (v1 : FVec Ideal S64x32x64 .f32) (g : Fin 64) (r : Fin 32) (d : Fin 45) :
    k0_pay26 (F := Ideal) v1 (ix3 g r d) = Cert.Triu.Scr v1 (ix3 g r ⟨1045 + d.val, by omega⟩) :=
  (prod_apply 45 19 (by omega) v1 (by decide) (by decide) (by decide) (by decide) g r d).trans (Scr_at v1 g r 19 d.val (by omega) (by omega) _ rfl).symm

/-- Row 20 of the triangle, columns 1090 to 1133: `v[g, r, 20] · v[g, r, 20 + d]`. -/
theorem scr_at_1090 (v1 : FVec Ideal S64x32x64 .f32) (g : Fin 64) (r : Fin 32) (d : Fin 44) :
    k0_pay27 (F := Ideal) v1 (ix3 g r d) = Cert.Triu.Scr v1 (ix3 g r ⟨1090 + d.val, by omega⟩) :=
  (prod_apply 44 20 (by omega) v1 (by decide) (by decide) (by decide) (by decide) g r d).trans (Scr_at v1 g r 20 d.val (by omega) (by omega) _ rfl).symm

/-- Row 21 of the triangle, columns 1134 to 1176: `v[g, r, 21] · v[g, r, 21 + d]`. -/
theorem scr_at_1134 (v1 : FVec Ideal S64x32x64 .f32) (g : Fin 64) (r : Fin 32) (d : Fin 43) :
    k0_pay29 (F := Ideal) (k0_pay28 v1) (ix3 g r d) = Cert.Triu.Scr v1 (ix3 g r ⟨1134 + d.val, by omega⟩) :=
  (prod_apply 43 21 (by omega) v1 (by decide) (by decide) (by decide) (by decide) g r d).trans (Scr_at v1 g r 21 d.val (by omega) (by omega) _ rfl).symm

/-- Row 22 of the triangle, columns 1177 to 1218: `v[g, r, 22] · v[g, r, 22 + d]`. -/
theorem scr_at_1177 (v1 : FVec Ideal S64x32x64 .f32) (g : Fin 64) (r : Fin 32) (d : Fin 42) :
    k0_pay30 (F := Ideal) v1 (ix3 g r d) = Cert.Triu.Scr v1 (ix3 g r ⟨1177 + d.val, by omega⟩) :=
  (prod_apply 42 22 (by omega) v1 (by decide) (by decide) (by decide) (by decide) g r d).trans (Scr_at v1 g r 22 d.val (by omega) (by omega) _ rfl).symm

/-- Row 23 of the triangle, columns 1219 to 1259: `v[g, r, 23] · v[g, r, 23 + d]`. -/
theorem scr_at_1219 (v1 : FVec Ideal S64x32x64 .f32) (g : Fin 64) (r : Fin 32) (d : Fin 41) :
    k0_pay31 (F := Ideal) v1 (ix3 g r d) = Cert.Triu.Scr v1 (ix3 g r ⟨1219 + d.val, by omega⟩) :=
  (prod_apply 41 23 (by omega) v1 (by decide) (by decide) (by decide) (by decide) g r d).trans (Scr_at v1 g r 23 d.val (by omega) (by omega) _ rfl).symm

/-- Row 24 of the triangle, columns 1260 to 1299: `v[g, r, 24] · v[g, r, 24 + d]`. -/
theorem scr_at_1260 (v1 : FVec Ideal S64x32x64 .f32) (g : Fin 64) (r : Fin 32) (d : Fin 40) :
    k0_pay32 (F := Ideal) v1 (ix3 g r d) = Cert.Triu.Scr v1 (ix3 g r ⟨1260 + d.val, by omega⟩) :=
  (prod_apply 40 24 (by omega) v1 (by decide) (by decide) (by decide) (by decide) g r d).trans (Scr_at v1 g r 24 d.val (by omega) (by omega) _ rfl).symm

/-- Row 25 of the triangle, columns 1300 to 1338: `v[g, r, 25] · v[g, r, 25 + d]`. -/
theorem scr_at_1300 (v1 : FVec Ideal S64x32x64 .f32) (g : Fin 64) (r : Fin 32) (d : Fin 39) :
    k0_pay33 (F := Ideal) v1 (ix3 g r d) = Cert.Triu.Scr v1 (ix3 g r ⟨1300 + d.val, by omega⟩) :=
  (prod_apply 39 25 (by omega) v1 (by decide) (by decide) (by decide) (by decide) g r d).trans (Scr_at v1 g r 25 d.val (by omega) (by omega) _ rfl).symm

/-- Row 26 of the triangle, columns 1339 to 1376: `v[g, r, 26] · v[g, r, 26 + d]`. -/
theorem scr_at_1339 (v1 : FVec Ideal S64x32x64 .f32) (g : Fin 64) (r : Fin 32) (d : Fin 38) :
    k0_pay35 (F := Ideal) (k0_pay34 v1) (ix3 g r d) = Cert.Triu.Scr v1 (ix3 g r ⟨1339 + d.val, by omega⟩) :=
  (prod_apply 38 26 (by omega) v1 (by decide) (by decide) (by decide) (by decide) g r d).trans (Scr_at v1 g r 26 d.val (by omega) (by omega) _ rfl).symm

/-- Row 27 of the triangle, columns 1377 to 1413: `v[g, r, 27] · v[g, r, 27 + d]`. -/
theorem scr_at_1377 (v1 : FVec Ideal S64x32x64 .f32) (g : Fin 64) (r : Fin 32) (d : Fin 37) :
    k0_pay36 (F := Ideal) v1 (ix3 g r d) = Cert.Triu.Scr v1 (ix3 g r ⟨1377 + d.val, by omega⟩) :=
  (prod_apply 37 27 (by omega) v1 (by decide) (by decide) (by decide) (by decide) g r d).trans (Scr_at v1 g r 27 d.val (by omega) (by omega) _ rfl).symm

/-- Row 28 of the triangle, columns 1414 to 1449: `v[g, r, 28] · v[g, r, 28 + d]`. -/
theorem scr_at_1414 (v1 : FVec Ideal S64x32x64 .f32) (g : Fin 64) (r : Fin 32) (d : Fin 36) :
    k0_pay37 (F := Ideal) v1 (ix3 g r d) = Cert.Triu.Scr v1 (ix3 g r ⟨1414 + d.val, by omega⟩) :=
  (prod_apply 36 28 (by omega) v1 (by decide) (by decide) (by decide) (by decide) g r d).trans (Scr_at v1 g r 28 d.val (by omega) (by omega) _ rfl).symm

/-- Row 29 of the triangle, columns 1450 to 1484: `v[g, r, 29] · v[g, r, 29 + d]`. -/
theorem scr_at_1450 (v1 : FVec Ideal S64x32x64 .f32) (g : Fin 64) (r : Fin 32) (d : Fin 35) :
    k0_pay38 (F := Ideal) v1 (ix3 g r d) = Cert.Triu.Scr v1 (ix3 g r ⟨1450 + d.val, by omega⟩) :=
  (prod_apply 35 29 (by omega) v1 (by decide) (by decide) (by decide) (by decide) g r d).trans (Scr_at v1 g r 29 d.val (by omega) (by omega) _ rfl).symm

/-- Row 30 of the triangle, columns 1485 to 1518: `v[g, r, 30] · v[g, r, 30 + d]`. -/
theorem scr_at_1485 (v1 : FVec Ideal S64x32x64 .f32) (g : Fin 64) (r : Fin 32) (d : Fin 34) :
    k0_pay39 (F := Ideal) v1 (ix3 g r d) = Cert.Triu.Scr v1 (ix3 g r ⟨1485 + d.val, by omega⟩) :=
  (prod_apply 34 30 (by omega) v1 (by decide) (by decide) (by decide) (by decide) g r d).trans (Scr_at v1 g r 30 d.val (by omega) (by omega) _ rfl).symm

/-- Row 31 of the triangle, columns 1519 to 1551: `v[g, r, 31] · v[g, r, 31 + d]`. -/
theorem scr_at_1519 (v1 : FVec Ideal S64x32x64 .f32) (g : Fin 64) (r : Fin 32) (d : Fin 33) :
    k0_pay40 (F := Ideal) v1 (ix3 g r d) = Cert.Triu.Scr v1 (ix3 g r ⟨1519 + d.val, by omega⟩) :=
  (prod_apply 33 31 (by omega) v1 (by decide) (by decide) (by decide) (by decide) g r d).trans (Scr_at v1 g r 31 d.val (by omega) (by omega) _ rfl).symm

/-- Row 32 of the triangle, columns 1552 to 1583: `v[g, r, 32] · v[g, r, 32 + d]`. -/
theorem scr_at_1552 (v1 : FVec Ideal S64x32x64 .f32) (g : Fin 64) (r : Fin 32) (d : Fin 32) :
    k0_pay43 (F := Ideal) (k0_pay41 v1) (k0_pay42 v1) (ix3 g r d) = Cert.Triu.Scr v1 (ix3 g r ⟨1552 + d.val, by omega⟩) :=
  (prod_apply 32 32 (by omega) v1 (by decide) (by decide) (by decide) (by decide) g r d).trans (Scr_at v1 g r 32 d.val (by omega) (by omega) _ rfl).symm

/-- Row 33 of the triangle, columns 1584 to 1614: `v[g, r, 33] · v[g, r, 33 + d]`. -/
theorem scr_at_1584 (v1 : FVec Ideal S64x32x64 .f32) (g : Fin 64) (r : Fin 32) (d : Fin 31) :
    k0_pay44 (F := Ideal) v1 (ix3 g r d) = Cert.Triu.Scr v1 (ix3 g r ⟨1584 + d.val, by omega⟩) :=
  (prod_apply 31 33 (by omega) v1 (by decide) (by decide) (by decide) (by decide) g r d).trans (Scr_at v1 g r 33 d.val (by omega) (by omega) _ rfl).symm

/-- Row 34 of the triangle, columns 1615 to 1644: `v[g, r, 34] · v[g, r, 34 + d]`. -/
theorem scr_at_1615 (v1 : FVec Ideal S64x32x64 .f32) (g : Fin 64) (r : Fin 32) (d : Fin 30) :
    k0_pay45 (F := Ideal) v1 (ix3 g r d) = Cert.Triu.Scr v1 (ix3 g r ⟨1615 + d.val, by omega⟩) :=
  (prod_apply 30 34 (by omega) v1 (by decide) (by decide) (by decide) (by decide) g r d).trans (Scr_at v1 g r 34 d.val (by omega) (by omega) _ rfl).symm

/-- Row 35 of the triangle, columns 1645 to 1673: `v[g, r, 35] · v[g, r, 35 + d]`. -/
theorem scr_at_1645 (v1 : FVec Ideal S64x32x64 .f32) (g : Fin 64) (r : Fin 32) (d : Fin 29) :
    k0_pay46 (F := Ideal) v1 (ix3 g r d) = Cert.Triu.Scr v1 (ix3 g r ⟨1645 + d.val, by omega⟩) :=
  (prod_apply 29 35 (by omega) v1 (by decide) (by decide) (by decide) (by decide) g r d).trans (Scr_at v1 g r 35 d.val (by omega) (by omega) _ rfl).symm

/-- Row 36 of the triangle, columns 1674 to 1701: `v[g, r, 36] · v[g, r, 36 + d]`. -/
theorem scr_at_1674 (v1 : FVec Ideal S64x32x64 .f32) (g : Fin 64) (r : Fin 32) (d : Fin 28) :
    k0_pay47 (F := Ideal) v1 (ix3 g r d) = Cert.Triu.Scr v1 (ix3 g r ⟨1674 + d.val, by omega⟩) :=
  (prod_apply 28 36 (by omega) v1 (by decide) (by decide) (by decide) (by decide) g r d).trans (Scr_at v1 g r 36 d.val (by omega) (by omega) _ rfl).symm

/-- Row 37 of the triangle, columns 1702 to 1728: `v[g, r, 37] · v[g, r, 37 + d]`. -/
theorem scr_at_1702 (v1 : FVec Ideal S64x32x64 .f32) (g : Fin 64) (r : Fin 32) (d : Fin 27) :
    k0_pay49 (F := Ideal) (k0_pay48 v1) (ix3 g r d) = Cert.Triu.Scr v1 (ix3 g r ⟨1702 + d.val, by omega⟩) :=
  (prod_apply 27 37 (by omega) v1 (by decide) (by decide) (by decide) (by decide) g r d).trans (Scr_at v1 g r 37 d.val (by omega) (by omega) _ rfl).symm

/-- Row 38 of the triangle, columns 1729 to 1754: `v[g, r, 38] · v[g, r, 38 + d]`. -/
theorem scr_at_1729 (v1 : FVec Ideal S64x32x64 .f32) (g : Fin 64) (r : Fin 32) (d : Fin 26) :
    k0_pay50 (F := Ideal) v1 (ix3 g r d) = Cert.Triu.Scr v1 (ix3 g r ⟨1729 + d.val, by omega⟩) :=
  (prod_apply 26 38 (by omega) v1 (by decide) (by decide) (by decide) (by decide) g r d).trans (Scr_at v1 g r 38 d.val (by omega) (by omega) _ rfl).symm

/-- Row 39 of the triangle, columns 1755 to 1779: `v[g, r, 39] · v[g, r, 39 + d]`. -/
theorem scr_at_1755 (v1 : FVec Ideal S64x32x64 .f32) (g : Fin 64) (r : Fin 32) (d : Fin 25) :
    k0_pay51 (F := Ideal) v1 (ix3 g r d) = Cert.Triu.Scr v1 (ix3 g r ⟨1755 + d.val, by omega⟩) :=
  (prod_apply 25 39 (by omega) v1 (by decide) (by decide) (by decide) (by decide) g r d).trans (Scr_at v1 g r 39 d.val (by omega) (by omega) _ rfl).symm

/-- Row 40 of the triangle, columns 1780 to 1803: `v[g, r, 40] · v[g, r, 40 + d]`. -/
theorem scr_at_1780 (v1 : FVec Ideal S64x32x64 .f32) (g : Fin 64) (r : Fin 32) (d : Fin 24) :
    k0_pay52 (F := Ideal) v1 (ix3 g r d) = Cert.Triu.Scr v1 (ix3 g r ⟨1780 + d.val, by omega⟩) :=
  (prod_apply 24 40 (by omega) v1 (by decide) (by decide) (by decide) (by decide) g r d).trans (Scr_at v1 g r 40 d.val (by omega) (by omega) _ rfl).symm

/-- Row 41 of the triangle, columns 1804 to 1826: `v[g, r, 41] · v[g, r, 41 + d]`. -/
theorem scr_at_1804 (v1 : FVec Ideal S64x32x64 .f32) (g : Fin 64) (r : Fin 32) (d : Fin 23) :
    k0_pay53 (F := Ideal) v1 (ix3 g r d) = Cert.Triu.Scr v1 (ix3 g r ⟨1804 + d.val, by omega⟩) :=
  (prod_apply 23 41 (by omega) v1 (by decide) (by decide) (by decide) (by decide) g r d).trans (Scr_at v1 g r 41 d.val (by omega) (by omega) _ rfl).symm

/-- Row 42 of the triangle, columns 1827 to 1848: `v[g, r, 42] · v[g, r, 42 + d]`. -/
theorem scr_at_1827 (v1 : FVec Ideal S64x32x64 .f32) (g : Fin 64) (r : Fin 32) (d : Fin 22) :
    k0_pay54 (F := Ideal) v1 (ix3 g r d) = Cert.Triu.Scr v1 (ix3 g r ⟨1827 + d.val, by omega⟩) :=
  (prod_apply 22 42 (by omega) v1 (by decide) (by decide) (by decide) (by decide) g r d).trans (Scr_at v1 g r 42 d.val (by omega) (by omega) _ rfl).symm

/-- Row 43 of the triangle, columns 1849 to 1869: `v[g, r, 43] · v[g, r, 43 + d]`. -/
theorem scr_at_1849 (v1 : FVec Ideal S64x32x64 .f32) (g : Fin 64) (r : Fin 32) (d : Fin 21) :
    k0_pay57 (F := Ideal) (k0_pay55 v1) (k0_pay56 v1) (ix3 g r d) = Cert.Triu.Scr v1 (ix3 g r ⟨1849 + d.val, by omega⟩) :=
  (prod_apply 21 43 (by omega) v1 (by decide) (by decide) (by decide) (by decide) g r d).trans (Scr_at v1 g r 43 d.val (by omega) (by omega) _ rfl).symm

/-- Row 44 of the triangle, columns 1870 to 1889: `v[g, r, 44] · v[g, r, 44 + d]`. -/
theorem scr_at_1870 (v1 : FVec Ideal S64x32x64 .f32) (g : Fin 64) (r : Fin 32) (d : Fin 20) :
    k0_pay58 (F := Ideal) v1 (ix3 g r d) = Cert.Triu.Scr v1 (ix3 g r ⟨1870 + d.val, by omega⟩) :=
  (prod_apply 20 44 (by omega) v1 (by decide) (by decide) (by decide) (by decide) g r d).trans (Scr_at v1 g r 44 d.val (by omega) (by omega) _ rfl).symm

/-- Row 45 of the triangle, columns 1890 to 1908: `v[g, r, 45] · v[g, r, 45 + d]`. -/
theorem scr_at_1890 (v1 : FVec Ideal S64x32x64 .f32) (g : Fin 64) (r : Fin 32) (d : Fin 19) :
    k0_pay59 (F := Ideal) v1 (ix3 g r d) = Cert.Triu.Scr v1 (ix3 g r ⟨1890 + d.val, by omega⟩) :=
  (prod_apply 19 45 (by omega) v1 (by decide) (by decide) (by decide) (by decide) g r d).trans (Scr_at v1 g r 45 d.val (by omega) (by omega) _ rfl).symm

/-- Row 46 of the triangle, columns 1909 to 1926: `v[g, r, 46] · v[g, r, 46 + d]`. -/
theorem scr_at_1909 (v1 : FVec Ideal S64x32x64 .f32) (g : Fin 64) (r : Fin 32) (d : Fin 18) :
    k0_pay60 (F := Ideal) v1 (ix3 g r d) = Cert.Triu.Scr v1 (ix3 g r ⟨1909 + d.val, by omega⟩) :=
  (prod_apply 18 46 (by omega) v1 (by decide) (by decide) (by decide) (by decide) g r d).trans (Scr_at v1 g r 46 d.val (by omega) (by omega) _ rfl).symm

/-- Row 47 of the triangle, columns 1927 to 1943: `v[g, r, 47] · v[g, r, 47 + d]`. -/
theorem scr_at_1927 (v1 : FVec Ideal S64x32x64 .f32) (g : Fin 64) (r : Fin 32) (d : Fin 17) :
    k0_pay61 (F := Ideal) v1 (ix3 g r d) = Cert.Triu.Scr v1 (ix3 g r ⟨1927 + d.val, by omega⟩) :=
  (prod_apply 17 47 (by omega) v1 (by decide) (by decide) (by decide) (by decide) g r d).trans (Scr_at v1 g r 47 d.val (by omega) (by omega) _ rfl).symm

/-- Row 48 of the triangle, columns 1944 to 1959: `v[g, r, 48] · v[g, r, 48 + d]`. -/
theorem scr_at_1944 (v1 : FVec Ideal S64x32x64 .f32) (g : Fin 64) (r : Fin 32) (d : Fin 16) :
    k0_pay63 (F := Ideal) (k0_pay62 v1) (ix3 g r d) = Cert.Triu.Scr v1 (ix3 g r ⟨1944 + d.val, by omega⟩) :=
  (prod_apply 16 48 (by omega) v1 (by decide) (by decide) (by decide) (by decide) g r d).trans (Scr_at v1 g r 48 d.val (by omega) (by omega) _ rfl).symm

/-- Row 49 of the triangle, columns 1960 to 1974: `v[g, r, 49] · v[g, r, 49 + d]`. -/
theorem scr_at_1960 (v1 : FVec Ideal S64x32x64 .f32) (g : Fin 64) (r : Fin 32) (d : Fin 15) :
    k0_pay64 (F := Ideal) v1 (ix3 g r d) = Cert.Triu.Scr v1 (ix3 g r ⟨1960 + d.val, by omega⟩) :=
  (prod_apply 15 49 (by omega) v1 (by decide) (by decide) (by decide) (by decide) g r d).trans (Scr_at v1 g r 49 d.val (by omega) (by omega) _ rfl).symm

/-- Row 50 of the triangle, columns 1975 to 1988: `v[g, r, 50] · v[g, r, 50 + d]`. -/
theorem scr_at_1975 (v1 : FVec Ideal S64x32x64 .f32) (g : Fin 64) (r : Fin 32) (d : Fin 14) :
    k0_pay65 (F := Ideal) v1 (ix3 g r d) = Cert.Triu.Scr v1 (ix3 g r ⟨1975 + d.val, by omega⟩) :=
  (prod_apply 14 50 (by omega) v1 (by decide) (by decide) (by decide) (by decide) g r d).trans (Scr_at v1 g r 50 d.val (by omega) (by omega) _ rfl).symm

/-- Row 51 of the triangle, columns 1989 to 2001: `v[g, r, 51] · v[g, r, 51 + d]`. -/
theorem scr_at_1989 (v1 : FVec Ideal S64x32x64 .f32) (g : Fin 64) (r : Fin 32) (d : Fin 13) :
    k0_pay66 (F := Ideal) v1 (ix3 g r d) = Cert.Triu.Scr v1 (ix3 g r ⟨1989 + d.val, by omega⟩) :=
  (prod_apply 13 51 (by omega) v1 (by decide) (by decide) (by decide) (by decide) g r d).trans (Scr_at v1 g r 51 d.val (by omega) (by omega) _ rfl).symm

/-- Row 52 of the triangle, columns 2002 to 2013: `v[g, r, 52] · v[g, r, 52 + d]`. -/
theorem scr_at_2002 (v1 : FVec Ideal S64x32x64 .f32) (g : Fin 64) (r : Fin 32) (d : Fin 12) :
    k0_pay67 (F := Ideal) v1 (ix3 g r d) = Cert.Triu.Scr v1 (ix3 g r ⟨2002 + d.val, by omega⟩) :=
  (prod_apply 12 52 (by omega) v1 (by decide) (by decide) (by decide) (by decide) g r d).trans (Scr_at v1 g r 52 d.val (by omega) (by omega) _ rfl).symm

/-- Row 53 of the triangle, columns 2014 to 2024: `v[g, r, 53] · v[g, r, 53 + d]`. -/
theorem scr_at_2014 (v1 : FVec Ideal S64x32x64 .f32) (g : Fin 64) (r : Fin 32) (d : Fin 11) :
    k0_pay68 (F := Ideal) v1 (ix3 g r d) = Cert.Triu.Scr v1 (ix3 g r ⟨2014 + d.val, by omega⟩) :=
  (prod_apply 11 53 (by omega) v1 (by decide) (by decide) (by decide) (by decide) g r d).trans (Scr_at v1 g r 53 d.val (by omega) (by omega) _ rfl).symm

/-- Row 54 of the triangle, columns 2025 to 2034: `v[g, r, 54] · v[g, r, 54 + d]`. -/
theorem scr_at_2025 (v1 : FVec Ideal S64x32x64 .f32) (g : Fin 64) (r : Fin 32) (d : Fin 10) :
    k0_pay70 (F := Ideal) v1 (k0_pay69 v1) (ix3 g r d) = Cert.Triu.Scr v1 (ix3 g r ⟨2025 + d.val, by omega⟩) :=
  (prod_apply 10 54 (by omega) v1 (by decide) (by decide) (by decide) (by decide) g r d).trans (Scr_at v1 g r 54 d.val (by omega) (by omega) _ rfl).symm

/-- Row 55 of the triangle, columns 2035 to 2043: `v[g, r, 55] · v[g, r, 55 + d]`. -/
theorem scr_at_2035 (v1 : FVec Ideal S64x32x64 .f32) (g : Fin 64) (r : Fin 32) (d : Fin 9) :
    k0_pay71 (F := Ideal) v1 (ix3 g r d) = Cert.Triu.Scr v1 (ix3 g r ⟨2035 + d.val, by omega⟩) :=
  (prod_apply 9 55 (by omega) v1 (by decide) (by decide) (by decide) (by decide) g r d).trans (Scr_at v1 g r 55 d.val (by omega) (by omega) _ rfl).symm

/-- Row 56 of the triangle, columns 2044 to 2051: `v[g, r, 56] · v[g, r, 56 + d]`. -/
theorem scr_at_2044 (v1 : FVec Ideal S64x32x64 .f32) (g : Fin 64) (r : Fin 32) (d : Fin 8) :
    k0_pay72 (F := Ideal) v1 (ix3 g r d) = Cert.Triu.Scr v1 (ix3 g r ⟨2044 + d.val, by omega⟩) :=
  (prod_apply 8 56 (by omega) v1 (by decide) (by decide) (by decide) (by decide) g r d).trans (Scr_at v1 g r 56 d.val (by omega) (by omega) _ rfl).symm

/-- Row 57 of the triangle, columns 2052 to 2058: `v[g, r, 57] · v[g, r, 57 + d]`. -/
theorem scr_at_2052 (v1 : FVec Ideal S64x32x64 .f32) (g : Fin 64) (r : Fin 32) (d : Fin 7) :
    k0_pay73 (F := Ideal) v1 (ix3 g r d) = Cert.Triu.Scr v1 (ix3 g r ⟨2052 + d.val, by omega⟩) :=
  (prod_apply 7 57 (by omega) v1 (by decide) (by decide) (by decide) (by decide) g r d).trans (Scr_at v1 g r 57 d.val (by omega) (by omega) _ rfl).symm

/-- Row 58 of the triangle, columns 2059 to 2064: `v[g, r, 58] · v[g, r, 58 + d]`. -/
theorem scr_at_2059 (v1 : FVec Ideal S64x32x64 .f32) (g : Fin 64) (r : Fin 32) (d : Fin 6) :
    k0_pay74 (F := Ideal) v1 (ix3 g r d) = Cert.Triu.Scr v1 (ix3 g r ⟨2059 + d.val, by omega⟩) :=
  (prod_apply 6 58 (by omega) v1 (by decide) (by decide) (by decide) (by decide) g r d).trans (Scr_at v1 g r 58 d.val (by omega) (by omega) _ rfl).symm

/-- Row 59 of the triangle, columns 2065 to 2069: `v[g, r, 59] · v[g, r, 59 + d]`. -/
theorem scr_at_2065 (v1 : FVec Ideal S64x32x64 .f32) (g : Fin 64) (r : Fin 32) (d : Fin 5) :
    k0_pay76 (F := Ideal) (k0_pay75 v1) (ix3 g r d) = Cert.Triu.Scr v1 (ix3 g r ⟨2065 + d.val, by omega⟩) :=
  (prod_apply 5 59 (by omega) v1 (by decide) (by decide) (by decide) (by decide) g r d).trans (Scr_at v1 g r 59 d.val (by omega) (by omega) _ rfl).symm

/-- Row 60 of the triangle, columns 2070 to 2073: `v[g, r, 60] · v[g, r, 60 + d]`. -/
theorem scr_at_2070 (v1 : FVec Ideal S64x32x64 .f32) (g : Fin 64) (r : Fin 32) (d : Fin 4) :
    k0_pay77 (F := Ideal) v1 (ix3 g r d) = Cert.Triu.Scr v1 (ix3 g r ⟨2070 + d.val, by omega⟩) :=
  (prod_apply 4 60 (by omega) v1 (by decide) (by decide) (by decide) (by decide) g r d).trans (Scr_at v1 g r 60 d.val (by omega) (by omega) _ rfl).symm

/-- Row 61 of the triangle, columns 2074 to 2076: `v[g, r, 61] · v[g, r, 61 + d]`. -/
theorem scr_at_2074 (v1 : FVec Ideal S64x32x64 .f32) (g : Fin 64) (r : Fin 32) (d : Fin 3) :
    k0_pay78 (F := Ideal) v1 (ix3 g r d) = Cert.Triu.Scr v1 (ix3 g r ⟨2074 + d.val, by omega⟩) :=
  (prod_apply 3 61 (by omega) v1 (by decide) (by decide) (by decide) (by decide) g r d).trans (Scr_at v1 g r 61 d.val (by omega) (by omega) _ rfl).symm

/-- Row 62 of the triangle, columns 2077 to 2078: `v[g, r, 62] · v[g, r, 62 + d]`. -/
theorem scr_at_2077 (v1 : FVec Ideal S64x32x64 .f32) (g : Fin 64) (r : Fin 32) (d : Fin 2) :
    k0_pay79 (F := Ideal) v1 (ix3 g r d) = Cert.Triu.Scr v1 (ix3 g r ⟨2077 + d.val, by omega⟩) :=
  (prod_apply 2 62 (by omega) v1 (by decide) (by decide) (by decide) (by decide) g r d).trans (Scr_at v1 g r 62 d.val (by omega) (by omega) _ rfl).symm

/-- Row 63 of the triangle, columns 2079 to 2079: `v[g, r, 63] · v[g, r, 63 + d]`. -/
theorem scr_at_2079 (v1 : FVec Ideal S64x32x64 .f32) (g : Fin 64) (r : Fin 32) (d : Fin 1) :
    k0_pay80 (F := Ideal) v1 (ix3 g r d) = Cert.Triu.Scr v1 (ix3 g r ⟨2079 + d.val, by omega⟩) :=
  (prod_apply_last v1 (by decide) (by decide) g r d).trans (Scr_at v1 g r 63 d.val (by omega) (by omega) _ rfl).symm

/-! ## The 32 copies of a scratch row into the output block

Each is the cast of a `[64, 1, 2080]` row to `[64, 2080]`. -/

theorem copy_eq_1 (v : Vec Ideal S64x1x2080 .f32) (g : Fin 64) (k : Fin 2080) :
    k0_pay1 (F := Ideal) v (ix2 g k) = v (ix3 g 0 k) := cast_row_apply v (by decide) g k

theorem copy_eq_2 (v : Vec Ideal S64x1x2080 .f32) (g : Fin 64) (k : Fin 2080) :
    k0_pay2 (F := Ideal) v (ix2 g k) = v (ix3 g 0 k) := cast_row_apply v (by decide) g k

theorem copy_eq_3 (v : Vec Ideal S64x1x2080 .f32) (g : Fin 64) (k : Fin 2080) :
    k0_pay3 (F := Ideal) v (ix2 g k) = v (ix3 g 0 k) := cast_row_apply v (by decide) g k

theorem copy_eq_4 (v : Vec Ideal S64x1x2080 .f32) (g : Fin 64) (k : Fin 2080) :
    k0_pay4 (F := Ideal) v (ix2 g k) = v (ix3 g 0 k) := cast_row_apply v (by decide) g k

theorem copy_eq_81 (v : Vec Ideal S64x1x2080 .f32) (g : Fin 64) (k : Fin 2080) :
    k0_pay81 (F := Ideal) v (ix2 g k) = v (ix3 g 0 k) := cast_row_apply v (by decide) g k

theorem copy_eq_82 (v : Vec Ideal S64x1x2080 .f32) (g : Fin 64) (k : Fin 2080) :
    k0_pay82 (F := Ideal) v (ix2 g k) = v (ix3 g 0 k) := cast_row_apply v (by decide) g k

theorem copy_eq_83 (v : Vec Ideal S64x1x2080 .f32) (g : Fin 64) (k : Fin 2080) :
    k0_pay83 (F := Ideal) v (ix2 g k) = v (ix3 g 0 k) := cast_row_apply v (by decide) g k

theorem copy_eq_84 (v : Vec Ideal S64x1x2080 .f32) (g : Fin 64) (k : Fin 2080) :
    k0_pay84 (F := Ideal) v (ix2 g k) = v (ix3 g 0 k) := cast_row_apply v (by decide) g k

theorem copy_eq_85 (v : Vec Ideal S64x1x2080 .f32) (g : Fin 64) (k : Fin 2080) :
    k0_pay85 (F := Ideal) v (ix2 g k) = v (ix3 g 0 k) := cast_row_apply v (by decide) g k

theorem copy_eq_86 (v : Vec Ideal S64x1x2080 .f32) (g : Fin 64) (k : Fin 2080) :
    k0_pay86 (F := Ideal) v (ix2 g k) = v (ix3 g 0 k) := cast_row_apply v (by decide) g k

theorem copy_eq_87 (v : Vec Ideal S64x1x2080 .f32) (g : Fin 64) (k : Fin 2080) :
    k0_pay87 (F := Ideal) v (ix2 g k) = v (ix3 g 0 k) := cast_row_apply v (by decide) g k

theorem copy_eq_88 (v : Vec Ideal S64x1x2080 .f32) (g : Fin 64) (k : Fin 2080) :
    k0_pay88 (F := Ideal) v (ix2 g k) = v (ix3 g 0 k) := cast_row_apply v (by decide) g k

theorem copy_eq_89 (v : Vec Ideal S64x1x2080 .f32) (g : Fin 64) (k : Fin 2080) :
    k0_pay89 (F := Ideal) v (ix2 g k) = v (ix3 g 0 k) := cast_row_apply v (by decide) g k

theorem copy_eq_90 (v : Vec Ideal S64x1x2080 .f32) (g : Fin 64) (k : Fin 2080) :
    k0_pay90 (F := Ideal) v (ix2 g k) = v (ix3 g 0 k) := cast_row_apply v (by decide) g k

theorem copy_eq_91 (v : Vec Ideal S64x1x2080 .f32) (g : Fin 64) (k : Fin 2080) :
    k0_pay91 (F := Ideal) v (ix2 g k) = v (ix3 g 0 k) := cast_row_apply v (by decide) g k

theorem copy_eq_92 (v : Vec Ideal S64x1x2080 .f32) (g : Fin 64) (k : Fin 2080) :
    k0_pay92 (F := Ideal) v (ix2 g k) = v (ix3 g 0 k) := cast_row_apply v (by decide) g k

theorem copy_eq_93 (v : Vec Ideal S64x1x2080 .f32) (g : Fin 64) (k : Fin 2080) :
    k0_pay93 (F := Ideal) v (ix2 g k) = v (ix3 g 0 k) := cast_row_apply v (by decide) g k

theorem copy_eq_94 (v : Vec Ideal S64x1x2080 .f32) (g : Fin 64) (k : Fin 2080) :
    k0_pay94 (F := Ideal) v (ix2 g k) = v (ix3 g 0 k) := cast_row_apply v (by decide) g k

theorem copy_eq_95 (v : Vec Ideal S64x1x2080 .f32) (g : Fin 64) (k : Fin 2080) :
    k0_pay95 (F := Ideal) v (ix2 g k) = v (ix3 g 0 k) := cast_row_apply v (by decide) g k

theorem copy_eq_96 (v : Vec Ideal S64x1x2080 .f32) (g : Fin 64) (k : Fin 2080) :
    k0_pay96 (F := Ideal) v (ix2 g k) = v (ix3 g 0 k) := cast_row_apply v (by decide) g k

theorem copy_eq_97 (v : Vec Ideal S64x1x2080 .f32) (g : Fin 64) (k : Fin 2080) :
    k0_pay97 (F := Ideal) v (ix2 g k) = v (ix3 g 0 k) := cast_row_apply v (by decide) g k

theorem copy_eq_98 (v : Vec Ideal S64x1x2080 .f32) (g : Fin 64) (k : Fin 2080) :
    k0_pay98 (F := Ideal) v (ix2 g k) = v (ix3 g 0 k) := cast_row_apply v (by decide) g k

theorem copy_eq_99 (v : Vec Ideal S64x1x2080 .f32) (g : Fin 64) (k : Fin 2080) :
    k0_pay99 (F := Ideal) v (ix2 g k) = v (ix3 g 0 k) := cast_row_apply v (by decide) g k

theorem copy_eq_100 (v : Vec Ideal S64x1x2080 .f32) (g : Fin 64) (k : Fin 2080) :
    k0_pay100 (F := Ideal) v (ix2 g k) = v (ix3 g 0 k) := cast_row_apply v (by decide) g k

theorem copy_eq_101 (v : Vec Ideal S64x1x2080 .f32) (g : Fin 64) (k : Fin 2080) :
    k0_pay101 (F := Ideal) v (ix2 g k) = v (ix3 g 0 k) := cast_row_apply v (by decide) g k

theorem copy_eq_102 (v : Vec Ideal S64x1x2080 .f32) (g : Fin 64) (k : Fin 2080) :
    k0_pay102 (F := Ideal) v (ix2 g k) = v (ix3 g 0 k) := cast_row_apply v (by decide) g k

theorem copy_eq_103 (v : Vec Ideal S64x1x2080 .f32) (g : Fin 64) (k : Fin 2080) :
    k0_pay103 (F := Ideal) v (ix2 g k) = v (ix3 g 0 k) := cast_row_apply v (by decide) g k

theorem copy_eq_104 (v : Vec Ideal S64x1x2080 .f32) (g : Fin 64) (k : Fin 2080) :
    k0_pay104 (F := Ideal) v (ix2 g k) = v (ix3 g 0 k) := cast_row_apply v (by decide) g k

theorem copy_eq_105 (v : Vec Ideal S64x1x2080 .f32) (g : Fin 64) (k : Fin 2080) :
    k0_pay105 (F := Ideal) v (ix2 g k) = v (ix3 g 0 k) := cast_row_apply v (by decide) g k

theorem copy_eq_106 (v : Vec Ideal S64x1x2080 .f32) (g : Fin 64) (k : Fin 2080) :
    k0_pay106 (F := Ideal) v (ix2 g k) = v (ix3 g 0 k) := cast_row_apply v (by decide) g k

theorem copy_eq_107 (v : Vec Ideal S64x1x2080 .f32) (g : Fin 64) (k : Fin 2080) :
    k0_pay107 (F := Ideal) v (ix2 g k) = v (ix3 g 0 k) := cast_row_apply v (by decide) g k

theorem copy_eq_108 (v : Vec Ideal S64x1x2080 .f32) (g : Fin 64) (k : Fin 2080) :
    k0_pay108 (F := Ideal) v (ix2 g k) = v (ix3 g 0 k) := cast_row_apply v (by decide) g k

end Cert.KernelPayloads
-- ==== Proof.KernelBody.lean ====
/-
  What one grid step leaves in its output block, at the ideal instance.

  The body reads its input block `v : [64, 32, 64]`, fills a scratch tile `[64, 32, 2080]` with 64 slice stores — store
  `i` writes, on columns `off i … off i + 63 - i`, the products `v[g, r, i] · v[g, r, i + d]` — and then copies scratch
  row `r` (all 64 graphs, all 2080 columns) to output columns `2080·r … 2080·r + 2079`, for `r = 0 … 31`.

  Read back, the 64 stores are ONE function of the scratch index: every store's payload is the tile of
  `Cert.Triu.Scr v` its rectangle names, and the rectangles cover the tile (the column ranges `[off i, off (i + 1))`
  follow one another from 0 to 2080). So a load of row `r` after them reads `Scr v` on that row, each of the 32 output
  stores writes the tile of `Cert.Triu.OutBlk v` its rectangle names (column `2080·r + k` has quotient `r` and
  remainder `k`), and the output block is `OutBlk v`.
-/
import proofs.«412582_j22814866277106_3_alg».proof.Proof.Gen.KernelIdeal.Frame
import proofs.«412582_j22814866277106_3_alg».proof.Proof.TriuSpec
import proofs.«412582_j22814866277106_3_alg».proof.Proof.KernelPayloads
import Idealize.ShloMosaic.Lib.Pipeline.Value
import Idealize.ShloMosaic.Lib.ValueIdx

set_option maxRecDepth 16384

noncomputable section

namespace Cert.KernelBody

open Idealize.ShloMosaic Idealize.ShloMosaic.ValueIdx
open Cert.KernelIdeal Cert.KernelIdeal.Gen Cert.KernelPayloads

/-! ## The input block as the body reads it -/

theorem hz3 : (![0, 0, 0] : Fin 3 → Nat) = fun _ => 0 := by
  funext a; match a with | ⟨0, _⟩ => rfl | ⟨1, _⟩ => rfl | ⟨2, _⟩ => rfl

/-- The load of the whole input block reads the block. -/
theorem in_eq (arg1 : Memref sig .tc .vmem S64x32x64 .f32) (harg1 : arg1.IsWhole) (x0 : Vec Ideal S64x32x64 .f32) :
    View.readAt (Elt Ideal) arg1.view
      (Rect.unit (s := S64x32x64) ![0, 0, 0] S64x32x64.size inb_S64x32x64_S64x32x64_0_0_0).toLoadRect (harg1.unread x0) = x0 := by
  rw [View.readAt_eq_ld, harg1.read_unread]
  exact View.ld_unit_zero (S := S64x32x64) hz3 _ x0

section Names

variable (c : Dev nD) (arg1 : Memref sig .tc .vmem S64x32x64 .f32) (harg1 : arg1.IsWhole) (x0 : Vec Ideal S64x32x64 .f32)

/-- The block every later store's payload is computed from (the loaded block, cast to its own shape) is the block. -/
theorem r_eq : kernelRun0_A.sl.r (F := Ideal) c arg1 harg1 x0 = x0 := by
  unfold kernelRun0_A.sl.r
  rw [in_eq]
  exact pay5_eq x0

/-! The values one part of the body hands to the next: each is its payload of the block. -/

theorem r1_eq : kernelRun0_A.sl.r_1 (F := Ideal) c arg1 harg1 x0 = k0_pay16 x0 := by
  unfold kernelRun0_A.sl.r_1; rw [r_eq]
theorem r2_eq : kernelRun0_A.sl.r_2 (F := Ideal) c arg1 harg1 x0 = k0_pay22 x0 := by
  unfold kernelRun0_A.sl.r_2; rw [r_eq]
theorem r3_eq : kernelRun0_A.sl.r_3 (F := Ideal) c arg1 harg1 x0 = k0_pay28 x0 := by
  unfold kernelRun0_A.sl.r_3; rw [r_eq]
theorem r4_eq : kernelRun0_A.sl.r_4 (F := Ideal) c arg1 harg1 x0 = k0_pay34 x0 := by
  unfold kernelRun0_A.sl.r_4; rw [r_eq]
theorem r5_eq : kernelRun0_A.sl.r_5 (F := Ideal) c arg1 harg1 x0 = k0_pay41 x0 := by
  unfold kernelRun0_A.sl.r_5; rw [r_eq]
theorem r6_eq : kernelRun0_A.sl.r_6 (F := Ideal) c arg1 harg1 x0 = k0_pay42 x0 := by
  unfold kernelRun0_A.sl.r_6; rw [r_eq]
theorem r7_eq : kernelRun0_A.sl.r_7 (F := Ideal) c arg1 harg1 x0 = k0_pay48 x0 := by
  unfold kernelRun0_A.sl.r_7; rw [r_eq]
theorem r8_eq : kernelRun0_A.sl.r_8 (F := Ideal) c arg1 harg1 x0 = k0_pay55 x0 := by
  unfold kernelRun0_A.sl.r_8; rw [r_eq]
theorem r9_eq : kernelRun0_A.sl.r_9 (F := Ideal) c arg1 harg1 x0 = k0_pay56 x0 := by
  unfold kernelRun0_A.sl.r_9; rw [r_eq]
theorem r10_eq : kernelRun0_A.sl.r_10 (F := Ideal) c arg1 harg1 x0 = k0_pay62 x0 := by
  unfold kernelRun0_A.sl.r_10; rw [r_eq]
theorem r11_eq : kernelRun0_A.sl.r_11 (F := Ideal) c arg1 harg1 x0 = k0_pay69 x0 := by
  unfold kernelRun0_A.sl.r_11; rw [r_eq]
theorem r12_eq : kernelRun0_A.sl.r_12 (F := Ideal) c arg1 harg1 x0 = k0_pay75 x0 := by
  unfold kernelRun0_A.sl.r_12; rw [r_eq]

end Names

/-! ## The scratch tile after the 64 stores -/

/-- A column of a store on columns `off … off + W - 1` is a column of the tile. -/
theorem col_lt {W off : Nat}
    (inb : ∀ a, (![0, 0, off] : Fin 3 → Nat) a + (![64, 32, W] : Fin 3 → Nat) a ≤ S64x32x2080.size a) (d : Fin W) :
    off + d.val < 2080 := by
  have h : off + W ≤ 2080 := inb 2
  omega

/-- A payload that is the tile of `G` on columns `off … off + W - 1`, read at a local index, is `G` at the index the
    store's rectangle places it at: local `(g, r, d)` goes to `(g, r, off + d)`. -/
theorem piece_at {W off : Nat}
    {inb : ∀ a, (![0, 0, off] : Fin 3 → Nat) a + (![64, 32, W] : Fin 3 → Nat) a ≤ S64x32x2080.size a}
    {w : (⟨3, ![64, 32, W]⟩ : Shape).Idx → EReal} {G : S64x32x2080.Idx → EReal}
    (hw : ∀ (g : Fin 64) (r : Fin 32) (d : Fin W), w (ix3 g r d) = G (ix3 g r ⟨off + d.val, col_lt inb d⟩)) :
    ∀ x : (⟨3, ![64, 32, W]⟩ : Shape).Idx,
      w x = G ((Rect.unit (s := S64x32x2080) ![0, 0, off] ![64, 32, W] inb).emb x) := by
  intro x
  have e : x = ix3 (x 0) (x 1) (x 2) := eq_ix3 x
  refine (congrArg w e).trans ((hw (x 0) (x 1) (x 2)).trans (congrArg G ?_))
  funext a
  match a with
  | ⟨0, _⟩ => exact Fin.ext (by show (x 0).val = 0 + 1 * (x 0).val; omega)
  | ⟨1, _⟩ => exact Fin.ext (by show (x 1).val = 0 + 1 * (x 1).val; omega)
  | ⟨2, _⟩ => exact Fin.ext (by show off + (x 2).val = off + 1 * (x 2).val; omega)

/-- The pieces `L` hold every index of the tile whose column is below `n`. -/
def CoversBelow (L : List (View.Piece (Elt Ideal) S64x32x2080 .f32)) (n : Nat) : Prop :=
  ∀ y : S64x32x2080.Idx, (y 2).val < n → ∃ p ∈ L, y ∈ p.1.set

theorem coversBelow_nil : CoversBelow [] 0 := fun _ h => absurd h (Nat.not_lt_zero _)

/-- One more store of all graphs and rows on columns `off … off + W - 1` takes the covered columns from `off` to
    `off + W`. -/
theorem coversBelow_cons {L : List (View.Piece (Elt Ideal) S64x32x2080 .f32)} {W off n : Nat}
    {inb : ∀ a, (![0, 0, off] : Fin 3 → Nat) a + (![64, 32, W] : Fin 3 → Nat) a ≤ S64x32x2080.size a}
    {w : (Rect.unit (s := S64x32x2080) ![0, 0, off] ![64, 32, W] inb).shape.Idx → Elt Ideal .f32}
    (hn : n = off + W) (h : CoversBelow L off) :
    CoversBelow ((⟨Rect.unit (s := S64x32x2080) ![0, 0, off] ![64, 32, W] inb, w⟩ :
      View.Piece (Elt Ideal) S64x32x2080 .f32) :: L) n := by
  intro y hy
  by_cases hk : off ≤ (y 2).val
  · refine ⟨⟨Rect.unit (s := S64x32x2080) ![0, 0, off] ![64, 32, W] inb, w⟩, List.mem_cons_self, ?_⟩
    refine (Rect.mem_set_unit (s := S64x32x2080) (off := ![0, 0, off]) (size := ![64, 32, W]) (inb := inb) (i := y)).mpr
      fun a => ?_
    match a with
    | ⟨0, _⟩ => exact ⟨Nat.zero_le _, by have h0 : (y 0).val < 64 := (y 0).isLt; show (y 0).val < 0 + 64; omega⟩
    | ⟨1, _⟩ => exact ⟨Nat.zero_le _, by have h1 : (y 1).val < 32 := (y 1).isLt; show (y 1).val < 0 + 32; omega⟩
    | ⟨2, _⟩ => exact ⟨hk, by show (y 2).val < off + W; omega⟩
  · obtain ⟨p, hp, hm⟩ := h y (by omega)
    exact ⟨p, List.mem_cons_of_mem _ hp, hm⟩

section Scratch

variable (c : Dev nD) (arg1 : Memref sig .tc .vmem S64x32x64 .f32) (harg1 : arg1.IsWhole) (x0 : Vec Ideal S64x32x64 .f32)

/-- The 64 stores cover the tile: their column ranges follow one another from 0 up to 2080. -/
theorem scr_cover (y : S64x32x2080.Idx) :
    ∃ pc ∈ kernelRun0_A.sl.HS0_64 (F := Ideal) c arg1 harg1 x0, y ∈ pc.1.set := by
  have H : CoversBelow (kernelRun0_A.sl.HS0_64 (F := Ideal) c arg1 harg1 x0) 2080 := by
    unfold kernelRun0_A.sl.HS0_64
    repeat (refine coversBelow_cons (by omega) ?_)
    exact coversBelow_nil
  exact H y (y 2).isLt

/-- Every store's payload is the tile of `Scr x0` its rectangle names. -/
theorem scr_pieces : ∀ p ∈ kernelRun0_A.sl.HS0_64 (F := Ideal) c arg1 harg1 x0,
    ∀ x : p.1.shape.Idx, p.2 x = Cert.Triu.Scr x0 (p.1.emb x) := by
  unfold kernelRun0_A.sl.HS0_64
  rw [in_eq arg1 harg1 x0]
  simp only [r_eq, r1_eq, r2_eq, r3_eq, r4_eq, r5_eq, r6_eq, r7_eq, r8_eq, r9_eq, r10_eq, r11_eq, r12_eq]
  simp only [List.forall_mem_cons]
  exact ⟨piece_at (scr_at_2079 x0), piece_at (scr_at_2077 x0), piece_at (scr_at_2074 x0), piece_at (scr_at_2070 x0),
    piece_at (scr_at_2065 x0), piece_at (scr_at_2059 x0), piece_at (scr_at_2052 x0), piece_at (scr_at_2044 x0),
    piece_at (scr_at_2035 x0), piece_at (scr_at_2025 x0), piece_at (scr_at_2014 x0), piece_at (scr_at_2002 x0),
    piece_at (scr_at_1989 x0), piece_at (scr_at_1975 x0), piece_at (scr_at_1960 x0), piece_at (scr_at_1944 x0),
    piece_at (scr_at_1927 x0), piece_at (scr_at_1909 x0), piece_at (scr_at_1890 x0), piece_at (scr_at_1870 x0),
    piece_at (scr_at_1849 x0), piece_at (scr_at_1827 x0), piece_at (scr_at_1804 x0), piece_at (scr_at_1780 x0),
    piece_at (scr_at_1755 x0), piece_at (scr_at_1729 x0), piece_at (scr_at_1702 x0), piece_at (scr_at_1674 x0),
    piece_at (scr_at_1645 x0), piece_at (scr_at_1615 x0), piece_at (scr_at_1584 x0), piece_at (scr_at_1552 x0),
    piece_at (scr_at_1519 x0), piece_at (scr_at_1485 x0), piece_at (scr_at_1450 x0), piece_at (scr_at_1414 x0),
    piece_at (scr_at_1377 x0), piece_at (scr_at_1339 x0), piece_at (scr_at_1300 x0), piece_at (scr_at_1260 x0),
    piece_at (scr_at_1219 x0), piece_at (scr_at_1177 x0), piece_at (scr_at_1134 x0), piece_at (scr_at_1090 x0),
    piece_at (scr_at_1045 x0), piece_at (scr_at_999 x0), piece_at (scr_at_952 x0), piece_at (scr_at_904 x0),
    piece_at (scr_at_855 x0), piece_at (scr_at_805 x0), piece_at (scr_at_754 x0), piece_at (scr_at_702 x0),
    piece_at (scr_at_649 x0), piece_at (scr_at_595 x0), piece_at (scr_at_540 x0), piece_at (scr_at_484 x0),
    piece_at (scr_at_427 x0), piece_at (scr_at_369 x0), piece_at (scr_at_310 x0), piece_at (scr_at_250 x0),
    piece_at (scr_at_189 x0), piece_at (scr_at_127 x0), piece_at (scr_at_64 x0), piece_at (scr_at_0 x0),
    fun _ h => nomatch h⟩

/-- So the tile the 64 stores leave reads as `Scr x0` at every index. -/
theorem scr_canon (y : S64x32x2080.Idx) :
    View.canon (kernelRun0_A.sl.HS0_64 (F := Ideal) c arg1 harg1 x0) y = Cert.Triu.Scr x0 y :=
  View.canon_apply_of_pieces (Cert.Triu.Scr x0) _ (scr_pieces c arg1 harg1 x0) y (scr_cover c arg1 harg1 x0 y)

/-- A load of scratch row `r` after the stores reads `Scr x0` on that row. -/
theorem row_load (arg3 : Memref sig .tc .vmem S64x32x2080 .f32) {r : Nat} (hr : r < 32)
    (inb : ∀ a, (![0, r, 0] : Fin 3 → Nat) a + S64x1x2080.size a ≤ S64x32x2080.size a) (g : Fin 64) (k : Fin 2080) :
    arg3.view.readCov (kernelRun0_A.sl.HS0_64 (F := Ideal) c arg1 harg1 x0)
        (Rect.unit (s := S64x32x2080) ![0, r, 0] S64x1x2080.size inb).toLoadRect (ix3 g 0 k)
      = Cert.Triu.Scr x0 (ix3 g ⟨r, hr⟩ k) := by
  rw [View.readCov_eq_canon']
  refine (scr_canon c arg1 harg1 x0 _).trans (congrArg (Cert.Triu.Scr x0) ?_)
  funext a
  match a with
  | ⟨0, _⟩ => exact Fin.ext (by show 0 + 1 * g.val = g.val; omega)
  | ⟨1, _⟩ => exact Fin.ext (by show r + 1 * 0 = r; omega)
  | ⟨2, _⟩ => exact Fin.ext (by show 0 + 1 * k.val = k.val; omega)

end Scratch

/-! ## The output block after the 32 copies -/

/-- The copy of scratch row `r` to output columns `2080·r …` writes the tile of `OutBlk x0` its rectangle names:
    local `(g, k)` goes to column `2080·r + k`, whose quotient by 2080 is `r` and remainder `k`. -/
theorem out_piece {r off : Nat} {c : Dev nD} {arg1 : Memref sig .tc .vmem S64x32x64 .f32} {harg1 : arg1.IsWhole}
    {arg3 : Memref sig .tc .vmem S64x32x2080 .f32} {x0 : Vec Ideal S64x32x64 .f32}
    {inbS : ∀ a, (![0, r, 0] : Fin 3 → Nat) a + S64x1x2080.size a ≤ S64x32x2080.size a}
    {inbO : ∀ a, (![0, off] : Fin 2 → Nat) a + (![64, 2080] : Fin 2 → Nat) a ≤ S64x66560.size a}
    {pay : Vec Ideal S64x1x2080 .f32 → FVec Ideal S64x2080 .f32}
    (hpay : ∀ (v : Vec Ideal S64x1x2080 .f32) (g : Fin 64) (k : Fin 2080), pay v (ix2 g k) = v (ix3 g 0 k))
    (hr : r < 32 := by omega) (hoff : off = 2080 * r := by omega) :
    ∀ x : (⟨2, ![64, 2080]⟩ : Shape).Idx,
      pay (arg3.view.readCov (kernelRun0_A.sl.HS0_64 (F := Ideal) c arg1 harg1 x0)
          (Rect.unit (s := S64x32x2080) ![0, r, 0] S64x1x2080.size inbS).toLoadRect) x
        = Cert.Triu.OutBlk x0 ((Rect.unit (s := S64x66560) ![0, off] ![64, 2080] inbO).emb x) := by
  intro x
  have e : x = ix2 (x 0) (x 1) := eq_ix2 x
  refine (congrArg (pay _) e).trans ((hpay _ (x 0) (x 1)).trans
    ((row_load c arg1 harg1 x0 arg3 hr inbS (x 0) (x 1)).trans ?_))
  unfold Cert.Triu.OutBlk
  refine congrArg (Cert.Triu.Scr x0) ?_
  have hk : (x 1).val < 2080 := (x 1).isLt
  funext a
  match a with
  | ⟨0, _⟩ => exact Fin.ext (by show (x 0).val = 0 + 1 * (x 0).val; omega)
  | ⟨1, _⟩ => exact Fin.ext (by show r = (off + 1 * (x 1).val) / 2080; omega)
  | ⟨2, _⟩ => exact Fin.ext (by show (x 1).val = (off + 1 * (x 1).val) % 2080; omega)

section Output

variable (c : Dev nD) (i : grid0.Coords) (arg1 : Memref sig .tc .vmem S64x32x64 .f32) (harg1 : arg1.IsWhole)
  (arg2 : Memref sig .tc .vmem S64x66560 .f32) (harg2 : arg2.IsWhole)
  (arg3 : Memref sig .tc .vmem S64x32x2080 .f32) (harg3 : arg3.IsWhole) (x0 : Vec Ideal S64x32x64 .f32)

/-- Every output store's payload is the tile of `OutBlk x0` its rectangle names (rows 31 down to 0, last store first). -/
theorem out_pieces : ∀ p ∈ (kernelRun0_A (F := Ideal) c i arg1 harg1 arg2 harg2 arg3 harg3 x0).1,
    ∀ x : p.1.shape.Idx, p.2 x = Cert.Triu.OutBlk x0 (p.1.emb x) := by
  unfold kernelRun0_A
  dsimp only
  simp only [List.forall_mem_cons]
  exact ⟨out_piece copy_eq_4, out_piece copy_eq_3, out_piece copy_eq_2, out_piece copy_eq_1,
    out_piece copy_eq_108, out_piece copy_eq_107, out_piece copy_eq_106, out_piece copy_eq_105,
    out_piece copy_eq_104, out_piece copy_eq_103, out_piece copy_eq_102, out_piece copy_eq_101,
    out_piece copy_eq_100, out_piece copy_eq_99, out_piece copy_eq_98, out_piece copy_eq_97,
    out_piece copy_eq_96, out_piece copy_eq_95, out_piece copy_eq_94, out_piece copy_eq_93,
    out_piece copy_eq_92, out_piece copy_eq_91, out_piece copy_eq_90, out_piece copy_eq_89,
    out_piece copy_eq_88, out_piece copy_eq_87, out_piece copy_eq_86, out_piece copy_eq_85,
    out_piece copy_eq_84, out_piece copy_eq_83, out_piece copy_eq_82, out_piece copy_eq_81,
    fun _ h => nomatch h⟩

/-- What one grid step leaves in its output block: the upper-triangular products of its input block, rows side by side. -/
theorem out_block :
    out0_A_1 (F := Ideal) c i arg1 harg1 arg2 harg2 arg3 harg3 x0 = Cert.Triu.OutBlk x0 := by
  unfold out0_A_1
  rw [View.read_writes_eq_canon _ _ _ (cover0_A_1 c i arg1 harg1 arg2 harg2 arg3 harg3 x0)]
  funext y
  exact View.canon_apply_of_pieces (Cert.Triu.OutBlk x0) _
    (out_pieces c i arg1 harg1 arg2 harg2 arg3 harg3 x0) y (cover0_A_1 c i arg1 harg1 arg2 harg2 arg3 harg3 x0 y)

end Output

end Cert.KernelBody

end
-- ==== Proof.KernelValue.lean ====
/-
  The kernel program's result array as one function of its arguments, at the ideal instance.

  The host operations before the launch leave the gated features `xg : [32768, 64]` re-laid as `[64, 512, 64]`
  (graph, node, channel). The launch has 16 grid points; point `t` reads the block of nodes `32 t … 32 t + 31` of
  every graph and writes back columns `66560 t … 66560 t + 66559` of the result `[64, 1064960]`: per graph the
  32 nodes' upper-triangular self outer products, 2080 entries each, side by side. Column `q` of the result therefore
  holds entry `q mod 2080` of node `q / 2080`'s triangle, which is `Cert.Triu.G xg`; the 16 blocks tile the result.
-/
import proofs.«412582_j22814866277106_3_alg».proof.Proof.Gen.KernelIdeal.Value
import proofs.«412582_j22814866277106_3_alg».proof.Proof.KerStages
import proofs.«412582_j22814866277106_3_alg».proof.Proof.TriuSpec
import proofs.«412582_j22814866277106_3_alg».proof.Proof.KernelBody
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.KernelIdeal.Value Cert.Triu

variable (m : (ℓ : Loc nD τ sig) → Buf (Elt Ideal) ℓ) (ρ : Dev nD → PrngReg)

/-- Core `c`'s gated features, of its six argument arrays as launched. -/
abbrev xg (c : Dev nD) : FVec Ideal S32768x64 .f32 :=
  Cert.KerStages.XG (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

set_option maxHeartbeats 4000000 in
set_option maxRecDepth 100000 in
/-- The region finds the staged array at the gated features re-laid as (graph, node, channel). -/
theorem V_v34 (c : Dev nD) :
    (V m c main_v34 : S64x512x64.Idx → EReal) = shapeCast S64x512x64 (xg m c) shapeCasts_S32768x64_S64x512x64 := by
  show StableHlo.after (List.flatten [hostOps0, hostOps0_1, hostOps0_2]) (fun b => m (c, b)) (Proc.devRef .tc main_v34) = _
  simp only [Gen.hostOps0, Gen.hostOps0_1, Gen.hostOps0_2, List.flatten_cons, List.flatten_nil, List.append_nil, List.cons_append,
    List.nil_append]
  after_results_simp
  rfl

/-- The re-laid features at (graph `g`, node `n`, channel `d`) are row `512 g + n` of the features. -/
theorem x3_apply (c : Dev nD) (g : Fin 64) (n : Fin 512) (d : Fin 64) :
    (V m c main_v34 : S64x512x64.Idx → EReal) (ix3 g n d)
      = xg m c (ix2 (⟨g.val * 512 + n.val, by have := g.isLt; have := n.isLt; omega⟩ : Fin 32768) d) := by
  rw [V_v34]
  refine shapeCast_apply _ _ _ _ ?_
  rw [Shape.rowMajor_val_two, Shape.rowMajor_val_three]
  rfl

/-- The printed index maps over the 16 grid points: the input block moves along the node axis, the output block along
    the columns, both by the point's number. -/
theorem idx_facts : ∀ t : Fin cfg0.N, win0_0.index t (0 : Fin 3) = 0 ∧ win0_0.index t (1 : Fin 3) = t.val
    ∧ win0_0.index t (2 : Fin 3) = 0 ∧ win0_1.index t (0 : Fin 2) = 0 ∧ win0_1.index t (1 : Fin 2) = t.val :=
  (by decide +kernel : ∀ t : Fin grid0.N, _)

theorem t_lt (t : Fin cfg0.N) : t.val < 16 := by have := t.isLt; have h : cfg0.N = 16 := N_0; omega

/-- The output block's function at (graph `g`, column `q`): node `q / 2080` of the block, entry `q mod 2080`. -/
theorem outBlk_apply (v : (⟨3, ![64, 32, 64]⟩ : Shape).Idx → EReal) (g : Fin 64) (q : Fin 66560) :
    OutBlk v (ix2 g q)
      = v (ix3 g (⟨q.val / 2080, by have := q.isLt; omega⟩ : Fin 32) (rowF ⟨q.val % 2080, Nat.mod_lt _ (by decide)⟩))
        * v (ix3 g (⟨q.val / 2080, by have := q.isLt; omega⟩ : Fin 32) (colF ⟨q.val % 2080, Nat.mod_lt _ (by decide)⟩)) := rfl

/-- The result's function at (graph `g`, column `q`). -/
theorem G_apply (x : (⟨2, ![32768, 64]⟩ : Shape).Idx → EReal) (g : Fin 64) (q : Fin 1064960) :
    G x (ix2 g q) = x (ix2 (node g q) (rowF (ent q))) * x (ix2 (node g q) (colF (ent q))) := rfl

/-- Point `t`'s input block at (graph `g`, local node `r`, channel `d`) is node `32 t + r` of graph `g`. -/
theorem iblk_apply (c : Dev nD) (t : Fin cfg0.N) (g : Fin 64) (r : Fin 32) (d : Fin 64) :
    (iblk m c 0 t : S64x32x64.Idx → EReal) (ix3 g r d)
      = xg m c (ix2 (⟨g.val * 512 + (32 * t.val + r.val), by have := t_lt t; have := g.isLt; have := r.isLt; omega⟩ : Fin 32768) d) := by
  obtain ⟨e0, e1, e2, -, -⟩ := idx_facts t
  have ht := t_lt t
  rw [← x3_apply m c g (⟨32 * t.val + r.val, by have := r.isLt; omega⟩ : Fin 512) d]
  unfold iblk
  rw [View.read_apply]
  show V m c main_v34 _ = V m c main_v34 _
  congr 1
  funext a
  apply Fin.ext
  match a with
  | ⟨0, _⟩ => show win0_0.index t 0 * 64 + 1 * g.val = g.val; rw [e0]; omega
  | ⟨1, _⟩ => show win0_0.index t 1 * 32 + 1 * r.val = 32 * t.val + r.val; rw [e1]; omega
  | ⟨2, _⟩ => show win0_0.index t 2 * 64 + 1 * d.val = d.val; rw [e2]; omega

/-- WHAT POINT `t` WRITES BACK is block `t` of `G xg`. -/
theorem flushed_eq (c : Dev nD) (t : Fin cfg0.N) :
    (dats m 0 c).flushed 1 t = ((cfg0.win 1).blk t).view.read (Elt Ideal) (G (xg m c)) := by
  rw [flushed1_A, Cert.KernelBody.out_block]
  obtain ⟨-, -, -, e3, e4⟩ := idx_facts t
  have ht := t_lt t
  funext j
  obtain ⟨g, q, rfl⟩ : ∃ (g : Fin 64) (q : Fin 66560), j = ix2 g q := ⟨j 0, j 1, eq_ix2 j⟩
  have hg := g.isLt
  have hq := q.isLt
  have hemb : ((cfg0.win 1).blk t).view.emb (ix2 g q)
      = ix2 g (⟨66560 * t.val + q.val, by omega⟩ : Fin 1064960) := by
    funext a
    apply Fin.ext
    match a with
    | ⟨0, _⟩ => show win0_1.index t 0 * 64 + 1 * g.val = g.val; rw [e3]; omega
    | ⟨1, _⟩ => show win0_1.index t 1 * 66560 + 1 * q.val = 66560 * t.val + q.val; rw [e4]; omega
  show OutBlk (iblk m c 0 t) (ix2 g q) = G (xg m c) (((cfg0.win 1).blk t).view.emb (ix2 g q))
  rw [hemb, outBlk_apply, G_apply, iblk_apply, iblk_apply]
  have hn : (⟨g.val * 512 + (32 * t.val + q.val / 2080), by omega⟩ : Fin 32768)
      = node g (⟨66560 * t.val + q.val, by omega⟩ : Fin 1064960) :=
    Fin.ext (by show g.val * 512 + (32 * t.val + q.val / 2080) = g.val * 512 + (66560 * t.val + q.val) / 2080; omega)
  have he : (⟨q.val % 2080, Nat.mod_lt _ (by decide)⟩ : Fin 2080) = ent (⟨66560 * t.val + q.val, by omega⟩ : Fin 1064960) :=
    Fin.ext (by show q.val % 2080 = (66560 * t.val + q.val) % 2080; omega)
  rw [hn, he]

/-- An index of the result is in point `t`'s block iff each coordinate is in the block's range on its axis. -/
theorem mem_blk (t : Fin cfg0.N) (i : S64x1064960.Idx) :
    i ∈ ((cfg0.win 1).blk t).view.set ↔ ∀ a : Fin 2, win0_1.index t a * S64x66560.size a ≤ (i a).val
      ∧ (i a).val < win0_1.index t a * S64x66560.size a + S64x66560.size a := by
  show i ∈ ((View.whole main_v35).slice (win0_1.rect t)).set ↔ _
  rw [View.set_slice_whole, Rect.mem_set_unit]
  exact Iff.rfl

/-- The 16 blocks tile the result: column `q` is in block `q / 66560`. -/
theorem cover (i : S64x1064960.Idx) : ∃ t : Fin cfg0.N, (cfg0.win 1).flush t = true ∧ i ∈ ((cfg0.win 1).blk t).view.set := by
  have hi0 : (i 0).val < 64 := (i 0).isLt
  have hi1 : (i 1).val < 1064960 := (i 1).isLt
  have hN : cfg0.N = 16 := N_0
  refine ⟨⟨(i 1).val / 66560, by rw [hN]; omega⟩, flush0_1 _, ?_⟩
  rw [mem_blk]
  obtain ⟨-, -, -, e3, e4⟩ := idx_facts ⟨(i 1).val / 66560, by rw [hN]; omega⟩
  intro a
  match a with
  | ⟨0, _⟩ => show win0_1.index _ 0 * 64 ≤ (i 0).val ∧ (i 0).val < win0_1.index _ 0 * 64 + 64; rw [e3]; omega
  | ⟨1, _⟩ => show win0_1.index _ 1 * 66560 ≤ (i 1).val ∧ (i 1).val < win0_1.index _ 1 * 66560 + 66560; rw [e4]; show (i 1).val / 66560 * 66560 ≤ (i 1).val ∧ (i 1).val < (i 1).val / 66560 * 66560 + 66560; omega

/-- THE RESULT ARRAY after the run is `G xg`. -/
theorem final (c : Dev nD) : (dats m 0 c).arrAt 1 cfg0.N = G (xg m c) :=
  (dats m 0 c).arrAt_eq_of_cover 1 (G (xg m c)) (fun t _ => flushed_eq m c t) cover

/-- The run, read: the result at `G xg`, the arguments unchanged. -/
theorem run : θ_run defs (onTc (τ := τ) (main (F := Ideal))) ⟨m, fun _ => 0, ρ⟩ fun r => ∀ c : Dev nD,
      r.2.mem ((c : Thread nD τ).loc main_v35) = G (xg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.KVal

end
-- ==== Proof.RefOps.lean ====
import proofs.«412582_j22814866277106_3_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 185 operations in program order, every call replaced by its callee's operations over that call's
    buffers (a nested call's in the place of the inner call). -/
abbrev ops : List (HloOp τ sig (Elt F)) :=
  [ StableHlo.nullary main_cst (constant S_ .f32 0x00000000#32),
    StableHlo.unary main_cst main_v0 (broadcastInDim S64x64 ![] bcast_S_S64x64 : (⟨S_, .f32⟩ : BufTy).Contents (Elt F) → (⟨S64x64, .f32⟩ : BufTy).Contents (Elt F)),
    StableHlo.unary main_arg1 main_v1 (broadcastInDim S32768x1 ![0] bcast_S32768_S32768x1_0 : (⟨S32768, .i32⟩ : BufTy).Contents (Elt F) → (⟨S32768x1, .i32⟩ : BufTy).Contents (Elt F)),
    StableHlo.ternary main_v0 main_v1 main_arg0 main_v2 ((fun x i u => Host.scatterAdd scatter_S64x64_S32768x1_S32768x64_1_0_0_1 x i u) : (⟨S64x64, .f32⟩ : BufTy).Contents (Elt F) → (⟨S32768x1, .i32⟩ : BufTy).Contents (Elt F) → (⟨S32768x64, .f32⟩ : BufTy).Contents (Elt F) → (⟨S64x64, .f32⟩ : BufTy).Contents (Elt F)),
    StableHlo.nullary main_cst_0 (constant S_ .f32 0x3F800000#32),
    StableHlo.unary main_cst_0 main_v3 (broadcastInDim S32768x1 ![] bcast_S_S32768x1 : (⟨S_, .f32⟩ : BufTy).Contents (Elt F) → (⟨S32768x1, .f32⟩ : BufTy).Contents (Elt F)),
    StableHlo.nullary main_cst_1 (constant S_ .f32 0x00000000#32),
    StableHlo.unary main_cst_1 main_v4 (broadcastInDim S64x1 ![] bcast_S_S64x1 : (⟨S_, .f32⟩ : BufTy).Contents (Elt F) → (⟨S64x1, .f32⟩ : BufTy).Contents (Elt F)),
    StableHlo.unary main_arg1 main_v5 (broadcastInDim S32768x1 ![0] bcast_S32768_S32768x1_0 : (⟨S32768, .i32⟩ : BufTy).Contents (Elt F) → (⟨S32768x1, .i32⟩ : BufTy).Contents (Elt F)),
    StableHlo.ternary main_v4 main_v5 main_v3 main_v6 ((fun x i u => Host.scatterAdd scatter_S64x1_S32768x1_S32768x1_1_0_0_1 x i u) : (⟨S64x1, .f32⟩ : BufTy).Contents (Elt F) → (⟨S32768x1, .i32⟩ : BufTy).Contents (Elt F) → (⟨S32768x1, .f32⟩ : BufTy).Contents (Elt F) → (⟨S64x1, .f32⟩ : BufTy).Contents (Elt F)),
    StableHlo.unary main_v6 main_v7 (broadcastInDim S64x64 ![0, 1] bcast_S64x1_S64x64_0_1 : (⟨S64x1, .f32⟩ : BufTy).Contents (Elt F) → (⟨S64x64, .f32⟩ : BufTy).Contents (Elt F)),
    StableHlo.binary main_v2 main_v7 main_v8 (Host.divf : (⟨S64x64, .f32⟩ : BufTy).Contents (Elt F) → (⟨S64x64, .f32⟩ : BufTy).Contents (Elt F) → (⟨S64x64, .f32⟩ : BufTy).Contents (Elt F)),
    StableHlo.unary main_arg2 main_v9 ((transpose S64x16 [1, 0] · transposes_S16x64_S64x16_1_0) : (⟨S16x64, .f32⟩ : BufTy).Contents (Elt F) → (⟨S64x16, .f32⟩ : BufTy).Contents (Elt F)),
    StableHlo.binary main_v8 main_v9 main_v10 ((fun l r => Host.dotGeneral dot_S64x64_S64x16_S64x16_1_0_0_1_n_n none l r) : (⟨S64x64, .f32⟩ : BufTy).Contents (Elt F) → (⟨S64x16, .f32⟩ : BufTy).Contents (Elt F) → (⟨S64x16, .f32⟩ : BufTy).Contents (Elt F)),
    StableHlo.unary main_arg3 main_v11 (broadcastInDim S1x16 ![1] bcast_S16_S1x16_1 : (⟨S16, .f32⟩ : BufTy).Contents (Elt F) → (⟨S1x16, .f32⟩ : BufTy).Contents (Elt F)),
    StableHlo.unary main_v11 main_v12 (broadcastInDim S64x16 ![0, 1] bcast_S1x16_S64x16_0_1 : (⟨S1x16, .f32⟩ : BufTy).Contents (Elt F) → (⟨S64x16, .f32⟩ : BufTy).Contents (Elt F)),
    StableHlo.binary main_v10 main_v12 main_v13 (addf : (⟨S64x16, .f32⟩ : BufTy).Contents (Elt F) → (⟨S64x16, .f32⟩ : BufTy).Contents (Elt F) → (⟨S64x16, .f32⟩ : BufTy).Contents (Elt F)),
    StableHlo.nullary main_cst_2 (constant S_ .f32 0x3C23D70A#32),
    StableHlo.TRef.nullary main_call0.cst (constant S_ .f32 0x00000000#32),
    StableHlo.TRef.unary main_call0.cst main_call0.v0 (broadcastInDim S64x16 ![] bcast_S_S64x16),
    StableHlo.TRef.binary (.of main_v13 : TRef sig ⟨S64x16, .f32⟩) main_call0.v0 main_call0.v1 (cmpf .oge),
    StableHlo.TRef.unary (.of main_cst_2 : TRef sig ⟨S_, .f32⟩) main_call0.v2 id,
    StableHlo.TRef.unary main_call0.v2 main_call0.v3 (broadcastInDim S64x16 ![] bcast_S_S64x16),
    StableHlo.TRef.binary main_call0.v3 (.of main_v13 : TRef sig ⟨S64x16, .f32⟩) main_call0.v4 mulf,
    StableHlo.TRef.ternary main_call0.v1 (.of main_v13 : TRef sig ⟨S64x16, .f32⟩) main_call0.v4 main_call0.call0.v0 select,
    StableHlo.unary main_arg4 main_v15 ((transpose S16x64 [1, 0] · transposes_S64x16_S16x64_1_0) : (⟨S64x16, .f32⟩ : BufTy).Contents (Elt F) → (⟨S16x64, .f32⟩ : BufTy).Contents (Elt F)),
    StableHlo.binary main_v14 main_v15 main_v16 ((fun l r => Host.dotGeneral dot_S64x16_S16x64_S64x64_1_0_0_1_n_n none l r) : (⟨S64x16, .f32⟩ : BufTy).Contents (Elt F) → (⟨S16x64, .f32⟩ : BufTy).Contents (Elt F) → (⟨S64x64, .f32⟩ : BufTy).Contents (Elt F)),
    StableHlo.unary main_arg5 main_v17 (broadcastInDim S1x64 ![1] bcast_S64_S1x64_1 : (⟨S64, .f32⟩ : BufTy).Contents (Elt F) → (⟨S1x64, .f32⟩ : BufTy).Contents (Elt F)),
    StableHlo.unary main_v17 main_v18 (broadcastInDim S64x64 ![0, 1] bcast_S1x64_S64x64_0_1 : (⟨S1x64, .f32⟩ : BufTy).Contents (Elt F) → (⟨S64x64, .f32⟩ : BufTy).Contents (Elt F)),
    StableHlo.binary main_v16 main_v18 main_v19 (addf : (⟨S64x64, .f32⟩ : BufTy).Contents (Elt F) → (⟨S64x64, .f32⟩ : BufTy).Contents (Elt F) → (⟨S64x64, .f32⟩ : BufTy).Contents (Elt F)),
    StableHlo.unary main_v19 main_v20 (Host.negf : (⟨S64x64, .f32⟩ : BufTy).Contents (Elt F) → (⟨S64x64, .f32⟩ : BufTy).Contents (Elt F)),
    StableHlo.unary main_v20 main_v21 (Host.exp : (⟨S64x64, .f32⟩ : BufTy).Contents (Elt F) → (⟨S64x64, .f32⟩ : BufTy).Contents (Elt F)),
    StableHlo.nullary main_cst_3 (constant S_ .f32 0x3F800000#32),
    StableHlo.unary main_cst_3 main_v22 (broadcastInDim S64x64 ![] bcast_S_S64x64 : (⟨S_, .f32⟩ : BufTy).Contents (Elt F) → (⟨S64x64, .f32⟩ : BufTy).Contents (Elt F)),
    StableHlo.binary main_v22 main_v21 main_v23 (addf : (⟨S64x64, .f32⟩ : BufTy).Contents (Elt F) → (⟨S64x64, .f32⟩ : BufTy).Contents (Elt F) → (⟨S64x64, .f32⟩ : BufTy).Contents (Elt F)),
    StableHlo.nullary main_cst_4 (constant S_ .f32 0x3F800000#32),
    StableHlo.unary main_cst_4 main_v24 (broadcastInDim S64x64 ![] bcast_S_S64x64 : (⟨S_, .f32⟩ : BufTy).Contents (Elt F) → (⟨S64x64, .f32⟩ : BufTy).Contents (Elt F)),
    StableHlo.binary main_v24 main_v23 main_v25 (Host.divf : (⟨S64x64, .f32⟩ : BufTy).Contents (Elt F) → (⟨S64x64, .f32⟩ : BufTy).Contents (Elt F) → (⟨S64x64, .f32⟩ : BufTy).Contents (Elt F)),
    StableHlo.nullary main_c (constantI S_ 32 0#32),
    StableHlo.unary main_c main_v26 (broadcastInDim S32768 ![] bcast_S_S32768 : (⟨S_, .i32⟩ : BufTy).Contents (Elt F) → (⟨S32768, .i32⟩ : BufTy).Contents (Elt F)),
    StableHlo.binary main_arg1 main_v26 main_v27 (cmpi .slt : (⟨S32768, .i32⟩ : BufTy).Contents (Elt F) → (⟨S32768, .i32⟩ : BufTy).Contents (Elt F) → (⟨S32768, .i1⟩ : BufTy).Contents (Elt F)),
    StableHlo.nullary main_c_5 (constantI S_ 32 64#32),
    StableHlo.unary main_c_5 main_v28 (broadcastInDim S32768 ![] bcast_S_S32768 : (⟨S_, .i32⟩ : BufTy).Contents (Elt F) → (⟨S32768, .i32⟩ : BufTy).Contents (Elt F)),
    StableHlo.binary main_arg1 main_v28 main_v29 (addi : (⟨S32768, .i32⟩ : BufTy).Contents (Elt F) → (⟨S32768, .i32⟩ : BufTy).Contents (Elt F) → (⟨S32768, .i32⟩ : BufTy).Contents (Elt F)),
    StableHlo.ternary main_v27 main_v29 main_arg1 main_v30 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v30 main_v31 (broadcastInDim S32768x1 ![0] bcast_S32768_S32768x1_0 : (⟨S32768, .i32⟩ : BufTy).Contents (Elt F) → (⟨S32768x1, .i32⟩ : BufTy).Contents (Elt F)),
    StableHlo.binary main_v25 main_v31 main_v32 ((fun x i => Host.gather gather_S64x64_S32768x1_S32768x64_1_0_n_n_0_1_164 x i) : (⟨S64x64, .f32⟩ : BufTy).Contents (Elt F) → (⟨S32768x1, .i32⟩ : BufTy).Contents (Elt F) → (⟨S32768x64, .f32⟩ : BufTy).Contents (Elt F)),
    StableHlo.binary main_arg0 main_v32 main_v33 (mulf : (⟨S32768x64, .f32⟩ : BufTy).Contents (Elt F) → (⟨S32768x64, .f32⟩ : BufTy).Contents (Elt F) → (⟨S32768x64, .f32⟩ : BufTy).Contents (Elt F)),
    StableHlo.nullary main_cst_6 (constant S_ .f32 0x3F800000#32),
    StableHlo.unary main_cst_6 main_v34 (broadcastInDim S64x64 ![] bcast_S_S64x64 : (⟨S_, .f32⟩ : BufTy).Contents (Elt F) → (⟨S64x64, .f32⟩ : BufTy).Contents (Elt F)),
    StableHlo.TRef.nullary main_call1.v0 (iotaInDim S64x64 32 0),
    StableHlo.TRef.nullary main_call1.c (constantI S_ 32 4294967295#32),
    StableHlo.TRef.unary main_call1.c main_call1.v1 (broadcastInDim S64x64 ![] bcast_S_S64x64),
    StableHlo.TRef.binary main_call1.v0 main_call1.v1 main_call1.v2 addi,
    StableHlo.TRef.nullary main_call1.v3 (iotaInDim S64x64 32 1),
    StableHlo.TRef.binary main_call1.v2 main_call1.v3 main_call1.v4 (cmpi .sge),
    StableHlo.TRef.nullary main_call1.cst (constant S_ .f32 0x00000000#32),
    StableHlo.TRef.unary main_call1.cst main_call1.v5 (broadcastInDim S64x64 ![] bcast_S_S64x64),
    StableHlo.TRef.ternary main_call1.v4 main_call1.v5 (.of main_v34 : TRef sig ⟨S64x64, .f32⟩) main_call1.v6 select,
    StableHlo.nullary main_cst_7 (constant S_ .f32 0x00000000#32),
    StableHlo.unary main_cst_7 main_v36 (broadcastInDim S64x64 ![] bcast_S_S64x64 : (⟨S_, .f32⟩ : BufTy).Contents (Elt F) → (⟨S64x64, .f32⟩ : BufTy).Contents (Elt F)),
    StableHlo.binary main_v35 main_v36 main_v37 (cmpf .une : (⟨S64x64, .f32⟩ : BufTy).Contents (Elt F) → (⟨S64x64, .f32⟩ : BufTy).Contents (Elt F) → (⟨S64x64, .i1⟩ : BufTy).Contents (Elt F)),
    StableHlo.TRef.reshape (.of main_v37 : TRef sig ⟨S64x64, .i1⟩) main_call2.v0 rfl shapeCasts_S64x64_S4096,
    StableHlo.TRef.unary main_call2.v0 main_call2.v1 (extui 32 · natLt_1_32),
    StableHlo.TRef.nullary main_call2.call0.c (constantI S_ 32 0#32),
    StableHlo.TRef.unary main_call2.call0.c main_call2.call0.v0 (broadcastInDim S_ ![] bcast_S_S_),
    StableHlo.TRef.binary main_call2.v1 main_call2.call0.v0 main_call2.call0.v1 (fun x v => Host.reduceWindow IntOp.addi ![4096] ![1] ![4095] ![0] x v reduceWindows_S4096_S4096_w4096s1p4095_0 h_S_),
    StableHlo.nullary main_c_8 (constantI S_ 32 0#32),
    StableHlo.unary main_c_8 main_v39 (broadcastInDim S2080 ![] bcast_S_S2080 : (⟨S_, .i32⟩ : BufTy).Contents (Elt F) → (⟨S2080, .i32⟩ : BufTy).Contents (Elt F)),
    StableHlo.nullary main_c_9 (constantI S_ 32 0#32),
    StableHlo.TRef.unary (.of main_c_9 : TRef sig ⟨S_, .i32⟩) main_call3.v0 id,
    StableHlo.TRef.unary main_call3.v0 main_call3.v1 (broadcastInDim S4096 ![] bcast_S_S4096),
    StableHlo.TRef.binary main_call3.v1 (.of main_v38 : TRef sig ⟨S4096, .i32⟩) main_call3.v2 maxsi,
    StableHlo.nullary main_c_10 (constantI S_ 32 0#32),
    StableHlo.unary main_c_10 main_v41 (broadcastInDim S4096 ![] bcast_S_S4096 : (⟨S_, .i32⟩ : BufTy).Contents (Elt F) → (⟨S4096, .i32⟩ : BufTy).Contents (Elt F)),
    StableHlo.binary main_v40 main_v41 main_v42 (cmpi .slt : (⟨S4096, .i32⟩ : BufTy).Contents (Elt F) → (⟨S4096, .i32⟩ : BufTy).Contents (Elt F) → (⟨S4096, .i1⟩ : BufTy).Contents (Elt F)),
    StableHlo.nullary main_c_11 (constantI S_ 32 2080#32),
    StableHlo.unary main_c_11 main_v43 (broadcastInDim S4096 ![] bcast_S_S4096 : (⟨S_, .i32⟩ : BufTy).Contents (Elt F) → (⟨S4096, .i32⟩ : BufTy).Contents (Elt F)),
    StableHlo.binary main_v40 main_v43 main_v44 (addi : (⟨S4096, .i32⟩ : BufTy).Contents (Elt F) → (⟨S4096, .i32⟩ : BufTy).Contents (Elt F) → (⟨S4096, .i32⟩ : BufTy).Contents (Elt F)),
    StableHlo.ternary main_v42 main_v44 main_v40 main_v45 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v45 main_v46 (broadcastInDim S4096x1 ![0] bcast_S4096_S4096x1_0 : (⟨S4096, .i32⟩ : BufTy).Contents (Elt F) → (⟨S4096x1, .i32⟩ : BufTy).Contents (Elt F)),
    StableHlo.nullary main_c_12 (constantI S_ 32 1#32),
    StableHlo.unary main_c_12 main_v47 (broadcastInDim S4096 ![] bcast_S_S4096 : (⟨S_, .i32⟩ : BufTy).Contents (Elt F) → (⟨S4096, .i32⟩ : BufTy).Contents (Elt F)),
    StableHlo.ternary main_v39 main_v46 main_v47 main_v48 ((fun x i u => Host.scatter scatter_S2080_S4096x1_S4096_n_0_0_1 IntOp.addi x i u) : (⟨S2080, .i32⟩ : BufTy).Contents (Elt F) → (⟨S4096x1, .i32⟩ : BufTy).Contents (Elt F) → (⟨S4096, .i32⟩ : BufTy).Contents (Elt F) → (⟨S2080, .i32⟩ : BufTy).Contents (Elt F)),
    StableHlo.TRef.nullary main_call4.call0.c (constantI S_ 32 0#32),
    StableHlo.TRef.unary main_call4.call0.c main_call4.call0.v0 (broadcastInDim S_ ![] bcast_S_S_),
    StableHlo.TRef.binary (.of main_v48 : TRef sig ⟨S2080, .i32⟩) main_call4.call0.v0 main_call4.call0.v1 (fun x v => Host.reduceWindow IntOp.addi ![2080] ![1] ![2079] ![0] x v reduceWindows_S2080_S2080_w2080s1p2079_0 h_S_),
    StableHlo.nullary main_c_13 (constantI S_ 32 64#32),
    StableHlo.TRef.unary (.of main_c_13 : TRef sig ⟨S_, .i32⟩) main_call5.v0 (broadcastInDim S2080 ![] bcast_S_S2080),
    StableHlo.TRef.binary (.of main_v49 : TRef sig ⟨S2080, .i32⟩) main_call5.v0 main_call5.v1 Host.divsi,
    StableHlo.TRef.unary (.of main_v49 : TRef sig ⟨S2080, .i32⟩) main_call5.v2 signi,
    StableHlo.TRef.unary (.of main_c_13 : TRef sig ⟨S_, .i32⟩) main_call5.v3 signi,
    StableHlo.TRef.unary main_call5.v3 main_call5.v4 (broadcastInDim S2080 ![] bcast_S_S2080),
    StableHlo.TRef.binary main_call5.v2 main_call5.v4 main_call5.v5 (cmpi .ne),
    StableHlo.TRef.unary (.of main_c_13 : TRef sig ⟨S_, .i32⟩) main_call5.v6 (broadcastInDim S2080 ![] bcast_S_S2080),
    StableHlo.TRef.binary (.of main_v49 : TRef sig ⟨S2080, .i32⟩) main_call5.v6 main_call5.v7 Host.remsi,
    StableHlo.TRef.nullary main_call5.c (constantI S_ 32 0#32),
    StableHlo.TRef.unary main_call5.c main_call5.v8 (broadcastInDim S2080 ![] bcast_S_S2080),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S2080 ![] bcast_S_S2080),
    StableHlo.TRef.binary main_call5.v1 main_call5.v11 main_call5.v12 subi,
    StableHlo.TRef.ternary main_call5.v10 main_call5.v12 main_call5.v1 main_call5.call0.v0 select,
    StableHlo.nullary main_c_14 (constantI S_ 32 64#32),
    StableHlo.TRef.unary (.of main_c_14 : TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S2080 ![] bcast_S_S2080),
    StableHlo.TRef.binary (.of main_v50 : TRef sig ⟨S2080, .i32⟩) main_call6.v3 main_call6.v4 Host.remsi,
    StableHlo.TRef.nullary main_call6.c_1 (constantI S_ 32 0#32),
    StableHlo.TRef.unary main_call6.c_1 main_call6.v5 (broadcastInDim S2080 ![] bcast_S_S2080),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S2080 ![] bcast_S_S2080),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S2080 ![] bcast_S_S2080),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S2080 ![] bcast_S_S2080),
    StableHlo.TRef.binary main_call6.v4 main_call6.v13 main_call6.v14 addi,
    StableHlo.TRef.ternary main_call6.v12 main_call6.v14 main_call6.v4 main_call6.v15 select,
    StableHlo.nullary main_c_15 (constantI S_ 32 1#32),
    StableHlo.TRef.unary (.of main_c_15 : TRef sig ⟨S_, .i32⟩) main_call7.v0 (broadcastInDim S2080 ![] bcast_S_S2080),
    StableHlo.TRef.binary (.of main_v49 : TRef sig ⟨S2080, .i32⟩) main_call7.v0 main_call7.v1 Host.divsi,
    StableHlo.TRef.unary (.of main_v49 : TRef sig ⟨S2080, .i32⟩) main_call7.v2 signi,
    StableHlo.TRef.unary (.of main_c_15 : TRef sig ⟨S_, .i32⟩) main_call7.v3 signi,
    StableHlo.TRef.unary main_call7.v3 main_call7.v4 (broadcastInDim S2080 ![] bcast_S_S2080),
    StableHlo.TRef.binary main_call7.v2 main_call7.v4 main_call7.v5 (cmpi .ne),
    StableHlo.TRef.unary (.of main_c_15 : TRef sig ⟨S_, .i32⟩) main_call7.v6 (broadcastInDim S2080 ![] bcast_S_S2080),
    StableHlo.TRef.binary (.of main_v49 : TRef sig ⟨S2080, .i32⟩) main_call7.v6 main_call7.v7 Host.remsi,
    StableHlo.TRef.nullary main_call7.c (constantI S_ 32 0#32),
    StableHlo.TRef.unary main_call7.c main_call7.v8 (broadcastInDim S2080 ![] bcast_S_S2080),
    StableHlo.TRef.binary main_call7.v7 main_call7.v8 main_call7.v9 (cmpi .ne),
    StableHlo.TRef.binary main_call7.v5 main_call7.v9 main_call7.v10 andi,
    StableHlo.TRef.nullary main_call7.c_0 (constantI S_ 32 1#32),
    StableHlo.TRef.unary main_call7.c_0 main_call7.v11 (broadcastInDim S2080 ![] bcast_S_S2080),
    StableHlo.TRef.binary main_call7.v1 main_call7.v11 main_call7.v12 subi,
    StableHlo.TRef.ternary main_call7.v10 main_call7.v12 main_call7.v1 main_call7.call0.v0 select,
    StableHlo.nullary main_c_16 (constantI S_ 32 64#32),
    StableHlo.TRef.unary (.of main_c_16 : TRef sig ⟨S_, .i32⟩) main_call8.v0 id,
    StableHlo.TRef.nullary main_call8.c (constantI S_ 32 0#32),
    StableHlo.TRef.binary main_call8.v0 main_call8.c main_call8.v1 (cmpi .eq),
    StableHlo.TRef.nullary main_call8.c_0 (constantI S_ 32 1#32),
    StableHlo.TRef.ternary main_call8.v1 main_call8.c_0 main_call8.v0 main_call8.call0.v0 select,
    StableHlo.TRef.unary main_call8.call0.v0 main_call8.v3 (broadcastInDim S2080 ![] bcast_S_S2080),
    StableHlo.TRef.binary (.of main_v52 : TRef sig ⟨S2080, .i32⟩) main_call8.v3 main_call8.v4 Host.remsi,
    StableHlo.TRef.nullary main_call8.c_1 (constantI S_ 32 0#32),
    StableHlo.TRef.unary main_call8.c_1 main_call8.v5 (broadcastInDim S2080 ![] bcast_S_S2080),
    StableHlo.TRef.binary main_call8.v4 main_call8.v5 main_call8.v6 (cmpi .ne),
    StableHlo.TRef.nullary main_call8.c_2 (constantI S_ 32 0#32),
    StableHlo.TRef.unary main_call8.c_2 main_call8.v7 (broadcastInDim S2080 ![] bcast_S_S2080),
    StableHlo.TRef.binary main_call8.v4 main_call8.v7 main_call8.v8 (cmpi .slt),
    StableHlo.TRef.nullary main_call8.c_3 (constantI S_ 32 0#32),
    StableHlo.TRef.binary main_call8.call0.v0 main_call8.c_3 main_call8.v9 (cmpi .slt),
    StableHlo.TRef.unary main_call8.v9 main_call8.v10 (broadcastInDim S2080 ![] bcast_S_S2080),
    StableHlo.TRef.binary main_call8.v8 main_call8.v10 main_call8.v11 (cmpi .ne),
    StableHlo.TRef.binary main_call8.v11 main_call8.v6 main_call8.v12 andi,
    StableHlo.TRef.unary main_call8.call0.v0 main_call8.v13 (broadcastInDim S2080 ![] bcast_S_S2080),
    StableHlo.TRef.binary main_call8.v4 main_call8.v13 main_call8.v14 addi,
    StableHlo.TRef.ternary main_call8.v12 main_call8.v14 main_call8.v4 main_call8.v15 select,
    StableHlo.nullary main_c_17 (constantI S_ 32 0#32),
    StableHlo.unary main_c_17 main_v54 (broadcastInDim S2080 ![] bcast_S_S2080 : (⟨S_, .i32⟩ : BufTy).Contents (Elt F) → (⟨S2080, .i32⟩ : BufTy).Contents (Elt F)),
    StableHlo.binary main_v51 main_v54 main_v55 (cmpi .slt : (⟨S2080, .i32⟩ : BufTy).Contents (Elt F) → (⟨S2080, .i32⟩ : BufTy).Contents (Elt F) → (⟨S2080, .i1⟩ : BufTy).Contents (Elt F)),
    StableHlo.nullary main_c_18 (constantI S_ 32 64#32),
    StableHlo.unary main_c_18 main_v56 (broadcastInDim S2080 ![] bcast_S_S2080 : (⟨S_, .i32⟩ : BufTy).Contents (Elt F) → (⟨S2080, .i32⟩ : BufTy).Contents (Elt F)),
    StableHlo.binary main_v51 main_v56 main_v57 (addi : (⟨S2080, .i32⟩ : BufTy).Contents (Elt F) → (⟨S2080, .i32⟩ : BufTy).Contents (Elt F) → (⟨S2080, .i32⟩ : BufTy).Contents (Elt F)),
    StableHlo.ternary main_v55 main_v57 main_v51 main_v58 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.unary main_v58 main_v59 (broadcastInDim S2080x1 ![0] bcast_S2080_S2080x1_0 : (⟨S2080, .i32⟩ : BufTy).Contents (Elt F) → (⟨S2080x1, .i32⟩ : BufTy).Contents (Elt F)),
    StableHlo.binary main_v33 main_v59 main_v60 ((fun x i => Host.gather gather_S32768x64_S2080x1_S32768x2080_0_1_n_n_1_1_327681 x i) : (⟨S32768x64, .f32⟩ : BufTy).Contents (Elt F) → (⟨S2080x1, .i32⟩ : BufTy).Contents (Elt F) → (⟨S32768x2080, .f32⟩ : BufTy).Contents (Elt F)),
    StableHlo.nullary main_c_19 (constantI S_ 32 0#32),
    StableHlo.unary main_c_19 main_v61 (broadcastInDim S2080 ![] bcast_S_S2080 : (⟨S_, .i32⟩ : BufTy).Contents (Elt F) → (⟨S2080, .i32⟩ : BufTy).Contents (Elt F)),
    StableHlo.binary main_v53 main_v61 main_v62 (cmpi .slt : (⟨S2080, .i32⟩ : BufTy).Contents (Elt F) → (⟨S2080, .i32⟩ : BufTy).Contents (Elt F) → (⟨S2080, .i1⟩ : BufTy).Contents (Elt F)),
    StableHlo.nullary main_c_20 (constantI S_ 32 64#32),
    StableHlo.unary main_c_20 main_v63 (broadcastInDim S2080 ![] bcast_S_S2080 : (⟨S_, .i32⟩ : BufTy).Contents (Elt F) → (⟨S2080, .i32⟩ : BufTy).Contents (Elt F)),
    StableHlo.binary main_v53 main_v63 main_v64 (addi : (⟨S2080, .i32⟩ : BufTy).Contents (Elt F) → (⟨S2080, .i32⟩ : BufTy).Contents (Elt F) → (⟨S2080, .i32⟩ : BufTy).Contents (Elt F)),
    StableHlo.ternary main_v62 main_v64 main_v53 main_v65 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.unary main_v65 main_v66 (broadcastInDim S2080x1 ![0] bcast_S2080_S2080x1_0 : (⟨S2080, .i32⟩ : BufTy).Contents (Elt F) → (⟨S2080x1, .i32⟩ : BufTy).Contents (Elt F)),
    StableHlo.binary main_v33 main_v66 main_v67 ((fun x i => Host.gather gather_S32768x64_S2080x1_S32768x2080_0_1_n_n_1_1_327681 x i) : (⟨S32768x64, .f32⟩ : BufTy).Contents (Elt F) → (⟨S2080x1, .i32⟩ : BufTy).Contents (Elt F) → (⟨S32768x2080, .f32⟩ : BufTy).Contents (Elt F)),
    StableHlo.binary main_v60 main_v67 main_v68 (mulf : (⟨S32768x2080, .f32⟩ : BufTy).Contents (Elt F) → (⟨S32768x2080, .f32⟩ : BufTy).Contents (Elt F) → (⟨S32768x2080, .f32⟩ : BufTy).Contents (Elt F)),
    StableHlo.reshape main_v68 main_v69 rfl shapeCasts_S32768x2080_S64x1064960 ]

end Cert.ReferenceIdeal.RefRun

end
-- ==== Proof.RefStages.lean ====
/-
  The reference program's result as ONE pure term of its six arguments, cut into named stages.

  `XG`: the gated node features. Per graph the mean of its nodes' features (two accumulating scatters: the feature
  sums and the node counts, then their quotient), a two-layer perceptron on it (leaky ReLU inside, logistic
  `1 / (1 + exp (-z))` outside) giving a gate per graph and channel, and each node's features times its graph's
  gate (a row gather of the gate table at the node's graph number, a negative number wrapped once).

  `IU0`, `IU1`: the row and column index vectors of the upper triangle of a 64 × 64 matrix as the program
  computes them: the triangle's mask (lower part of a matrix of ones zeroed, compared with zero), flattened; its
  inclusive running count `csum`; a one added into bin `csum p` for every flat position `p` (`bins`); the inclusive
  running sum of the bins (`flat`: entry `k` is the flat position of the `k`-th set position); then floor division and
  remainder by 64 in jax's sign-correcting forms, and a wrap of negative results.

  `RefOut`: columns `IU0` and `IU1` of `XG` gathered, multiplied entry by entry, and the `[32768, 2080]` product
  re-laid as `[64, 512 · 2080]`.
-/
import proofs.«412582_j22814866277106_3_alg».proof.Proof.Gen.ReferenceIdeal

noncomputable section

namespace Cert.RefStages

open Cert.ReferenceIdeal Cert.ReferenceIdeal.Gen Idealize.ShloMosaic Idealize.ShloMosaic.TcCoe

variable {F : FTy → Type} [FloatOps F]

/-- Leaky ReLU as the program writes it: `x` where `x ≥ 0`, else `slope · x`. -/
def leaky (x : FVec F S64x16 .f32) (slope : FVec F S_ .f32) : FVec F S64x16 .f32 :=
  select (cmpf .oge x (broadcastInDim S64x16 ![] bcast_S_S64x16 (constant S_ .f32 0x00000000#32)))
    x (mulf (broadcastInDim S64x16 ![] bcast_S_S64x16 (id slope)) x)

/-- The gate per graph and channel. -/
def gate (a0 : FVec F S32768x64 .f32) (a1 : IVec S32768 32) (a2 : FVec F S16x64 .f32) (a3 : FVec F S16 .f32)
    (a4 : FVec F S64x16 .f32) (a5 : FVec F S64 .f32) : FVec F S64x64 .f32 :=
  Host.divf (broadcastInDim S64x64 ![] bcast_S_S64x64 (constant S_ .f32 0x3F800000#32))
    (addf (broadcastInDim S64x64 ![] bcast_S_S64x64 (constant S_ .f32 0x3F800000#32))
      (Host.exp (Host.negf
        (addf
          (Host.dotGeneral dot_S64x16_S16x64_S64x64_1_0_0_1_n_n none
            (leaky
              (addf
                (Host.dotGeneral dot_S64x64_S64x16_S64x16_1_0_0_1_n_n none
                  (Host.divf
                    (Host.scatterAdd scatter_S64x64_S32768x1_S32768x64_1_0_0_1
                      (broadcastInDim S64x64 ![] bcast_S_S64x64 (constant S_ .f32 0x00000000#32))
                      (broadcastInDim S32768x1 ![0] bcast_S32768_S32768x1_0 a1) a0)
                    (broadcastInDim S64x64 ![0, 1] bcast_S64x1_S64x64_0_1
                      (Host.scatterAdd scatter_S64x1_S32768x1_S32768x1_1_0_0_1
                        (broadcastInDim S64x1 ![] bcast_S_S64x1 (constant S_ .f32 0x00000000#32))
                        (broadcastInDim S32768x1 ![0] bcast_S32768_S32768x1_0 a1)
                        (broadcastInDim S32768x1 ![] bcast_S_S32768x1 (constant S_ .f32 0x3F800000#32)))))
                  (transpose S64x16 [1, 0] a2 transposes_S16x64_S64x16_1_0))
                (broadcastInDim S64x16 ![0, 1] bcast_S1x16_S64x16_0_1 (broadcastInDim S1x16 ![1] bcast_S16_S1x16_1 a3)))
              (constant S_ .f32 0x3C23D70A#32))
            (transpose S16x64 [1, 0] a4 transposes_S64x16_S16x64_1_0))
          (broadcastInDim S64x64 ![0, 1] bcast_S1x64_S64x64_0_1 (broadcastInDim S1x64 ![1] bcast_S64_S1x64_1 a5))))))

/-- The gated node features. -/
def XG (a0 : FVec F S32768x64 .f32) (a1 : IVec S32768 32) (a2 : FVec F S16x64 .f32) (a3 : FVec F S16 .f32)
    (a4 : FVec F S64x16 .f32) (a5 : FVec F S64 .f32) : FVec F S32768x64 .f32 :=
  mulf a0
    (Host.gather gather_S64x64_S32768x1_S32768x64_1_0_n_n_0_1_164 (gate a0 a1 a2 a3 a4 a5)
      (broadcastInDim S32768x1 ![0] bcast_S32768_S32768x1_0
        (select (cmpi .slt a1 (broadcastInDim S32768 ![] bcast_S_S32768 (constantI S_ 32 0#32)))
          (addi a1 (broadcastInDim S32768 ![] bcast_S_S32768 (constantI S_ 32 64#32))) a1)))

/-- A 64 × 64 matrix of ones with the part below the diagonal zeroed. -/
def triuOnes : FVec F S64x64 .f32 :=
  select
    (cmpi .sge (addi (iotaInDim S64x64 32 0) (broadcastInDim S64x64 ![] bcast_S_S64x64 (constantI S_ 32 4294967295#32)))
      (iotaInDim S64x64 32 1))
    (broadcastInDim S64x64 ![] bcast_S_S64x64 (constant S_ .f32 0x00000000#32))
    (broadcastInDim S64x64 ![] bcast_S_S64x64 (constant S_ .f32 0x3F800000#32))

/-- Its nonzero entries: the upper triangle's mask. -/
def mask : IVec S64x64 1 :=
  cmpf .une (triuOnes (F := F)) (broadcastInDim S64x64 ![] bcast_S_S64x64 (constant S_ .f32 0x00000000#32))

/-- The mask flattened and widened to 32-bit words. -/
def maskW : IVec S4096 32 := extui 32 (shapeCast S4096 (mask (F := F)) shapeCasts_S64x64_S4096) natLt_1_32

/-- The inclusive running count of set positions. -/
def csum : IVec S4096 32 :=
  Host.reduceWindow IntOp.addi ![4096] ![1] ![4095] ![0] (maskW (F := F))
    (broadcastInDim S_ ![] bcast_S_S_ (constantI S_ 32 0#32)) reduceWindows_S4096_S4096_w4096s1p4095_0 h_S_

/-- The running count as a bin number: clipped below at zero, a negative one wrapped by the number of bins. -/
def binIdx : IVec S4096 32 :=
  let c : IVec S4096 32 := maxsi (broadcastInDim S4096 ![] bcast_S_S4096 (id (constantI S_ 32 0#32))) (csum (F := F))
  select (cmpi .slt c (broadcastInDim S4096 ![] bcast_S_S4096 (constantI S_ 32 0#32)))
    (addi c (broadcastInDim S4096 ![] bcast_S_S4096 (constantI S_ 32 2080#32))) c

/-- How many flat positions have each running count. -/
def bins : IVec S2080 32 :=
  Host.scatter scatter_S2080_S4096x1_S4096_n_0_0_1 IntOp.addi
    (broadcastInDim S2080 ![] bcast_S_S2080 (constantI S_ 32 0#32))
    (broadcastInDim S4096x1 ![0] bcast_S4096_S4096x1_0 (binIdx (F := F)))
    (broadcastInDim S4096 ![] bcast_S_S4096 (constantI S_ 32 1#32))

/-- The inclusive running sum of the bins: the flat position of each set position. -/
def flat : IVec S2080 32 :=
  Host.reduceWindow IntOp.addi ![2080] ![1] ![2079] ![0] (bins (F := F))
    (broadcastInDim S_ ![] bcast_S_S_ (constantI S_ 32 0#32)) reduceWindows_S2080_S2080_w2080s1p2079_0 h_S_

/-- jax's floor division: the truncating quotient, one less where the signs differ and the division is inexact. -/
def floorDiv (x : IVec S2080 32) (y : IVec S_ 32) : IVec S2080 32 :=
  let q : IVec S2080 32 := Host.divsi x (broadcastInDim S2080 ![] bcast_S_S2080 y)
  select
    (andi (cmpi .ne (signi x) (broadcastInDim S2080 ![] bcast_S_S2080 (signi y)))
      (cmpi .ne (Host.remsi x (broadcastInDim S2080 ![] bcast_S_S2080 y))
        (broadcastInDim S2080 ![] bcast_S_S2080 (constantI S_ 32 0#32))))
    (subi q (broadcastInDim S2080 ![] bcast_S_S2080 (constantI S_ 32 1#32))) q

/-- jax's remainder: the truncating remainder by `y` (by one where `y` is zero), plus the divisor where it is nonzero
    and its sign differs from the divisor's. -/
def pyRem (x : IVec S2080 32) (y : IVec S_ 32) : IVec S2080 32 :=
  let d : IVec S_ 32 := select (cmpi .eq (id y) (constantI S_ 32 0#32)) (constantI S_ 32 1#32) (id y)
  let r : IVec S2080 32 := Host.remsi x (broadcastInDim S2080 ![] bcast_S_S2080 d)
  select
    (andi
      (cmpi .ne (cmpi .slt r (broadcastInDim S2080 ![] bcast_S_S2080 (constantI S_ 32 0#32)))
        (broadcastInDim S2080 ![] bcast_S_S2080 (cmpi .slt d (constantI S_ 32 0#32))))
      (cmpi .ne r (broadcastInDim S2080 ![] bcast_S_S2080 (constantI S_ 32 0#32))))
    (addi r (broadcastInDim S2080 ![] bcast_S_S2080 d)) r

/-- A negative index wrapped once by 64. -/
def wrap64 (x : IVec S2080 32) : IVec S2080 32 :=
  select (cmpi .slt x (broadcastInDim S2080 ![] bcast_S_S2080 (constantI S_ 32 0#32)))
    (addi x (broadcastInDim S2080 ![] bcast_S_S2080 (constantI S_ 32 64#32))) x

/-- The row index of each upper-triangular entry: `(flat // 64) mod 64`. -/
def IU0 : IVec S2080 32 := wrap64 (pyRem (floorDiv (flat (F := F)) (constantI S_ 32 64#32)) (constantI S_ 32 64#32))

/-- The column index of each upper-triangular entry: `(flat // 1) mod 64`. -/
def IU1 : IVec S2080 32 := wrap64 (pyRem (floorDiv (flat (F := F)) (constantI S_ 32 1#32)) (constantI S_ 32 64#32))

/-- The reference's result from gated features `xg`. -/
def outOf (xg : FVec F S32768x64 .f32) : FVec F S64x1064960 .f32 :=
  shapeCast S64x1064960
    (mulf
      (Host.gather gather_S32768x64_S2080x1_S32768x2080_0_1_n_n_1_1_327681 xg
        (broadcastInDim S2080x1 ![0] bcast_S2080_S2080x1_0 (IU0 (F := F))))
      (Host.gather gather_S32768x64_S2080x1_S32768x2080_0_1_n_n_1_1_327681 xg
        (broadcastInDim S2080x1 ![0] bcast_S2080_S2080x1_0 (IU1 (F := F)))))
    shapeCasts_S32768x2080_S64x1064960

/-- The reference's result as one term of the arguments. -/
def RefOut (a0 : FVec F S32768x64 .f32) (a1 : IVec S32768 32) (a2 : FVec F S16x64 .f32) (a3 : FVec F S16 .f32)
    (a4 : FVec F S64x16 .f32) (a5 : FVec F S64 .f32) : FVec F S64x1064960 .f32 :=
  outOf (XG a0 a1 a2 a3 a4 a5)

end Cert.RefStages

end
-- ==== Proof.RefRun.lean ====
/-
  The run of the reference program. @main calls module-local functions, some of which call others; a call
  executes the callee's body on the operands, so the straight line @main runs is its own operations with
  each callee's operations in the place of its call, over the buffers that call names. That line is `ops`
  (its own module). Here: @main is the sequence of those operations (`main_eq`); no buffer and no semaphore
  of the signature is scoped, and every operation touches TensorCore buffers only, so every weakly fair
  execution from a memory with zero counters terminates with each buffer at the fold of the operations'
  results over the launch contents (`run_main`); no operation writes an argument (`arg0_eq` … `arg5_eq`);
  and the fold at the result buffer is the composed pure term of the six arguments (`out_eq`).
-/
import proofs.«412582_j22814866277106_3_alg».proof.Proof.RefOps
import proofs.«412582_j22814866277106_3_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- 185 binds re-associated: the rewrite under the chain recurses once per statement
set_option maxRecDepth 8192 in
set_option maxHeartbeats 4000000 in
/-- @main is that straight line: its two windows in order, each function's definition unfolded at its calls;
    both sides are then one chain of steps once sequencing is re-associated, and agree step by step. -/
theorem main_eq (c : Dev nD) : main (F := F) c = seq ops := by
  simp only [main, main_part0, main_part1, fn_where.body, fn_leaky_relu.body, fn_triu.body, fn_cumsum_0.body, fn_cumsum.body,
    fn_clip.body, fn_cumsum_2.body, fn_cumsum_1.body, fn_where_3.body, fn_floor_divide.body, fn_where_4.body,
    fn_remainder.body, seq, bind_assoc, pure_bind]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore buffers only: each is one of the builders, whose buffers are its operands' and its
    result's. -/
theorem ops_sub : (ops : List (HloOp τ sig (Elt F))).Forall fun op => op.bufs ⊆ tcRefs τ sig := by
  simp only [ops, List.Forall, nullary_bufs_sub, unary_bufs_sub, binary_bufs_sub, ternary_bufs_sub, reshape_bufs_sub, and_self]

/-- At the compiled mesh, for any float values, from any memory with zero counters: every weakly fair execution of @main on
    the TensorCores terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
/-- No operation writes argument 0: the fold unrolled, each operation's result at this buffer is what was there. -/
theorem arg0_eq (V : Valuation τ sig (Elt F)) :
    after ops V (main_arg0 : DevRef τ sig) = V (main_arg0 : DevRef τ sig) := by
  simp only [after_cons, after_nil]
  rfl

set_option maxRecDepth 8192 in
/-- No operation writes argument 1: the fold unrolled, each operation's result at this buffer is what was there. -/
theorem arg1_eq (V : Valuation τ sig (Elt F)) :
    after ops V (main_arg1 : DevRef τ sig) = V (main_arg1 : DevRef τ sig) := by
  simp only [after_cons, after_nil]
  rfl

set_option maxRecDepth 8192 in
/-- No operation writes argument 2: the fold unrolled, each operation's result at this buffer is what was there. -/
theorem arg2_eq (V : Valuation τ sig (Elt F)) :
    after ops V (main_arg2 : DevRef τ sig) = V (main_arg2 : DevRef τ sig) := by
  simp only [after_cons, after_nil]
  rfl

set_option maxRecDepth 8192 in
/-- No operation writes argument 3: the fold unrolled, each operation's result at this buffer is what was there. -/
theorem arg3_eq (V : Valuation τ sig (Elt F)) :
    after ops V (main_arg3 : DevRef τ sig) = V (main_arg3 : DevRef τ sig) := by
  simp only [after_cons, after_nil]
  rfl

set_option maxRecDepth 8192 in
/-- No operation writes argument 4: the fold unrolled, each operation's result at this buffer is what was there. -/
theorem arg4_eq (V : Valuation τ sig (Elt F)) :
    after ops V (main_arg4 : DevRef τ sig) = V (main_arg4 : DevRef τ sig) := by
  simp only [after_cons, after_nil]
  rfl

set_option maxRecDepth 8192 in
/-- No operation writes argument 5: the fold unrolled, each operation's result at this buffer is what was there. -/
theorem arg5_eq (V : Valuation τ sig (Elt F)) :
    after ops V (main_arg5 : DevRef τ sig) = V (main_arg5 : DevRef τ sig) := by
  simp only [after_cons, after_nil]
  rfl

/-- A transport along an equation between a type and itself is the identity. Stated with a proof that is not a bare
    reflexivity, so that the simplifier records each use as an explicit rewrite and not as a definitional step: a
    definitional step leaves the kernel to find `cast h x ≡ x` by itself, and facing that it opens the heavier side
    (the operation heading `x`) before the transport. -/
private theorem cast_self {α : Sort _} (h : α = α) (a : α) : cast h a = a := eq_of_heq (cast_heq h a)

set_option maxRecDepth 100000 in
set_option maxHeartbeats 8000000 in
/-- The fold at the result buffer is the composed pure term of the six arguments. In one pass each operation's result is
    read at its own buffer as its function's value and at any other buffer as what was there (the buffers' inequalities
    by computation), which leaves the operations' functions composed over the arguments' contents; an operation of a
    called function carries its value along the equation between its buffer's type and the tensor type, which at these
    literal buffers is an equation between a type and itself, so each transport is removed by rewriting (as is the
    reshapes' change of element type, the identity here); the named stages are unfolded on the other side; what is
    left agrees term for term. -/
theorem out_eq (V : Valuation τ sig (Elt F)) :
    after ops V (main_v69 : DevRef τ sig)
      = Cert.RefStages.RefOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  simp only [TRef.toBuf, TRef.ofBuf]
  simp only [eqRec_eq_cast, cast_self]
  simp only [Cert.RefStages.RefOut, Cert.RefStages.outOf, Cert.RefStages.XG, Cert.RefStages.gate, Cert.RefStages.leaky,
    Cert.RefStages.IU0, Cert.RefStages.IU1, Cert.RefStages.wrap64, Cert.RefStages.pyRem, Cert.RefStages.floorDiv,
    Cert.RefStages.flat, Cert.RefStages.bins, Cert.RefStages.binIdx, Cert.RefStages.csum, Cert.RefStages.maskW,
    Cert.RefStages.mask, Cert.RefStages.triuOnes]
  rfl

end Cert.ReferenceIdeal.RefRun

end
-- ==== Proof.LibScatterGather.lean ====
/-
  The host's scatter and gather read at an index, for the dimension numbers of a segment sum and of a row take.

  A scatter's update lands at the operand index "start + window coordinate" when that is inside the operand on every
  axis. For a segment sum over a rank-1 operand (every axis inserted, the index column read signed) update `e` lands
  at the node its index word names, or nowhere; over a rank-2 operand (rows inserted, the columns one window) update
  `(e, c)` lands at `(node, c)`. A row take's gather reads, at `(e, c)`, the operand at the row its start word names
  (read signed, clamped into the table) and column `c`. A 32-bit word read signed equals a natural below `2 ^ 31`
  exactly when the word is that natural's: the conditions are stated on the words.
-/
import Idealize.ShloMosaic.Lib.ValueIdx
import Idealize.ShloMosaic.PureOps.Contract

noncomputable section

open scoped BigOperators

namespace Cert.LibScatterGather

open Idealize.ShloMosaic Idealize.ShloMosaic.ValueIdx

/-! ## A word read signed -/

/-- A 32-bit word read signed is the natural `v < 2 ^ 31` exactly when it is `v`'s word. -/
theorem toInt_eq_natCast_iff (w : BitVec 32) (v : Nat) (hv : v < 2 ^ 31) :
    w.toInt = (v : Int) ↔ w = BitVec.ofNat 32 v := by
  have h1 : (BitVec.ofNat 32 v).toNat = v := by rw [BitVec.toNat_ofNat]; omega
  have hofnat : (BitVec.ofNat 32 v).toInt = (v : Int) := by
    rw [BitVec.toInt_eq_toNat_of_lt (by rw [h1]; omega), h1]
  constructor
  · intro h; exact BitVec.eq_of_toInt_eq (h.trans hofnat.symm)
  · rintro rfl; exact hofnat

/-- A word that names a natural below `2 ^ 31` is not negative read signed: the wrap of a negative index (add the
    table's length where the word is below zero) leaves it alone. -/
theorem wrap_select_of_word (w k : BitVec 32) (n : Nat) (hn : n < 2 ^ 31) (hw : w = BitVec.ofNat 32 n) :
    Scalar.select (IntOp.cmpi .slt w 0#32) (IntOp.addi w k) w = w := by
  have ht : w.toInt = (n : Int) := (toInt_eq_natCast_iff w n hn).2 hw
  have hslt : w.slt 0#32 = false := by
    rw [BitVec.slt_eq_decide, ht]
    simp
  have hc : IntOp.cmpi .slt w 0#32 = 0#1 := by
    show BitVec.ofBool (w.slt 0#32) = 0#1
    rw [hslt]; rfl
  rw [hc]
  exact select_zero _ _

/-! ## Where an update lands, for any dimension numbers -/

/-- An update lands at `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      have h1 := congrArg (fun f => (f a).val) hf
      simp only at h1
      have h0 := (h a).1
      omega
    · intro hall
      funext a
      apply Fin.ext
      simp only
      rw [hall a]
      exact Int.toNat_natCast _
  · rename_i h
    constructor
    · intro h'; cases h'
    · intro hall
      exfalso
      apply h
      intro a
      rw [hall a]
      exact ⟨Int.natCast_nonneg _, by exact_mod_cast (i a).isLt⟩

/-! ## The segment sum over a rank-1 operand -/

/-- A segment sum's dimension numbers over an operand `[N]`, an index column `[E, 1]` and updates `[E]`. -/
abbrev scatter1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands at node `v` exactly when its index word, read signed, is `v`. -/
theorem scatter1_resultIdx?_iff_toInt {N E w : Nat} (wf : ScatterDims.WF ⟨1, ![N]⟩ ⟨2, ![E, 1]⟩ ⟨1, ![E]⟩ [] [0] [0] 1)
    (idx : IVec ⟨2, ![E, 1]⟩ w) (e : Fin E) (v : Fin N) :
    (scatter1Dims N E wf).resultIdx? (ix1 e) idx = some (ix1 v) ↔ (idx (ix2 e 0)).toInt = (v.val : Int) := by
  have hsi : (scatter1Dims N E wf).siIdx (ix1 e) ⟨List.idxOf (0 : Fin 1) (scatter1Dims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  have hstart : (scatter1Dims N E wf).start (ix1 e) idx 0 = (idx (ix2 e 0)).toInt := by
    unfold ScatterDims.start
    rw [dif_pos (show (0 : Fin 1) ∈ (scatter1Dims N E wf).scatterDimsToOperandDims from List.mem_singleton.mpr rfl), hsi]
  have hwin : (scatter1Dims N E wf).window (ix1 e) 0 = 0 := by
    unfold ScatterDims.window
    rw [dif_neg (by simp [Shape.kept])]
  rw [resultIdx?_eq_some_iff]
  constructor
  · intro h
    have h0 := h 0
    rw [hstart, hwin] at h0
    simp only [Nat.cast_zero, add_zero] at h0
    exact h0
  · intro h a
    obtain rfl : a = 0 := Subsingleton.elim _ _
    rw [hstart, hwin]
    simp only [Nat.cast_zero, add_zero]
    exact h

/-- Update `e` lands at node `v` exactly when its index word is `v`'s word. -/
theorem scatter1_resultIdx?_iff {N E : Nat} (hN : N ≤ 2 ^ 31) (wf : ScatterDims.WF ⟨1, ![N]⟩ ⟨2, ![E, 1]⟩ ⟨1, ![E]⟩ [] [0] [0] 1)
    (idx : IVec ⟨2, ![E, 1]⟩ 32) (e : Fin E) (v : Fin N) :
    (scatter1Dims N E wf).resultIdx? (ix1 e) idx = some (ix1 v) ↔ idx (ix2 e 0) = BitVec.ofNat 32 v.val := by
  rw [scatter1_resultIdx?_iff_toInt]
  exact toInt_eq_natCast_iff _ _ (by have := v.isLt; omega)

/-- The accumulating scatter over the extended reals, read at node `v`: the operand there plus the updates of the
    edges whose index word is `v`'s. -/
theorem hostScatterAdd1_apply {N E : Nat} (hN : N ≤ 2 ^ 31) (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal) (v : Fin N) :
    Ideal.hostScatterAdd (scatter1Dims N E wf) x idx upd (ix1 v)
      = x (ix1 v) + ∑ e ∈ Finset.univ.filter (fun e : Fin E => idx (ix2 e 0) = BitVec.ofNat 32 v.val), upd (ix1 e) := by
  unfold Ideal.hostScatterAdd
  congr 1
  refine Finset.sum_bij' (fun j _ => (j 0 : Fin E)) (fun e _ => ix1 e) ?_ ?_ ?_ ?_ ?_
  · intro j hj
    have h := (Finset.mem_filter.1 hj).2
    rw [eq_ix1 j] at h
    exact Finset.mem_filter.2 ⟨Finset.mem_univ _, (scatter1_resultIdx?_iff hN wf idx (j 0) v).1 h⟩
  · intro e he
    exact Finset.mem_filter.2 ⟨Finset.mem_univ _, (scatter1_resultIdx?_iff hN wf idx e v).2 (Finset.mem_filter.1 he).2⟩
  · intro j _; exact (eq_ix1 j).symm
  · intro e _; rfl
  · intro j _; exact congrArg upd (eq_ix1 j)

/-! ## The segment sum over a rank-2 operand -/

/-- A segment sum's dimension numbers over an operand `[N, D]`, an index column `[E, 1]` and updates `[E, D]`. -/
abbrev scatter2Dims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Update `(e, c)` lands at `(v, c')` exactly when its index word, read signed, is `v` and the columns agree. -/
theorem scatter2_resultIdx?_iff_toInt {N D E w : Nat} (wf : ScatterDims.WF ⟨2, ![N, D]⟩ ⟨2, ![E, 1]⟩ ⟨2, ![E, D]⟩ [1] [0] [0] 1)
    (idx : IVec ⟨2, ![E, 1]⟩ w) (e : Fin E) (c : Fin D) (v : Fin N) (c' : Fin D) :
    (scatter2Dims N D E wf).resultIdx? (ix2 e c) idx = some (ix2 v c') ↔ (idx (ix2 e 0)).toInt = (v.val : Int) ∧ c = c' := by
  have hsi : (scatter2Dims N D E wf).siIdx (ix2 e c) ⟨List.idxOf (0 : Fin 2) (scatter2Dims N D E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  have hstart0 : (scatter2Dims N D E wf).start (ix2 e c) idx 0 = (idx (ix2 e 0)).toInt := by
    unfold ScatterDims.start
    rw [dif_pos (show (0 : Fin 2) ∈ (scatter2Dims N D E wf).scatterDimsToOperandDims from List.mem_singleton.mpr rfl), hsi]
  have hstart1 : (scatter2Dims N D E wf).start (ix2 e c) idx 1 = 0 := by
    unfold ScatterDims.start
    rw [dif_neg (by simp)]
  have hwin0 : (scatter2Dims N D E wf).window (ix2 e c) 0 = 0 := by
    unfold ScatterDims.window
    rw [dif_neg (by simp [Shape.kept])]
  have hwin1 : (scatter2Dims N D E wf).window (ix2 e c) 1 = c.val := by
    unfold ScatterDims.window
    rw [dif_pos (by simp [Shape.kept])]
    rfl
  rw [resultIdx?_eq_some_iff]
  constructor
  · intro h
    have h0 := h 0
    have h1 := h 1
    rw [hstart0, hwin0] at h0
    rw [hstart1, hwin1] at h1
    simp only [Nat.cast_zero, add_zero] at h0
    simp only [zero_add] at h1
    exact ⟨h0, Fin.ext (by exact_mod_cast h1)⟩
  · rintro ⟨h, rfl⟩ a
    match a with
    | ⟨0, _⟩ =>
      show (scatter2Dims N D E wf).start (ix2 e c) idx 0 + ((scatter2Dims N D E wf).window (ix2 e c) 0 : Int) = (v.val : Int)
      rw [hstart0, hwin0]
      simp only [Nat.cast_zero, add_zero]
      exact h
    | ⟨1, _⟩ =>
      show (scatter2Dims N D E wf).start (ix2 e c) idx 1 + ((scatter2Dims N D E wf).window (ix2 e c) 1 : Int) = (c.val : Int)
      rw [hstart1, hwin1]
      simp only [zero_add]

/-- Update `(e, c)` lands at `(v, c')` exactly when its index word is `v`'s word and the columns agree. -/
theorem scatter2_resultIdx?_iff {N D E : Nat} (hN : N ≤ 2 ^ 31) (wf : ScatterDims.WF ⟨2, ![N, D]⟩ ⟨2, ![E, 1]⟩ ⟨2, ![E, D]⟩ [1] [0] [0] 1)
    (idx : IVec ⟨2, ![E, 1]⟩ 32) (e : Fin E) (c : Fin D) (v : Fin N) (c' : Fin D) :
    (scatter2Dims N D E wf).resultIdx? (ix2 e c) idx = some (ix2 v c') ↔ idx (ix2 e 0) = BitVec.ofNat 32 v.val ∧ c = c' := by
  rw [scatter2_resultIdx?_iff_toInt, toInt_eq_natCast_iff _ _ (by have := v.isLt; omega)]

/-- The accumulating scatter over the extended reals, read at `(v, c)`: the operand there plus column `c` of the
    updates of the edges whose index word is `v`'s. -/
theorem hostScatterAdd2_apply {N D E : Nat} (hN : N ≤ 2 ^ 31) (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ 32) (upd : (⟨2, ![E, D]⟩ : Shape).Idx → EReal)
    (v : Fin N) (c : Fin D) :
    Ideal.hostScatterAdd (scatter2Dims N D E wf) x idx upd (ix2 v c)
      = x (ix2 v c) + ∑ e ∈ Finset.univ.filter (fun e : Fin E => idx (ix2 e 0) = BitVec.ofNat 32 v.val), upd (ix2 e c) := by
  unfold Ideal.hostScatterAdd
  congr 1
  have hmem : ∀ j : (⟨2, ![E, D]⟩ : Shape).Idx, (scatter2Dims N D E wf).resultIdx? j idx = some (ix2 v c) →
      idx (ix2 (j 0 : Fin E) 0) = BitVec.ofNat 32 v.val ∧ (j 1 : Fin D) = c := by
    intro j h
    rw [eq_ix2 j] at h
    exact (scatter2_resultIdx?_iff hN wf idx (j 0) (j 1) v c).1 h
  refine Finset.sum_bij' (fun j _ => (j 0 : Fin E)) (fun e _ => ix2 e c) ?_ ?_ ?_ ?_ ?_
  · intro j hj
    exact Finset.mem_filter.2 ⟨Finset.mem_univ _, (hmem j (Finset.mem_filter.1 hj).2).1⟩
  · intro e he
    exact Finset.mem_filter.2 ⟨Finset.mem_univ _,
      (scatter2_resultIdx?_iff hN wf idx e c v c).2 ⟨(Finset.mem_filter.1 he).2, rfl⟩⟩
  · intro j hj
    have hc := (hmem j (Finset.mem_filter.1 hj).2).2
    exact (congrArg (fun q => ix2 (j 0 : Fin E) q) hc.symm).trans (eq_ix2 j).symm
  · intro e _; rfl
  · intro j hj
    have hc := (hmem j (Finset.mem_filter.1 hj).2).2
    exact congrArg upd ((eq_ix2 j).trans (congrArg (fun q => ix2 (j 0 : Fin E) q) hc))

/-! ## The row take -/

/-- A row take's dimension numbers over a table `[N, D]`, a start column `[E, 1]` and a result `[E, D]`. -/
abbrev rowTakeDims (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The take reads, at `(e, c)`, row "start word read signed, clamped into the table" and column `c`. -/
theorem rowTake_operandIdx {N D E w : Nat} (hN : 0 < N) (wf : GatherDims.WF ⟨2, ![N, D]⟩ ⟨2, ![E, 1]⟩ ⟨2, ![E, D]⟩ [1] [0] [] [0] [] 1 ![1, D])
    (idx : IVec ⟨2, ![E, 1]⟩ w) (e : Fin E) (c : Fin D) :
    (rowTakeDims N D E wf).operandIdx (ix2 e c) idx = ix2 ⟨min (idx (ix2 e 0)).toInt.toNat (N - 1), by omega⟩ c := by
  have hsi : (rowTakeDims N D E wf).siIdx (ix2 e c) ⟨List.idxOf (0 : Fin 2) (rowTakeDims N D E wf).startIndexMap,
      List.idxOf_lt_length_iff.2 (List.mem_singleton.mpr rfl)⟩ = ix2 e 0 := by
    funext b; refine Fin.ext ?_
    match b with
    | ⟨0, _⟩ => rfl
    | ⟨1, _⟩ => rfl
  have hb : ∀ a, (rowTakeDims N D E wf).batchCoord (ix2 e c) a = 0 := fun a =>
    GatherDims.batchCoord_eq_zero _ _ _ List.not_mem_nil
  have h0 : ((rowTakeDims N D E wf).operandIdx (ix2 e c) idx 0).val = min (idx (ix2 e 0)).toInt.toNat (N - 1) := by
    show (rowTakeDims N D E wf).start (ix2 e c) idx 0 + (rowTakeDims N D E wf).batchCoord (ix2 e c) 0
      + (rowTakeDims N D E wf).offCoord (ix2 e c) 0 = _
    rw [hb, GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D E wf).startIndexMap from List.mem_singleton.mpr rfl), hsi]
    rfl
  have h1 : ((rowTakeDims N D E wf).operandIdx (ix2 e c) idx 1).val = c.val := by
    show (rowTakeDims N D E wf).start (ix2 e c) idx 1 + (rowTakeDims N D E wf).batchCoord (ix2 e c) 1
      + (rowTakeDims N D E wf).offCoord (ix2 e c) 1 = _
    have hs : (rowTakeDims N D E wf).start (ix2 e c) idx 1 = 0 := by
      unfold GatherDims.start
      rw [dif_neg (by simp)]
    have ho : (rowTakeDims N D E wf).offCoord (ix2 e c) 1 = c.val := by
      unfold GatherDims.offCoord
      rw [dif_pos (by simp [GatherDims.sKept, Shape.kept])]
      rfl
    rw [hb, hs, ho]
    simp only [Nat.zero_add]
  funext a
  refine Fin.ext ?_
  match a with
  | ⟨0, _⟩ => exact h0
  | ⟨1, _⟩ => exact h1

/-- Where the start word names a row of the table, the take reads that row. -/
theorem rowTake_apply_of_word {α : Type} {N D E : Nat} (hN : N ≤ 2 ^ 31)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (e : Fin E) (c : Fin D) (v : Fin N)
    (hv : idx (ix2 e 0) = BitVec.ofNat 32 v.val) :
    Host.gather (rowTakeDims N D E wf) x idx (ix2 e c) = x (ix2 v c) := by
  have hvN : v.val < 2 ^ 31 := by have := v.isLt; omega
  have ht : (idx (ix2 e 0)).toInt = (v.val : Int) := (toInt_eq_natCast_iff _ _ hvN).2 hv
  unfold Host.gather
  rw [rowTake_operandIdx (by have := v.isLt; omega) wf idx e c]
  congr 2
  apply Fin.ext
  simp only [ht, Int.toNat_natCast]
  have := v.isLt
  omega

end Cert.LibScatterGather

end
-- ==== Proof.LibHostInt.lean ====
/-
  Three host operations read at an index, over natural-number models of their 32-bit words.

  A column take: the gather that reads, at `(n, k)`, the operand's row `n` at the column its `k`-th start word
  names (read signed, clamped so that the one-column slice fits: the identity on a word that names a column).
  A count: the scatter that adds a one into the bin each index word names, read at a bin, is the number of index
  words naming that bin (a word naming no bin is dropped). A running sum: the windowed reduction by addition with
  a window as long as the operand, padded one less than that below, read at `k`, is the sum of the elements up to
  and including `k`. Sums of words are sums of naturals, since `BitVec.ofNat 32` is additive.
-/
import Idealize.ShloMosaic.Lib.ValueIdx
import Idealize.ShloMosaic.PureOps.Contract
import Idealize.ShloMosaic.PureOps.ShapeOps
import proofs.«412582_j22814866277106_3_alg».proof.Proof.LibScatterGather

noncomputable section

open scoped BigOperators

namespace Cert.LibHostInt

open Idealize.ShloMosaic Idealize.ShloMosaic.ValueIdx

/-! ## The column take -/

/-- A column take's dimension numbers over a table `[R, C]`, a start column `[K, 1]` and a result `[R, K]`. -/
abbrev colTakeDims (R C K : Nat) (wf : GatherDims.WF ⟨2, ![R, C]⟩ ⟨2, ![K, 1]⟩ ⟨2, ![R, K]⟩ [0] [1] [] [1] [] 1 ![R, 1]) :
    GatherDims ⟨2, ![R, C]⟩ ⟨2, ![K, 1]⟩ ⟨2, ![R, K]⟩ where
  offsetDims := [0]
  collapsedSliceDims := [1]
  operandBatchingDims := []
  startIndicesBatchingDims := []
  startIndexMap := [1]
  indexVectorDim := 1
  sliceSizes := ![R, 1]
  wf := wf

/-- The take reads, at `(n, k)`, row `n` and column "start word `k` read signed, clamped into the table". -/
theorem colTake_operandIdx {R C K w : Nat} (hC : 0 < C)
    (wf : GatherDims.WF ⟨2, ![R, C]⟩ ⟨2, ![K, 1]⟩ ⟨2, ![R, K]⟩ [0] [1] [] [1] [] 1 ![R, 1])
    (idx : IVec ⟨2, ![K, 1]⟩ w) (n : Fin R) (k : Fin K) :
    (colTakeDims R C K wf).operandIdx (ix2 n k) idx = ix2 n ⟨min (idx (ix2 k 0)).toInt.toNat (C - 1), by omega⟩ := by
  have hsi : (colTakeDims R C K wf).siIdx (ix2 n k) ⟨List.idxOf (1 : Fin 2) (colTakeDims R C K wf).startIndexMap,
      List.idxOf_lt_length_iff.2 (List.mem_singleton.mpr rfl)⟩ = ix2 k 0 := by
    funext b; refine Fin.ext ?_
    match b with
    | ⟨0, _⟩ => rfl
    | ⟨1, _⟩ => rfl
  have hb : ∀ a, (colTakeDims R C K wf).batchCoord (ix2 n k) a = 0 := fun a =>
    GatherDims.batchCoord_eq_zero _ _ _ List.not_mem_nil
  have h0 : ((colTakeDims R C K wf).operandIdx (ix2 n k) idx 0).val = n.val := by
    show (colTakeDims R C K wf).start (ix2 n k) idx 0 + (colTakeDims R C K wf).batchCoord (ix2 n k) 0
      + (colTakeDims R C K wf).offCoord (ix2 n k) 0 = _
    have hs : (colTakeDims R C K wf).start (ix2 n k) idx 0 = 0 := by
      unfold GatherDims.start
      rw [dif_neg (by simp)]
    have ho : (colTakeDims R C K wf).offCoord (ix2 n k) 0 = n.val := by
      unfold GatherDims.offCoord
      rw [dif_pos (by simp [GatherDims.sKept, Shape.kept])]
      rfl
    rw [hb, hs, ho]
    simp only [Nat.zero_add]
  have h1 : ((colTakeDims R C K wf).operandIdx (ix2 n k) idx 1).val = min (idx (ix2 k 0)).toInt.toNat (C - 1) := by
    show (colTakeDims R C K wf).start (ix2 n k) idx 1 + (colTakeDims R C K wf).batchCoord (ix2 n k) 1
      + (colTakeDims R C K wf).offCoord (ix2 n k) 1 = _
    rw [hb, GatherDims.offCoord_eq_zero _ _ _ (fun h => ((GatherDims.mem_sKept _ _).mp h).1 (List.mem_singleton.mpr rfl))]
    simp only [Nat.add_zero]
    unfold GatherDims.start
    rw [dif_pos (show (1 : Fin 2) ∈ (colTakeDims R C K wf).startIndexMap from List.mem_singleton.mpr rfl), hsi]
    rfl
  funext a
  refine Fin.ext ?_
  match a with
  | ⟨0, _⟩ => exact h0
  | ⟨1, _⟩ => exact h1

/-- Where every start word names a column of the table, the take reads, at `(n, k)`, row `n` at the column word
    `k` names. -/
theorem gather_col_apply {α : Type} {R C K : ℕ} (hC : 0 < C)
    (wf : GatherDims.WF ⟨2, ![R, C]⟩ ⟨2, ![K, 1]⟩ ⟨2, ![R, K]⟩ [0] [1] [] [1] [] 1 ![R, 1])
    (x : (⟨2, ![R, C]⟩ : Shape).Idx → α) (idx : IVec ⟨2, ![K, 1]⟩ 32) (e : Fin K → ℕ)
    (he : ∀ k, idx (ix2 k 0) = BitVec.ofNat 32 (e k)) (hlt : ∀ k, e k < C) (hC31 : C ≤ 2 ^ 31) (n : Fin R) (k : Fin K) :
    Host.gather (colTakeDims R C K wf) x idx (ix2 n k) = x (ix2 n ⟨e k, hlt k⟩) := by
  have hek : e k < 2 ^ 31 := lt_of_lt_of_le (hlt k) hC31
  have ht : (idx (ix2 k 0)).toInt = (e k : Int) := (LibScatterGather.toInt_eq_natCast_iff _ _ hek).2 (he k)
  unfold Host.gather
  rw [colTake_operandIdx hC wf idx n k]
  congr 2
  apply Fin.ext
  simp only [ht, Int.toNat_natCast]
  have := hlt k
  omega

/-! ## Words of naturals, and a fold that adds words -/

/-- Two naturals below `2 ^ 32` with the same 32-bit word are equal. -/
theorem ofNat32_inj {m n : ℕ} (hm : m < 2 ^ 32) (hn : n < 2 ^ 32) (h : BitVec.ofNat 32 m = BitVec.ofNat 32 n) : m = n := by
  have h' := congrArg BitVec.toNat h
  rw [BitVec.toNat_ofNat, BitVec.toNat_ofNat, Nat.mod_eq_of_lt hm, Nat.mod_eq_of_lt hn] at h'
  exact h'

/-- A left fold whose every step adds, to what `rd` reads off the accumulator, the word of a natural that depends on
    the listed element only: `rd` of the result is `rd` of the start plus the word of the naturals' sum. -/
theorem foldl_read_add_ofNat {ι β : Type} (step : β → ι → β) (rd : β → BitVec 32) (c : ι → ℕ)
    (hstep : ∀ r n, rd (step r n) = rd r + BitVec.ofNat 32 (c n)) (L : List ι) (r : β) :
    rd (L.foldl step r) = rd r + BitVec.ofNat 32 (L.map c).sum := by
  induction L generalizing r with
  | nil =>
    show rd r = rd r + 0#32
    rw [BitVec.add_zero]
  | cons n L ih =>
    rw [List.foldl_cons, ih, hstep, List.map_cons, List.sum_cons, BitVec.ofNat_add, BitVec.add_assoc]

/-! ## A rank-1 shape's row-major positions -/

/-- The coordinate of the rank-1 index at row-major position `m`. -/
def coord1 (n : ℕ) (m : Fin (⟨1, ![n]⟩ : Shape).numel) : Fin n := (⟨1, ![n]⟩ : Shape).rowMajor.symm m 0

/-- The index at row-major position `m` is the one with that coordinate. -/
theorem rowMajor_symm_eq_ix1 (n : ℕ) (m : Fin (⟨1, ![n]⟩ : Shape).numel) :
    (⟨1, ![n]⟩ : Shape).rowMajor.symm m = ix1 (coord1 n m) := eq_ix1 (n := n) _

/-- Positions and coordinates correspond one to one. -/
theorem rowMajor1_bijective (n : ℕ) : Function.Bijective (coord1 n) := by
  constructor
  · intro m m' h
    apply (⟨1, ![n]⟩ : Shape).rowMajor.symm.injective
    rw [rowMajor_symm_eq_ix1, rowMajor_symm_eq_ix1, h]
  · intro p
    refine ⟨(⟨1, ![n]⟩ : Shape).rowMajor (ix1 p), ?_⟩
    show (⟨1, ![n]⟩ : Shape).rowMajor.symm ((⟨1, ![n]⟩ : Shape).rowMajor (ix1 p)) 0 = p
    rw [Equiv.symm_apply_apply]
    rfl

/-! ## The count -/

/-- The scatter that adds a one into the bin each index word names, over bins of zeros, read at bin `b`: the number of
    index words that name `b`. -/
theorem scatter_ones_count {B P : ℕ} (hB : B ≤ 2 ^ 31) (wf : ScatterDims.WF ⟨1, ![B]⟩ ⟨2, ![P, 1]⟩ ⟨1, ![P]⟩ [] [0] [0] 1)
    (idx : IVec ⟨2, ![P, 1]⟩ 32) (e : Fin P → ℕ) (he : ∀ p, idx (ix2 p 0) = BitVec.ofNat 32 (e p)) (hlt : ∀ p, e p < 2 ^ 31)
    (x : IVec ⟨1, ![B]⟩ 32) (hx : ∀ b, x (ix1 b) = 0#32) (upd : IVec ⟨1, ![P]⟩ 32) (hupd : ∀ p, upd (ix1 p) = 1#32) (b : Fin B) :
    Host.scatter (LibScatterGather.scatter1Dims B P wf) IntOp.addi x idx upd (ix1 b)
      = BitVec.ofNat 32 ((Finset.univ.filter fun p : Fin P => e p = b.val).card) := by
  -- update `p` lands at bin `v` exactly when the natural its word models is `v`
  have hiff : ∀ (p : Fin P) (v : Fin B),
      (LibScatterGather.scatter1Dims B P wf).resultIdx? (ix1 p) idx = some (ix1 v) ↔ e p = v.val := by
    intro p v
    rw [LibScatterGather.scatter1_resultIdx?_iff hB wf idx p v, he]
    exact ⟨fun h => ofNat32_inj (by have := hlt p; omega) (by have := v.isLt; omega) h, fun h => by rw [h]⟩
  unfold Host.scatter
  refine (foldl_read_add_ofNat _ (fun r : IVec ⟨1, ![B]⟩ 32 => r (ix1 b))
    (fun n => if e (coord1 P n) = b.val then 1 else 0) ?_ _ _).trans ?_
  · -- one step, read at bin `b`: plus one exactly when the update's word names `b`
    intro r n
    have hu1 : upd ((⟨1, ![P]⟩ : Shape).rowMajor.symm n) = 1#32 :=
      (congrArg upd (rowMajor_symm_eq_ix1 P n)).trans (hupd _)
    generalize hres : (LibScatterGather.scatter1Dims B P wf).resultIdx? ((⟨1, ![P]⟩ : Shape).rowMajor.symm n) idx = o
    rw [rowMajor_symm_eq_ix1] at hres
    cases o with
    | none =>
      have hne : ¬ e (coord1 P n) = b.val := fun h => by
        have h2 := (hiff (coord1 P n) b).2 h
        rw [hres] at h2
        cases h2
      rw [if_neg hne]
      show r (ix1 b) = r (ix1 b) + 0#32
      rw [BitVec.add_zero]
    | some i =>
      show (if ix1 b = i then IntOp.addi (r i) (upd ((⟨1, ![P]⟩ : Shape).rowMajor.symm n)) else r (ix1 b)) = _
      by_cases hi : ix1 b = i
      · subst hi
        rw [if_pos rfl, hu1, if_pos ((hiff (coord1 P n) b).1 hres)]
        rfl
      · have hne : ¬ e (coord1 P n) = b.val := fun h => by
          have h2 := (hiff (coord1 P n) b).2 h
          rw [hres] at h2
          exact hi (Option.some.inj h2).symm
        rw [if_neg hi, if_neg hne]
        show r (ix1 b) = r (ix1 b) + 0#32
        rw [BitVec.add_zero]
  · -- the ones add up to the number of words that name `b`
    show x (ix1 b) + _ = _
    rw [hx, BitVec.zero_add]
    congr 1
    rw [← Fin.sum_univ_def, (rowMajor1_bijective P).sum_comp (fun p : Fin P => if e p = b.val then 1 else 0),
      Finset.card_filter]

/-! ## The running sum -/

/-- The window positions that fall inside the operand at result `k` are those at `N - 1 - k` and after; position `m`
    reads element `k + m - (N - 1)`: re-indexed, the elements up to and including `k`. -/
theorem sum_window_eq_sum_le {N : ℕ} (a : Fin N → ℕ) (k : Fin N) :
    (∑ m : Fin N, if N - 1 ≤ k.val + m.val then
        a ⟨k.val + m.val - (N - 1), by have := k.isLt; have := m.isLt; omega⟩ else 0)
      = ∑ q ∈ Finset.univ.filter (fun q : Fin N => q.val ≤ k.val), a q := by
  rw [← Finset.sum_filter]
  refine Finset.sum_bij'
    (fun m _ => (⟨k.val + m.val - (N - 1), by have := k.isLt; have := m.isLt; omega⟩ : Fin N))
    (fun q hq => (⟨q.val + (N - 1) - k.val, by
      have := (Finset.mem_filter.1 hq).2; have := k.isLt; have := q.isLt; omega⟩ : Fin N)) ?_ ?_ ?_ ?_ ?_
  · intro m hm
    have h1 := (Finset.mem_filter.1 hm).2
    refine Finset.mem_filter.2 ⟨Finset.mem_univ _, ?_⟩
    show k.val + m.val - (N - 1) ≤ k.val
    have := m.isLt
    omega
  · intro q hq
    have h1 := (Finset.mem_filter.1 hq).2
    refine Finset.mem_filter.2 ⟨Finset.mem_univ _, ?_⟩
    show N - 1 ≤ k.val + (q.val + (N - 1) - k.val)
    omega
  · intro m hm
    have h1 := (Finset.mem_filter.1 hm).2
    apply Fin.ext
    show k.val + m.val - (N - 1) + (N - 1) - k.val = m.val
    omega
  · intro q hq
    have h1 := (Finset.mem_filter.1 hq).2
    apply Fin.ext
    show k.val + (q.val + (N - 1) - k.val) - (N - 1) = q.val
    have := k.isLt
    omega
  · intro m _
    rfl

/-- The windowed reduction by addition with a window as long as the operand, stride one, padded one less than the
    window below and not above, from the initial word zero, read at `k`: the sum of the elements up to and
    including `k`. -/
theorem reduceWindow_cumsum {N : ℕ} (hN : 0 < N) (x : IVec ⟨1, ![N]⟩ 32) (a : Fin N → ℕ)
    (hx : ∀ q, x (ix1 q) = BitVec.ofNat 32 (a q)) (init : IVec ⟨0, ![]⟩ 32) (hinit : init ix0 = 0#32)
    (h : (⟨1, ![N]⟩ : Shape).ReduceWindows (![N] : Fin 1 → ℕ) ![1] ![N - 1] ![0] ⟨1, ![N]⟩)
    (hu : 0 < (⟨0, ![]⟩ : Shape).numel) (k : Fin N) :
    Host.reduceWindow IntOp.addi ![N] ![1] ![N - 1] ![0] x init h hu (ix1 k)
      = BitVec.ofNat 32 (∑ q ∈ Finset.univ.filter (fun q : Fin N => q.val ≤ k.val), a q) := by
  have hxa : ∀ i : (⟨1, ![N]⟩ : Shape).Idx, x i = BitVec.ofNat 32 (a (i 0)) := fun i =>
    (congrArg x (eq_ix1 (n := N) i)).trans (hx _)
  have hv : init (Shape.Idx.first hu) = 0#32 := (congrArg init (eq_ix0 _)).trans hinit
  unfold Host.reduceWindow
  refine (foldl_read_add_ofNat _ (fun r : BitVec 32 => r) (fun n => (fun m : Fin N => if N - 1 ≤ k.val + m.val then
        a ⟨k.val + m.val - (N - 1), by have := k.isLt; have := m.isLt; omega⟩ else 0) (coord1 N n)) ?_ _ _).trans ?_
  · -- one step: the window position's element where it is inside the operand, the initial zero where it is padding
    intro r n
    show r + _ = r + _
    congr 1
    split
    · rename_i hin
      have h0 : N - 1 ≤ k.val * 1 + (coord1 N n).val := (hin 0).1
      rw [Nat.mul_one] at h0
      rw [hxa]
      simp only [if_pos h0]
      congr 2
      apply Fin.ext
      show k.val * 1 + (coord1 N n).val - (N - 1) = _
      rw [Nat.mul_one]
    · rename_i hin
      have hneg : ¬ N - 1 ≤ k.val + (coord1 N n).val := by
        intro hc
        apply hin
        intro b
        obtain rfl : b = 0 := Subsingleton.elim _ _
        have hm : (coord1 N n).val < N := (coord1 N n).isLt
        have hk := k.isLt
        refine ⟨?_, ?_⟩
        · show N - 1 ≤ k.val * 1 + (coord1 N n).val
          rw [Nat.mul_one]; exact hc
        · show k.val * 1 + (coord1 N n).val - (N - 1) < N
          rw [Nat.mul_one]
          omega
      simp only [if_neg hneg]
      exact hv
  · -- the contributions add up to the elements up to and including `k`
    show init (Shape.Idx.first hu) + _ = _
    rw [hv, BitVec.zero_add]
    congr 1
    rw [← Fin.sum_univ_def]
    exact ((rowMajor1_bijective N).sum_comp (fun m : Fin N => if N - 1 ≤ k.val + m.val then
        a ⟨k.val + m.val - (N - 1), by have := k.isLt; have := m.isLt; omega⟩ else 0)).trans (sum_window_eq_sum_le a k)

end Cert.LibHostInt

end
-- ==== Proof.TriuCount.lean ====
/-
  Counting the upper-triangular flat positions of a 64 × 64 matrix.

  Flat position `p` (0 ≤ p < 4096) is row `p / 64`, column `p % 64`; it lies in the upper triangle, diagonal
  included, when `p / 64 ≤ p % 64`. The inclusive running count `cnt p` of such positions up to `p` has the
  closed form `off i + (j - i + 1)` for `i = p / 64 ≤ j = p % 64`, and `off i` below the diagonal. From it,
  `cnt (pos k) = k + 1`; as `cnt` is monotone and jumps by one exactly at `pos k`, the positions with
  `cnt p ≤ k` are exactly those before `pos k`, so there are `pos k` of them. Splitting that set by the value
  of `cnt` writes the same number as a sum of bin sizes.
-/
import proofs.«412582_j22814866277106_3_alg».proof.Proof.TriuSpec
import Mathlib.Data.Finset.Card
import Mathlib.Data.Finset.Range
import Mathlib.Data.Finset.Filter
import Mathlib.Algebra.BigOperators.Group.Finset.Basic

namespace Cert.Triu

/-- inclusive running count of upper-triangular flat positions up to p -/
def cnt (p : ℕ) : ℕ := ((Finset.range (p + 1)).filter fun q => q / 64 ≤ q % 64).card

/-- The closed form of the running count on `p < 4096`: the `off i` entries of the rows before row
    `i = p / 64`, plus the entries `(i, i), …, (i, j)` of row `i` up to column `j = p % 64`. -/
def cntF (p : ℕ) : ℕ := off (p / 64) + (if p / 64 ≤ p % 64 then p % 64 - p / 64 + 1 else 0)

/-- One more position adds one to the count exactly when it is upper-triangular. -/
theorem cnt_succ (p : ℕ) : cnt (p + 1) = cnt p + (if (p + 1) / 64 ≤ (p + 1) % 64 then 1 else 0) := by
  unfold cnt
  rw [Finset.range_add_one (n := p + 1), Finset.filter_insert]
  split
  · rw [Finset.card_insert_of_notMem]
    simp
  · simp

theorem cnt_zero : cnt 0 = 1 := by decide

theorem cnt_mono {p q : ℕ} (h : p ≤ q) : cnt p ≤ cnt q :=
  Finset.card_le_card (Finset.filter_subset_filter _ (Finset.range_mono (Nat.succ_le_succ h)))

set_option maxRecDepth 100000 in
private theorem all_succ : (List.range 4095).all (fun p => decide
    (cntF (p + 1) = cntF p + (if (p + 1) / 64 ≤ (p + 1) % 64 then 1 else 0))) = true := by decide +kernel

/-- The closed form obeys the same one-step recurrence. -/
theorem cntF_succ (p : ℕ) (hp : p < 4095) :
    cntF (p + 1) = cntF p + (if (p + 1) / 64 ≤ (p + 1) % 64 then 1 else 0) :=
  of_decide_eq_true (List.all_eq_true.mp all_succ p (List.mem_range.mpr hp))

theorem cnt_eq_cntF (p : ℕ) (hp : p < 4096) : cnt p = cntF p := by
  induction p with
  | zero => rw [cnt_zero]; decide
  | succ p ih =>
    rw [cnt_succ, ih (by omega)]
    exact (cntF_succ p (by omega)).symm

set_option maxRecDepth 100000 in
private theorem all_pos : (List.range 2080).all (fun k => decide (cntF (pos k) = k + 1)) = true := by
  decide +kernel

theorem cntF_pos (k : ℕ) (hk : k < 2080) : cntF (pos k) = k + 1 :=
  of_decide_eq_true (List.all_eq_true.mp all_pos k (List.mem_range.mpr hk))

/-- Entry `k` of the triangle is the `(k + 1)`-st upper-triangular position. -/
theorem cnt_pos_eq (k : ℕ) (hk : k < 2080) : cnt (pos k) = k + 1 := by
  rw [cnt_eq_cntF _ (pos_lt k hk)]
  exact cntF_pos k hk

theorem cnt_le (p : ℕ) (hp : p < 4096) : cnt p ≤ 2080 := by
  have h := cnt_mono (show p ≤ 4095 by omega)
  rw [cnt_eq_cntF 4095 (by omega)] at h
  exact h.trans (by decide)

theorem cnt_pos (p : ℕ) : 1 ≤ cnt p := by
  have h := cnt_mono (Nat.zero_le p)
  rwa [cnt_zero] at h

/-- A position has running count at most `k` exactly when it comes before entry `k`'s position. -/
theorem cnt_le_iff (k : ℕ) (hk : k < 2080) (p : ℕ) : cnt p ≤ k ↔ p < pos k := by
  constructor
  · intro h
    by_contra hn
    have h1 := cnt_mono (Nat.le_of_not_lt hn)
    rw [cnt_pos_eq k hk] at h1
    omega
  · intro h
    obtain ⟨q, hq⟩ : ∃ q, pos k = q + 1 := ⟨pos k - 1, by omega⟩
    have h1 : cnt p ≤ cnt q := cnt_mono (by omega)
    have h2 := cnt_succ q
    rw [← hq, cnt_pos_eq k hk, if_pos (pos_triu k hk)] at h2
    omega

theorem card_cnt_le (k : ℕ) (hk : k < 2080) :
    ((Finset.range 4096).filter fun p => cnt p ≤ k).card = pos k := by
  have hlt : pos k < 4096 := pos_lt k hk
  have : ((Finset.range 4096).filter fun p => cnt p ≤ k) = Finset.range (pos k) := by
    ext p
    simp only [Finset.mem_filter, Finset.mem_range, cnt_le_iff k hk]
    omega
  rw [this, Finset.card_range]

/-- the same count as a sum of indicator bins, the form the scatter and the second running sum produce:
    bin b holds the number of positions whose running count is exactly b -/
theorem sum_bins (k : ℕ) (hk : k < 2080) :
    (∑ b ∈ Finset.range (k + 1), ((Finset.range 4096).filter fun p => cnt p = b).card) = pos k := by
  rw [← card_cnt_le k hk]
  rw [Finset.card_eq_sum_card_fiberwise (f := cnt) (t := Finset.range (k + 1))
    (s := (Finset.range 4096).filter fun p => cnt p ≤ k)]
  · refine Finset.sum_congr rfl fun b hb => ?_
    rw [Finset.filter_filter]
    congr 1
    ext p
    simp only [Finset.mem_filter, Finset.mem_range] at hb ⊢
    constructor
    · rintro ⟨hp, hb'⟩; exact ⟨hp, by omega, hb'⟩
    · rintro ⟨hp, _, hb'⟩; exact ⟨hp, hb'⟩
  · intro p hp
    simp only [Finset.coe_filter, Finset.mem_range, Set.mem_setOf_eq] at hp
    simp only [Finset.coe_range, Set.mem_Iio]
    omega

end Cert.Triu
-- ==== Proof.RefIndex.lean ====
/-
  The reference's index pipeline read at an index, at the ideal values: the flat positions of the upper triangle of a
  64 × 64 matrix, found by counting: a running count of the set entries, one added into the bin each count names, and a
  running sum of the bins.

  The matrix of ones with its lower part zeroed is 0 at (i, j) where j < i (the signed comparison "i - 1 ≥ j" of two
  words below 64) and 1 elsewhere; the mask is "that entry is not 0", so it is set exactly where i ≤ j. Flattened row by
  row, position p = 64 i + j carries the mask of (p / 64, p % 64). The inclusive running count of set positions up to p
  is `cnt p`: the number of q ≤ p with q / 64 ≤ q % 64, a sum of indicators. Since 1 ≤ cnt p ≤ 2080 < 2³¹, clipping
  the count below at zero and wrapping a negative count change nothing. Bin b then receives a one for every position
  whose count is b, and the inclusive running sum of the bins up to k is the position of the k-th set entry.
-/
import proofs.«412582_j22814866277106_3_alg».proof.Proof.RefStages
import proofs.«412582_j22814866277106_3_alg».proof.Proof.TriuSpec
import proofs.«412582_j22814866277106_3_alg».proof.Proof.TriuCount
import proofs.«412582_j22814866277106_3_alg».proof.Proof.LibHostInt
import proofs.«412582_j22814866277106_3_alg».proof.Proof.LibScatterGather
import Idealize.ShloMosaic.Lib.IdealHost
import Idealize.ShloMosaic.Lib.ValueLayout
import Mathlib.Algebra.BigOperators.Group.Finset.Basic
import Mathlib.Algebra.BigOperators.Group.Finset.Piecewise
import Mathlib.Data.Finset.Card

noncomputable section

open scoped BigOperators

namespace Cert.RefIndex

open Cert.RefStages Cert.Triu Cert.LibHostInt Idealize.ShloMosaic Idealize.ShloMosaic.ValueIdx

/-! ## The mask -/

/-- On words below 64, the signed comparison "i - 1 ≥ j" holds exactly where j < i. -/
private theorem below_diag : ∀ i j : Fin 64,
    IntOp.cmpi .sge (IntOp.addi (BitVec.ofNat 32 i.val) 4294967295#32) (BitVec.ofNat 32 j.val)
      = if j.val < i.val then 1#1 else 0#1 := by
  decide +kernel

/-- The matrix of ones with its lower part zeroed: 0 strictly below the diagonal, 1 on and above it. -/
theorem triuOnes_apply (i j : Fin 64) : triuOnes (F := Ideal) (ix2 i j) = if j.val < i.val then (0 : EReal) else 1 := by
  unfold triuOnes
  rw [select_apply, broadcastInDim_scalar_apply, broadcastInDim_scalar_apply, constant_apply, constant_apply,
    Ideal.ofBits_zero_f32, Ideal.ofBits_one_f32]
  show Scalar.select (IntOp.cmpi .sge (IntOp.addi (BitVec.ofNat 32 i.val) 4294967295#32) (BitVec.ofNat 32 j.val))
    (0 : EReal) 1 = _
  rw [below_diag]
  by_cases h : j.val < i.val
  · rw [if_pos h, if_pos h]; exact select_one _ _
  · rw [if_neg h, if_neg h]; exact select_zero _ _

/-- The mask is set exactly on and above the diagonal. -/
theorem mask_apply (i j : Fin 64) : mask (F := Ideal) (ix2 i j) = if i.val ≤ j.val then 1#1 else 0#1 := by
  unfold mask
  rw [cmpf_apply, broadcastInDim_scalar_apply, constant_apply, Ideal.ofBits_zero_f32, triuOnes_apply]
  show Ideal.cmp .une _ 0 = _
  unfold Ideal.cmp
  by_cases h : j.val < i.val
  · rw [if_pos h, if_neg (by omega)]; simp
  · rw [if_neg h, if_pos (by omega)]; simp

/-- Flat position p carries the mask of (p / 64, p % 64), as a word. -/
theorem maskW_apply (p : Fin 4096) :
    maskW (F := Ideal) (ix1 p) = BitVec.ofNat 32 (if p.val / 64 ≤ p.val % 64 then 1 else 0) := by
  have hp := p.isLt
  unfold maskW
  rw [extui_apply, shapeCast_apply _ _ (ix1 p)
    (ix2 (⟨p.val / 64, by omega⟩ : Fin 64) (⟨p.val % 64, Nat.mod_lt _ (by decide)⟩ : Fin 64))
    (by rw [Shape.rowMajor_val_two, Shape.rowMajor_val_one]; show p.val / 64 * 64 + p.val % 64 = p.val; omega), mask_apply]
  show (if p.val / 64 ≤ p.val % 64 then 1#1 else 0#1).setWidth 32 = _
  split_ifs <;> rfl

/-! ## Counting over `Fin N` and over `range N` -/

/-- The members of `Fin N` up to `p`, as naturals, are the naturals up to `p`. -/
private theorem map_val_filter_le {N : ℕ} (p : Fin N) :
    (Finset.univ.filter fun q : Fin N => q.val ≤ p.val).map Fin.valEmbedding = Finset.range (p.val + 1) := by
  ext x
  simp only [Finset.mem_map, Finset.mem_filter, Finset.mem_univ, true_and, Fin.valEmbedding_apply, Finset.mem_range]
  constructor
  · rintro ⟨q, hq, rfl⟩; omega
  · intro hx; exact ⟨⟨x, by have := p.isLt; omega⟩, by show x ≤ p.val; omega, rfl⟩

/-- A sum over the members of `Fin N` up to `p` of a function of the value is the sum over the naturals up to `p`. -/
private theorem sum_fin_le {N : ℕ} (p : Fin N) (f : ℕ → ℕ) :
    (∑ q : Fin N with q.val ≤ p.val, f q.val) = ∑ q ∈ Finset.range (p.val + 1), f q := by
  rw [← map_val_filter_le p, Finset.sum_map]; rfl

/-- As many members of `Fin N` have a property of their value as naturals below `N` have it. -/
private theorem card_filter_fin (N : ℕ) (P : ℕ → Prop) [DecidablePred P] :
    (Finset.univ.filter fun p : Fin N => P p.val).card = ((Finset.range N).filter P).card := by
  rw [← Finset.card_map Fin.valEmbedding]
  congr 1
  ext x
  simp only [Finset.mem_map, Finset.mem_filter, Finset.mem_univ, true_and, Fin.valEmbedding_apply, Finset.mem_range]
  constructor
  · rintro ⟨q, hq, rfl⟩; exact ⟨q.isLt, hq⟩
  · rintro ⟨hx, hP⟩; exact ⟨⟨x, hx⟩, hP, rfl⟩

/-! ## The running count and the bin numbers -/

/-- The running count is below 2³¹. -/
private theorem cnt_lt (p : Fin 4096) : cnt p.val < 2 ^ 31 :=
  lt_of_le_of_lt (cnt_le p.val p.isLt) (by norm_num)

/-- The inclusive running count of set positions up to `p`. -/
theorem csum_apply (p : Fin 4096) : csum (F := Ideal) (ix1 p) = BitVec.ofNat 32 (cnt p.val) := by
  unfold csum
  rw [reduceWindow_cumsum (N := 4096) (by decide) (maskW (F := Ideal))
    (fun q => if q.val / 64 ≤ q.val % 64 then 1 else 0) maskW_apply _ (broadcastInDim_scalar_apply _ _ _) _ _ p]
  refine congrArg (BitVec.ofNat 32) ?_
  rw [sum_fin_le p (fun q => if q / 64 ≤ q % 64 then 1 else 0)]
  unfold cnt
  rw [Finset.card_filter]

/-- Clipping a word that names a natural below 2³¹ at zero from below leaves it alone. -/
private theorem maxsi_zero_of_word (n : ℕ) (hn : n < 2 ^ 31) : IntOp.maxsi 0#32 (BitVec.ofNat 32 n) = BitVec.ofNat 32 n := by
  have ht : (BitVec.ofNat 32 n).toInt = (n : Int) := (LibScatterGather.toInt_eq_natCast_iff _ n hn).2 rfl
  unfold IntOp.maxsi
  rw [if_neg]
  rw [BitVec.slt_eq_decide, ht]
  simp

/-- The bin number of position `p` is its running count: the count is neither negative nor past 2³¹. -/
theorem binIdx_apply (p : Fin 4096) : binIdx (F := Ideal) (ix1 p) = BitVec.ofNat 32 (cnt p.val) := by
  have hn := cnt_lt p
  show Scalar.select (IntOp.cmpi .slt (IntOp.maxsi 0#32 (csum (F := Ideal) (ix1 p))) 0#32)
      (IntOp.addi (IntOp.maxsi 0#32 (csum (F := Ideal) (ix1 p))) 2080#32) (IntOp.maxsi 0#32 (csum (F := Ideal) (ix1 p))) = _
  rw [csum_apply, maxsi_zero_of_word _ hn]
  exact LibScatterGather.wrap_select_of_word _ _ _ hn rfl

/-! ## The bins and their running sum -/

/-- Bin `b` holds the number of positions whose running count is `b`. -/
theorem bins_apply (b : Fin 2080) :
    bins (F := Ideal) (ix1 b) = BitVec.ofNat 32 ((Finset.univ.filter fun p : Fin 4096 => cnt p.val = b.val).card) := by
  unfold bins
  rw [show Cert.ReferenceIdeal.scatter_S2080_S4096x1_S4096_n_0_0_1
      = LibScatterGather.scatter1Dims 2080 4096 Cert.ReferenceIdeal.Gen.scatter_S2080_S4096x1_S4096_n_0_0_1_wf from rfl]
  exact scatter_ones_count (B := 2080) (P := 4096) (by norm_num) _ _ (fun p => cnt p.val)
    (fun p => by
      rw [broadcastInDim_apply _ _ _ _ (ix1 p) (fun a => by
        obtain rfl : a = 0 := Subsingleton.elim _ _
        rfl)]
      exact binIdx_apply p)
    cnt_lt _ (fun b => broadcastInDim_scalar_apply _ _ _) _ (fun p => broadcastInDim_scalar_apply _ _ _) b

/-- Entry `k` of the running sum of the bins is the flat position of the `k`-th set entry. -/
theorem flat_apply (k : Fin 2080) : flat (F := Ideal) (ix1 k) = BitVec.ofNat 32 (pos k.val) := by
  unfold flat
  rw [reduceWindow_cumsum (N := 2080) (by decide) (bins (F := Ideal))
    (fun b => (Finset.univ.filter fun p : Fin 4096 => cnt p.val = b.val).card) bins_apply _
    (broadcastInDim_scalar_apply _ _ _) _ _ k]
  refine congrArg (BitVec.ofNat 32) ?_
  rw [sum_fin_le k (fun b => (Finset.univ.filter fun p : Fin 4096 => cnt p.val = b).card), ← sum_bins k.val k.isLt]
  exact Finset.sum_congr rfl fun b _ => card_filter_fin 4096 (fun p => cnt p = b)

end Cert.RefIndex

end
-- ==== Proof.RefDivMod.lean ====
/-
  Integer floor division and the sign-corrected remainder, as the reference program spells them on vectors of 32-bit
  words, read at an index on small nonnegative words.

  Every operation in the three vector definitions (`floorDiv`, `pyRem`, `wrap64`) acts index by index, and the divisor
  is a splat of one word, so the composite read at an index is a function of the dividend's word at that index alone:
  the scalar composites `rowW` and `colW` below. On the 4096 words `0 … 4095` these are computed outright: the
  dividend and the divisors 64 and 1 are nonnegative, so the truncating quotient is already the floor, the truncating
  remainder is already in `[0, 64)`, no sign correction fires and nothing is wrapped. The divisions never meet their
  corner (a zero divisor, or the least word divided by minus one), so they are the two's-complement `sdiv` / `srem`.
-/
import proofs.«412582_j22814866277106_3_alg».proof.Proof.RefStages
import Idealize.ShloMosaic.PureOps.Float
import Idealize.ShloMosaic.PureOps.Vector
import Idealize.ShloMosaic.PureOps.ShapeOps
import Idealize.ShloMosaic.Lib.ValueIdx

noncomputable section

namespace Cert.RefDivMod

open Cert.RefStages Idealize.ShloMosaic Idealize.ShloMosaic.ValueIdx

/-! ## The scalar composites -/

/-- The sign of a word as a word: `0`, `-1` or `1`. -/
def sgnW (x : BitVec 32) : BitVec 32 := if x = 0 then 0 else if x.msb then -1 else 1

/-- Floor division of one word by one word: the truncating quotient, one less where the signs differ and the
    truncating remainder is nonzero. -/
def fdivW (x y : BitVec 32) : BitVec 32 :=
  Scalar.select
    (IntOp.andi (IntOp.cmpi .ne (sgnW x) (sgnW y)) (IntOp.cmpi .ne (IntOp.remsi .host x y) 0#32))
    (IntOp.subi (IntOp.divsi .host x y) 1#32) (IntOp.divsi .host x y)

/-- The divisor the remainder uses: one in place of zero. -/
def safeW (y : BitVec 32) : BitVec 32 := Scalar.select (IntOp.cmpi .eq y 0#32) 1#32 y

/-- The sign-corrected remainder of one word by one word. -/
def pyRemW (x y : BitVec 32) : BitVec 32 :=
  Scalar.select
    (IntOp.andi
      (IntOp.cmpi .ne (IntOp.cmpi .slt (IntOp.remsi .host x (safeW y)) 0#32) (IntOp.cmpi .slt (safeW y) 0#32))
      (IntOp.cmpi .ne (IntOp.remsi .host x (safeW y)) 0#32))
    (IntOp.addi (IntOp.remsi .host x (safeW y)) (safeW y)) (IntOp.remsi .host x (safeW y))

/-- A negative word wrapped once by 64. -/
def wrapW (x : BitVec 32) : BitVec 32 := Scalar.select (IntOp.cmpi .slt x 0#32) (IntOp.addi x 64#32) x

/-- The row composite on one word: floor-divide by 64, remainder by 64, wrap. -/
def rowW (w : BitVec 32) : BitVec 32 := wrapW (pyRemW (fdivW w 64#32) 64#32)

/-- The column composite on one word: floor-divide by 1, remainder by 64, wrap. -/
def colW (w : BitVec 32) : BitVec 32 := wrapW (pyRemW (fdivW w 1#32) 64#32)

/-! ## The vector composites read at an index -/

theorem row_read (f : IVec Cert.ReferenceIdeal.S2080 32) (j : Cert.ReferenceIdeal.S2080.Idx) :
    wrap64 (pyRem (floorDiv f (constantI Cert.ReferenceIdeal.S_ 32 64#32)) (constantI Cert.ReferenceIdeal.S_ 32 64#32)) j
      = rowW (f j) := rfl

theorem col_read (f : IVec Cert.ReferenceIdeal.S2080 32) (j : Cert.ReferenceIdeal.S2080.Idx) :
    wrap64 (pyRem (floorDiv f (constantI Cert.ReferenceIdeal.S_ 32 1#32)) (constantI Cert.ReferenceIdeal.S_ 32 64#32)) j
      = colW (f j) := rfl

/-! ## The scalar composites on the words `0 … 4095` -/

theorem rowW_all : (List.range 4096).all
    (fun n => decide (rowW (BitVec.ofNat 32 n) = BitVec.ofNat 32 (n / 64 % 64))) = true := by decide +kernel

theorem colW_all : (List.range 4096).all
    (fun n => decide (colW (BitVec.ofNat 32 n) = BitVec.ofNat 32 (n % 64))) = true := by decide +kernel

theorem rowW_ofNat {n : ℕ} (hn : n < 4096) : rowW (BitVec.ofNat 32 n) = BitVec.ofNat 32 (n / 64 % 64) :=
  of_decide_eq_true (List.all_eq_true.mp rowW_all n (List.mem_range.mpr hn))

theorem colW_ofNat {n : ℕ} (hn : n < 4096) : colW (BitVec.ofNat 32 n) = BitVec.ofNat 32 (n % 64) :=
  of_decide_eq_true (List.all_eq_true.mp colW_all n (List.mem_range.mpr hn))

/-! ## The two index vectors on small words -/

/-- Row index: on words `n k < 4096` the composite reads `n k / 64 % 64`. -/
theorem rowIdx_of_word (f : IVec Cert.ReferenceIdeal.S2080 32) (n : Fin 2080 → ℕ) (hn : ∀ k, n k < 4096)
    (hf : ∀ k, f (ix1 k) = BitVec.ofNat 32 (n k)) (k : Fin 2080) :
    wrap64 (pyRem (floorDiv f (constantI Cert.ReferenceIdeal.S_ 32 64#32)) (constantI Cert.ReferenceIdeal.S_ 32 64#32)) (ix1 k)
      = BitVec.ofNat 32 (n k / 64 % 64) := by
  rw [row_read, hf k]; exact rowW_ofNat (hn k)

/-- Column index: on words `n k < 4096` the composite reads `n k % 64`. -/
theorem colIdx_of_word (f : IVec Cert.ReferenceIdeal.S2080 32) (n : Fin 2080 → ℕ) (hn : ∀ k, n k < 4096)
    (hf : ∀ k, f (ix1 k) = BitVec.ofNat 32 (n k)) (k : Fin 2080) :
    wrap64 (pyRem (floorDiv f (constantI Cert.ReferenceIdeal.S_ 32 1#32)) (constantI Cert.ReferenceIdeal.S_ 32 64#32)) (ix1 k)
      = BitVec.ofNat 32 (n k % 64) := by
  rw [col_read, hf k]; exact colW_ofNat (hn k)

end Cert.RefDivMod

end
-- ==== Proof.RefValue.lean ====
/-
  The reference's result is `Cert.Triu.G` of the gated features, at the ideal instance.

  The two computed index vectors hold the rows and the columns of the upper triangle's entries in row-major order:
  entry `k` of the running sum of the bins is the flat position `pos k = 64 · row k + col k` of the `k`-th
  upper-triangular position, so its floor quotient by 64 (reduced mod 64) is `row k` and its remainder mod 64 is
  `col k`, both below 64, where a column gather's clamp is the identity. The product of the two gathered arrays at
  `(v, k)` is `xg[v, row k] · xg[v, col k]`, and re-laying `[32768, 2080]` as `[64, 512 · 2080]` puts `(512 g + n, k)`
  at `(g, 2080 n + k)`.
-/
import proofs.«412582_j22814866277106_3_alg».proof.Proof.RefStages
import proofs.«412582_j22814866277106_3_alg».proof.Proof.TriuSpec
import proofs.«412582_j22814866277106_3_alg».proof.Proof.LibHostInt
import proofs.«412582_j22814866277106_3_alg».proof.Proof.RefIndex
import proofs.«412582_j22814866277106_3_alg».proof.Proof.RefDivMod
import Idealize.ShloMosaic.Lib.Pipeline.Value
import Idealize.ShloMosaic.Lib.ValueIdx

noncomputable section

namespace Cert.RefValue

open Cert.ReferenceIdeal Cert.ReferenceIdeal.Gen Cert.RefStages Cert.Triu Idealize.ShloMosaic Idealize.ShloMosaic.TcCoe
  Idealize.ShloMosaic.ValueIdx

/-- The row index vector holds the rows of the triangle's entries. -/
theorem IU0_apply (k : Fin 2080) : IU0 (F := Ideal) (ix1 k) = BitVec.ofNat 32 (row k.val) := by
  have h := Cert.RefDivMod.rowIdx_of_word (flat (F := Ideal)) (fun k => pos k.val) (fun k => pos_lt k.val k.isLt)
    (fun k => Cert.RefIndex.flat_apply k) k
  show wrap64 (pyRem (floorDiv (flat (F := Ideal)) (constantI S_ 32 64#32)) (constantI S_ 32 64#32)) (ix1 k) = _
  rw [h]
  show BitVec.ofNat 32 (pos k.val / 64 % 64) = _
  rw [pos_div k.val k.isLt, Nat.mod_eq_of_lt (row_lt k.val k.isLt)]

/-- The column index vector holds the columns of the triangle's entries. -/
theorem IU1_apply (k : Fin 2080) : IU1 (F := Ideal) (ix1 k) = BitVec.ofNat 32 (col k.val) := by
  have h := Cert.RefDivMod.colIdx_of_word (flat (F := Ideal)) (fun k => pos k.val) (fun k => pos_lt k.val k.isLt)
    (fun k => Cert.RefIndex.flat_apply k) k
  show wrap64 (pyRem (floorDiv (flat (F := Ideal)) (constantI S_ 32 1#32)) (constantI S_ 32 64#32)) (ix1 k) = _
  rw [h]
  show BitVec.ofNat 32 (pos k.val % 64) = _
  rw [pos_mod k.val k.isLt]

/-- A column gather of the features at an index vector of words naming columns below 64 reads those columns. -/
theorem gatherCol (xg : FVec Ideal S32768x64 .f32) (iu : IVec S2080 32) (e : Fin 2080 → ℕ)
    (he : ∀ k, iu (ix1 k) = BitVec.ofNat 32 (e k)) (hlt : ∀ k, e k < 64) (n : Fin 32768) (k : Fin 2080) :
    Host.gather gather_S32768x64_S2080x1_S32768x2080_0_1_n_n_1_1_327681 xg
      (broadcastInDim S2080x1 ![0] bcast_S2080_S2080x1_0 iu) (ix2 n k) = xg (ix2 n ⟨e k, hlt k⟩) := by
  refine Cert.LibHostInt.gather_col_apply (R := 32768) (C := 64) (K := 2080) (by norm_num)
    gather_S32768x64_S2080x1_S32768x2080_0_1_n_n_1_1_327681.wf xg _ e (fun k => ?_) hlt (by norm_num) n k
  rw [broadcastInDim_apply _ _ _ _ (ix1 k) (fun a => by obtain rfl : a = 0 := Subsingleton.elim _ _; rfl)]
  exact he k

/-- The reference's result from gated features `xg` is `G xg`. -/
theorem outOf_eq (xg : FVec Ideal S32768x64 .f32) : (outOf (F := Ideal) xg : S64x1064960.Idx → EReal) = G xg := by
  funext j
  obtain ⟨g, q, rfl⟩ : ∃ (g : Fin 64) (q : Fin 1064960), j = ix2 g q := ⟨j 0, j 1, eq_ix2 j⟩
  have hg := g.isLt
  have hq := q.isLt
  unfold outOf
  rw [shapeCast_apply _ _ (ix2 g q) (ix2 (node g q) (ent q)) (by
    rw [Shape.rowMajor_val_two, Shape.rowMajor_val_two]
    show (g.val * 512 + q.val / 2080) * 2080 + q.val % 2080 = g.val * 1064960 + q.val
    omega)]
  rw [mulf_apply, gatherCol xg _ (fun k => row k.val) IU0_apply (fun k => row_lt k.val k.isLt),
    gatherCol xg _ (fun k => col k.val) IU1_apply (fun k => col_lt k.val k.isLt)]
  rfl

end Cert.RefValue

end
-- ==== Proof.lean ====
/-
  Both programs compute, from node features `x : [32768, 64]` grouped into 64 graphs of 512 nodes, a gate per graph
  and channel (the graph's mean features through a two-layer perceptron with a logistic output), the gated features
  `xg = x · gate[graph]`, and from them every node's outer product with itself, upper triangle (diagonal included)
  flattened row by row, laid out per graph: `out[g, 2080 n + k] = xg[512 g + n, row k] · xg[512 g + n, col k]`
  (`Cert.Triu.G`). The host operations that produce `xg` are the same, word for word, in both programs, so they are
  carried as one term and never opened (`xg_agree`). The kernel builds each node's triangle with 64 slice products
  into a scratch tile and copies its rows side by side into the output block; the reference gathers the columns
  `row k` and `col k` of `xg`, which it computes at run time by the running-count algorithm for the positions of a
  mask's set entries, multiplies them and re-lays the product. No law of arithmetic joins the two sides beyond reading
  both at an index: the precondition is never opened. The ideal pass rewrote nothing, so `preserves` is trivial.
-/
import proofs.«412582_j22814866277106_3_alg».proof.Defs
import proofs.«412582_j22814866277106_3_alg».proof.Proof.Gen.Kernel
import proofs.«412582_j22814866277106_3_alg».proof.Proof.Gen.Kernel.Skeleton
import proofs.«412582_j22814866277106_3_alg».proof.Proof.Gen.Kernel.Launch
import proofs.«412582_j22814866277106_3_alg».proof.Proof.Gen.Kernel.Points
import proofs.«412582_j22814866277106_3_alg».proof.Proof.Gen.Kernel.Frame
import proofs.«412582_j22814866277106_3_alg».proof.Proof.Gen.KernelIdeal
import proofs.«412582_j22814866277106_3_alg».proof.Proof.Gen.KernelIdeal.Skeleton
import proofs.«412582_j22814866277106_3_alg».proof.Proof.Gen.KernelIdeal.Launch
import proofs.«412582_j22814866277106_3_alg».proof.Proof.Gen.KernelIdeal.Points
import proofs.«412582_j22814866277106_3_alg».proof.Proof.Gen.KernelIdeal.Frame
import proofs.«412582_j22814866277106_3_alg».proof.Proof.Gen.KernelIdeal.Value
import proofs.«412582_j22814866277106_3_alg».proof.Proof.Gen.ReferenceIdeal
import proofs.«412582_j22814866277106_3_alg».proof.Proof.Gen.Pre_finite_inputs
import proofs.«412582_j22814866277106_3_alg».proof.Proof.KernelValue
import proofs.«412582_j22814866277106_3_alg».proof.Proof.RefRun
import proofs.«412582_j22814866277106_3_alg».proof.Proof.RefValue
import Idealize.ShloMosaic.Adequacy
import Idealize.ShloMosaic.Init

noncomputable section

namespace Cert.Proof

open Idealize.ShloMosaic Idealize.ShloMosaic.TcCoe Idealize.SL.Sem

/-- The gated features are one function of the arguments in both programs: the two terms differ only in which
    program's dimension records and shape facts they cite, and those are equal field by field. -/
theorem xg_agree (a0 : FVec Ideal Cert.KernelIdeal.S32768x64 .f32) (a1 : IVec Cert.KernelIdeal.S32768 32)
    (a2 : FVec Ideal Cert.KernelIdeal.S16x64 .f32) (a3 : FVec Ideal Cert.KernelIdeal.S16 .f32)
    (a4 : FVec Ideal Cert.KernelIdeal.S64x16 .f32) (a5 : FVec Ideal Cert.KernelIdeal.S64 .f32) :
    Cert.RefStages.XG (F := Ideal) a0 a1 a2 a3 a4 a5 = Cert.KerStages.XG (F := Ideal) a0 a1 a2 a3 a4 a5 := rfl

theorem frame_k : Cert.frame_Kernel := fun m ρ _ => Cert.Kernel.Gen.frame m ρ
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _)⟩)
    (Cert.ReferenceIdeal.RefRun.run_main (F := Ideal) m ρ)

theorem preserves : Cert.preserves_Kernel_KernelIdeal := trivial

/-- Both runs end with the result at `G` of the gated features of arguments that agree. -/
theorem algebraic : Cert.algebraic_KernelIdeal_ReferenceIdeal := by
  intro m ρ m' ρ' _ hagree
  refine ⟨fun c => Cert.Triu.G (Cert.KernelIdeal.KVal.xg m c), Cert.KernelIdeal.KVal.run m ρ, ?_⟩
  refine (θ_run Cert.ReferenceIdeal.defs _ _).mono (fun _ h c => ?_) (Cert.ReferenceIdeal.RefRun.run_main (F := Ideal) m' ρ')
  refine ⟨(h c Cert.ReferenceIdeal.main_v69).trans ?_,
     (h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _)⟩
  rw [Cert.ReferenceIdeal.RefRun.out_eq]
  obtain ⟨e0, e1, e2, e3, e4, e5⟩ := hagree c
  show Cert.RefStages.outOf (F := Ideal) (Cert.RefStages.XG (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))) = _
  rw [e0, e1, e2, e3, e4, e5, Cert.RefValue.outOf_eq, xg_agree]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
